-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v46) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v63) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4 : Shape := ⟨3, ![2, 512, 4]⟩
abbrev S2048x256x32 : Shape := ⟨3, ![2048, 256, 32]⟩
abbrev S2048x32x256 : Shape := ⟨3, ![2048, 32, 256]⟩
abbrev S_ : Shape := ⟨0, ![]⟩

class Facts : Prop where
  bcast_S_S2048x256x32 : S_.BroadcastsInDim S2048x256x32 (![] : Fin 0 → Fin S2048x256x32.rank)
  reducesTo_S2048x256x32_S_d0_1_2 : S2048x256x32.ReducesTo [0, 1, 2] S_
  h_S_ : 0 < S_.numel
  bcast_S_S2048x32x256 : S_.BroadcastsInDim S2048x32x256 (![] : Fin 0 → Fin S2048x32x256.rank)
  reducesTo_S2048x32x256_S_d0_1_2 : S2048x32x256.ReducesTo [0, 1, 2] S_
  bcast_S_S2x512x4 : S_.BroadcastsInDim S2x512x4 (![] : Fin 0 → Fin S2x512x4.rank)
  reducesTo_S2x512x4_S_d0_1_2 : S2x512x4.ReducesTo [0, 1, 2] S_

variable [Facts]

def fn_part1 {F : FTy → Type} [FloatOps F] (main_arg0 : IVec S2x512x4 32) (main_v13 : IVec S_ 1) (main_v16 : IVec S2048x32x256 1) : IVec S_ 1 :=
  let main_c_5 : IVec S_ 1 := constantI S_ 1 1#1
  let main_v17 : IVec S_ 1 := (fun x v => Host.reduce IntOp.andi x v reducesTo_S2048x32x256_S_d0_1_2 h_S_) main_v16 main_c_5
  let main_v18 : IVec S_ 1 := andi main_v13 main_v17
  let main_c_6 : IVec S_ 32 := constantI S_ 32 0#32
  let main_v19 : IVec S2x512x4 32 := broadcastInDim S2x512x4 ![] bcast_S_S2x512x4 main_c_6
  let main_v20 : IVec S2x512x4 1 := cmpi .sge main_arg0 main_v19
  let main_c_7 : IVec S_ 1 := constantI S_ 1 1#1
  let main_v21 : IVec S_ 1 := (fun x v => Host.reduce IntOp.andi x v reducesTo_S2x512x4_S_d0_1_2 h_S_) main_v20 main_c_7
  let main_v22 : IVec S_ 1 := andi main_v18 main_v21
  main_v22

def fn {F : FTy → Type} [FloatOps F] (main_arg0 : IVec S2x512x4 32) (main_arg1 : FVec F S2048x256x32 .f32) (main_arg2 : FVec F S2048x256x32 .f32) (main_arg3 : FVec F S2048x256x32 .f32) (main_arg4 : FVec F S2048x32x256 .f32) : IVec S_ 1 :=
  let main_v0 : FVec F S2048x256x32 .f32 := Host.absf main_arg1
  let main_cst : FVec F S_ .f32 := constant S_ .f32 0x7F800000#32
  let main_v1 : FVec F S2048x256x32 .f32 := broadcastInDim S2048x256x32 ![] bcast_S_S2048x256x32 main_cst
  let main_v2 : IVec S2048x256x32 1 := cmpf .olt main_v0 main_v1
  let main_c : IVec S_ 1 := constantI S_ 1 1#1
  let main_v3 : IVec S_ 1 := (fun x v => Host.reduce IntOp.andi x v reducesTo_S2048x256x32_S_d0_1_2 h_S_) main_v2 main_c
  let main_v4 : FVec F S2048x256x32 .f32 := Host.absf main_arg2
  let main_cst_0 : FVec F S_ .f32 := constant S_ .f32 0x7F800000#32
  let main_v5 : FVec F S2048x256x32 .f32 := broadcastInDim S2048x256x32 ![] bcast_S_S2048x256x32 main_cst_0
  let main_v6 : IVec S2048x256x32 1 := cmpf .olt main_v4 main_v5
  let main_c_1 : IVec S_ 1 := constantI S_ 1 1#1
  let main_v7 : IVec S_ 1 := (fun x v => Host.reduce IntOp.andi x v reducesTo_S2048x256x32_S_d0_1_2 h_S_) main_v6 main_c_1
  let main_v8 : IVec S_ 1 := andi main_v3 main_v7
  let main_v9 : FVec F S2048x256x32 .f32 := Host.absf main_arg3
  let main_cst_2 : FVec F S_ .f32 := constant S_ .f32 0x7F800000#32
  let main_v10 : FVec F S2048x256x32 .f32 := broadcastInDim S2048x256x32 ![] bcast_S_S2048x256x32 main_cst_2
  let main_v11 : IVec S2048x256x32 1 := cmpf .olt main_v9 main_v10
  let main_c_3 : IVec S_ 1 := constantI S_ 1 1#1
  let main_v12 : IVec S_ 1 := (fun x v => Host.reduce IntOp.andi x v reducesTo_S2048x256x32_S_d0_1_2 h_S_) main_v11 main_c_3
  let main_v13 : IVec S_ 1 := andi main_v8 main_v12
  let main_v14 : FVec F S2048x32x256 .f32 := Host.absf main_arg4
  let main_cst_4 : FVec F S_ .f32 := constant S_ .f32 0x7F800000#32
  let main_v15 : FVec F S2048x32x256 .f32 := broadcastInDim S2048x32x256 ![] bcast_S_S2048x32x256 main_cst_4
  let main_v16 : IVec S2048x32x256 1 := cmpf .olt main_v14 main_v15
  fn_part1 (F := F) main_arg0 main_v13 main_v16
-- ==== Kernel.lean ====
abbrev S2x512x4 : Shape := ⟨3, ![2, 512, 4]⟩
abbrev S2048x256x32 : Shape := ⟨3, ![2048, 256, 32]⟩
abbrev S2048x32x256 : Shape := ⟨3, ![2048, 32, 256]⟩
abbrev S_ : Shape := ⟨0, ![]⟩
abbrev S4096 : Shape := ⟨1, ![4096]⟩
abbrev S2048x64x128 : Shape := ⟨3, ![2048, 64, 128]⟩
abbrev S1024x4x64x128 : Shape := ⟨4, ![1024, 4, 64, 128]⟩
abbrev S1x64x128 : Shape := ⟨3, ![1, 64, 128]⟩
abbrev S1 : Shape := ⟨1, ![1]⟩
abbrev S1x4x64x128 : Shape := ⟨4, ![1, 4, 64, 128]⟩
abbrev S64x128 : Shape := ⟨2, ![64, 128]⟩
abbrev S1x1x64x128 : Shape := ⟨4, ![1, 1, 64, 128]⟩
abbrev S2x512x4x256x32 : Shape := ⟨5, ![2, 512, 4, 256, 32]⟩
abbrev S2x512x4x32x256 : Shape := ⟨5, ![2, 512, 4, 32, 256]⟩
abbrev S32x32 : Shape := ⟨2, ![32, 32]⟩
abbrev S1x32x32 : Shape := ⟨3, ![1, 32, 32]⟩
abbrev S2048x32x32 : Shape := ⟨3, ![2048, 32, 32]⟩

abbrev nBuf : Space → Nat
  | .hbm => 72
  | .vmem => 40
  | .smem => 1
  | _ => 0

abbrev bufTy : (tb : Table) → Fin (tcTables nBuf tb) → BufTy
  | .hbm, ⟨0, _⟩ => ⟨S2x512x4, .i32⟩
  | .hbm, ⟨1, _⟩ => ⟨S2048x256x32, .f32⟩
  | .hbm, ⟨2, _⟩ => ⟨S2048x256x32, .f32⟩
  | .hbm, ⟨3, _⟩ => ⟨S2048x256x32, .f32⟩
  | .hbm, ⟨4, _⟩ => ⟨S2048x32x256, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2x512x4, .i32⟩
  | .hbm, ⟨9, _⟩ => ⟨S2x512x4, .i32⟩
  | .hbm, ⟨10, _⟩ => ⟨S_, .i32⟩
  | .hbm, ⟨11, _⟩ => ⟨S2x512x4, .i32⟩
  | .hbm, ⟨12, _⟩ => ⟨S2x512x4, .i32⟩
  | .hbm, ⟨13, _⟩ => ⟨S2048x64x128, .f32⟩
  | .hbm, ⟨14, _⟩ => ⟨S2048x64x128, .f32⟩
  | .hbm, ⟨15, _⟩ => ⟨S2048x64x128, .f32⟩
  | .hbm, ⟨16, _⟩ => ⟨S2048x64x128, .f32⟩
  | .hbm, ⟨17, _⟩ => ⟨S1024x4x64x128, .f32⟩
  | .hbm, ⟨18, _⟩ => ⟨S1024x4x64x128, .f32⟩
  | .hbm, ⟨19, _⟩ => ⟨S1024x4x64x128, .f32⟩
  | .hbm, ⟨20, _⟩ => ⟨S1024x4x64x128, .f32⟩
  | .hbm, ⟨21, _⟩ => ⟨S2x512x4x256x32, .f32⟩
  | .hbm, ⟨22, _⟩ => ⟨S2x512x4x256x32, .f32⟩
  | .hbm, ⟨23, _⟩ => ⟨S2x512x4x256x32, .f32⟩
  | .hbm, ⟨24, _⟩ => ⟨S2x512x4x32x256, .f32⟩
  | .hbm, ⟨25, _⟩ => ⟨S32x32, .i32⟩
  | .hbm, ⟨26, _⟩ => ⟨S32x32, .i32⟩
  | .hbm, ⟨27, _⟩ => ⟨S_, .i32⟩
  | .hbm, ⟨28, _⟩ => ⟨S32x32, .i32⟩
  | .hbm, ⟨29, _⟩ => ⟨S32x32, .i32⟩
  | .hbm, ⟨30, _⟩ => ⟨S32x32, .i1⟩
  | .hbm, ⟨31, _⟩ => ⟨S32x32, .f32⟩
  | .hbm, ⟨32, _⟩ => ⟨S1x32x32, .f32⟩
  | .hbm, ⟨33, _⟩ => ⟨S2048x32x32, .f32⟩
  | .hbm, ⟨34, _⟩ => ⟨S2048x32x32, .f32⟩
  | .hbm, ⟨35, _⟩ => ⟨S2048x32x32, .f32⟩
  | .hbm, ⟨36, _⟩ => ⟨S2048x32x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x32x32, .f32⟩
  | .hbm, ⟨44, _⟩ => ⟨S2048x32x32, .f32⟩
  | .hbm, ⟨45, _⟩ => ⟨S2048x32x32, .f32⟩
  | .hbm, ⟨46, _⟩ => ⟨S2048x32x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048x32x32, .f32⟩
  | .hbm, ⟨53, _⟩ => ⟨S2048x32x32, .f32⟩
  | .hbm, ⟨54, _⟩ => ⟨S2048x32x32, .f32⟩
  | .hbm, ⟨55, _⟩ => ⟨S2048x32x32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2048x32x32, .f32⟩
  | .hbm, ⟨62, _⟩ => ⟨S2048x32x32, .f32⟩
  | .hbm, ⟨63, _⟩ => ⟨S2048x32x32, .f32⟩
  | .hbm, ⟨64, _⟩ => ⟨S2048x32x32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x128, .f32⟩
  | .local _ .vmem, ⟨31, _⟩ => ⟨S1x64x128, .f32⟩
  | .local _ .vmem, ⟨32, _⟩ => ⟨S1x4x64x128, .f32⟩
  | .local _ .vmem, ⟨33, _⟩ => ⟨S1x4x64x128, .f32⟩
  | .local _ .vmem, ⟨34, _⟩ => ⟨S1x4x64x128, .f32⟩
  | .local _ .vmem, ⟨35, _⟩ => ⟨S1x4x64x128, .f32⟩
  | .local _ .vmem, ⟨36, _⟩ => ⟨S1x4x64x128, .f32⟩
  | .local _ .vmem, ⟨37, _⟩ => ⟨S1x4x64x128, .f32⟩
  | .local _ .vmem, ⟨38, _⟩ => ⟨S1x4x64x128, .f32⟩
  | .local _ .vmem, ⟨39, _⟩ => ⟨S1x4x64x128, .f32⟩
  | .local _ .smem, ⟨0, _⟩ => ⟨S4096, .i32⟩
  | _, _ => ⟨S2x512x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def cc0_transform_0 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_9 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_13 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 4), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S2x512x4 : S_.BroadcastsInDim S2x512x4 (![] : Fin 0 → Fin S2x512x4.rank)
  shapeCasts_S2x512x4_S4096 : S2x512x4.ShapeCasts S4096
  shapeCasts_S2048x256x32_S2048x64x128 : S2048x256x32.ShapeCasts S2048x64x128
  shapeCasts_S2048x32x256_S2048x64x128 : S2048x32x256.ShapeCasts S2048x64x128
  numel1_S1 : S1.numel = 1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x4x64x128_S1x1x64x128_0_0_0_0 : ∀ a, (![0, 0, 0, 0] : Fin 4 → Nat) a + S1x1x64x128.size a ≤ S1x4x64x128.size a
  h_S1x1x64x128 : 0 < S1x1x64x128.numel
  shapeCasts_S1x1x64x128_S64x128 : S1x1x64x128.ShapeCasts S64x128
  shapeCasts_S64x128_S1x1x64x128 : S64x128.ShapeCasts S1x1x64x128
  inb_S1x4x64x128_S1x1x64x128_0_1_0_0 : ∀ a, (![0, 1, 0, 0] : Fin 4 → Nat) a + S1x1x64x128.size a ≤ S1x4x64x128.size a
  inb_S1x4x64x128_S1x1x64x128_0_2_0_0 : ∀ a, (![0, 2, 0, 0] : Fin 4 → Nat) a + S1x1x64x128.size a ≤ S1x4x64x128.size a
  inb_S1x4x64x128_S1x1x64x128_0_3_0_0 : ∀ a, (![0, 3, 0, 0] : Fin 4 → Nat) a + S1x1x64x128.size a ≤ S1x4x64x128.size a
  shapeCasts_S1024x4x64x128_S2x512x4x256x32 : S1024x4x64x128.ShapeCasts S2x512x4x256x32
  shapeCasts_S1024x4x64x128_S2x512x4x32x256 : S1024x4x64x128.ShapeCasts S2x512x4x32x256
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2048x32x32_0_1_2 : S1x32x32.BroadcastsInDim S2048x32x32 (![0, 1, 2] : Fin 3 → Fin S2048x32x32.rank)
  reducesTo_S2048x32x32_S_d0_1_2 : S2048x32x32.ReducesTo [0, 1, 2] S_
  h_S_ : 0 < S_.numel
  dot_S2048x256x32_S2048x256x32_S2048x32x32_1_1_2_2_0_0_wf : DotDims.WF S2048x256x32 S2048x256x32 S2048x32x32 [1] [1] [2] [2] [0] [0]
  dot_S2048x32x256_S2048x32x256_S2048x32x32_2_2_1_1_0_0_wf : DotDims.WF S2048x32x256 S2048x32x256 S2048x32x32 [2] [2] [1] [1] [0] [0]
  hrank0 : 0 < grid0.rank
  k0_off1_inb : ∀ i : grid0.Coords, ∀ (r : Fin 4), ∀ a, (k0_off1 i (BitVec.ofNat 32 r.val)) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off1_inb numel1_S1 pf i = cc0_transform_8 k0_off1_inb numel1_S1 pf i'
  hstage0_9 : ∀ j, (stage0_9 j).IsWhole
  nbuf0_9 : grid0.bufCount reads0_9 false = 2
  hreads0_9 : ∀ {F : FTy → Type} [FloatOps F] (pf : pre0.Contents (Elt F)) (i i' : grid0.Coords), (∀ a, reads0_9 a = true → i a = i' a) → cc0_transform_9 k0_off1_inb numel1_S1 pf i = cc0_transform_9 k0_off1_inb numel1_S1 pf i'
  hstage0_10 : ∀ j, (stage0_10 j).IsWhole
  nbuf0_10 : grid0.bufCount reads0_10 false = 2
  hreads0_10 : ∀ {F : FTy → Type} [FloatOps F] (pf : pre0.Contents (Elt F)) (i i' : grid0.Coords), (∀ a, reads0_10 a = true → i a = i' a) → cc0_transform_10 k0_off1_inb numel1_S1 pf i = cc0_transform_10 k0_off1_inb numel1_S1 pf i'
  hstage0_11 : ∀ j, (stage0_11 j).IsWhole
  nbuf0_11 : grid0.bufCount reads0_11 false = 2
  hreads0_11 : ∀ {F : FTy → Type} [FloatOps F] (pf : pre0.Contents (Elt F)) (i i' : grid0.Coords), (∀ a, reads0_11 a = true → i a = i' a) → cc0_transform_11 k0_off1_inb numel1_S1 pf i = cc0_transform_11 k0_off1_inb numel1_S1 pf i'
  hstage0_12 : ∀ j, (stage0_12 j).IsWhole
  nbuf0_12 : grid0.bufCount reads0_12 false = 2
  hreads0_12 : ∀ {F : FTy → Type} [FloatOps F] (pf : pre0.Contents (Elt F)) (i i' : grid0.Coords), (∀ a, reads0_12 a = true → i a = i' a) → cc0_transform_12 k0_off1_inb numel1_S1 pf i = cc0_transform_12 k0_off1_inb numel1_S1 pf i'
  hstage0_13 : ∀ j, (stage0_13 j).IsWhole
  nbuf0_13 : grid0.bufCount reads0_13 false = 2
  hreads0_13 : ∀ {F : FTy → Type} [FloatOps F] (pf : pre0.Contents (Elt F)) (i i' : grid0.Coords), (∀ a, reads0_13 a = true → i a = i' a) → cc0_transform_13 k0_off1_inb numel1_S1 pf i = cc0_transform_13 k0_off1_inb numel1_S1 pf i'
  hstage0_14 : ∀ j, (stage0_14 j).IsWhole
  nbuf0_14 : grid0.bufCount reads0_14 false = 2
  hreads0_14 : ∀ {F : FTy → Type} [FloatOps F] (pf : pre0.Contents (Elt F)) (i i' : grid0.Coords), (∀ a, reads0_14 a = true → i a = i' a) → cc0_transform_14 k0_off1_inb numel1_S1 pf i = cc0_transform_14 k0_off1_inb numel1_S1 pf i'
  hstage0_15 : ∀ j, (stage0_15 j).IsWhole
  nbuf0_15 : grid0.bufCount reads0_15 false = 2
  hreads0_15 : ∀ {F : FTy → Type} [FloatOps F] (pf : pre0.Contents (Elt F)) (i i' : grid0.Coords), (∀ a, reads0_15 a = true → i a = i' a) → cc0_transform_15 k0_off1_inb numel1_S1 pf i = cc0_transform_15 k0_off1_inb numel1_S1 pf i'
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x4x64x128.size a ≤ S1024x4x64x128.size a
  hwx0_16 : ∀ i : grid0.Coords, EltTy.bits .f32 = 32 ∨ (Rect.block (s := S1024x4x64x128) S1x4x64x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x4x64x128.size a ≤ S1024x4x64x128.size a
  hwx0_17 : ∀ i : grid0.Coords, EltTy.bits .f32 = 32 ∨ (Rect.block (s := S1024x4x64x128) S1x4x64x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x4x64x128.size a ≤ S1024x4x64x128.size a
  hwx0_18 : ∀ i : grid0.Coords, EltTy.bits .f32 = 32 ∨ (Rect.block (s := S1024x4x64x128) S1x4x64x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x4x64x128.size a ≤ S1024x4x64x128.size a
  hwx0_19 : ∀ i : grid0.Coords, EltTy.bits .f32 = 32 ∨ (Rect.block (s := S1024x4x64x128) S1x4x64x128.size (cc0_transform_19 i) (hinb0_19 i)).WholeWords (EltTy.packing .f32)

variable [Facts₀]

def dot_S2048x256x32_S2048x256x32_S2048x32x32_1_1_2_2_0_0 : DotDims S2048x256x32 S2048x256x32 S2048x32x32 where
  lhsContracting := [1]
  rhsContracting := [1]
  lhsNonContracting := [2]
  rhsNonContracting := [2]
  lhsBatch := [0]
  rhsBatch := [0]
  wf := dot_S2048x256x32_S2048x256x32_S2048x32x32_1_1_2_2_0_0_wf
def dot_S2048x32x256_S2048x32x256_S2048x32x32_2_2_1_1_0_0 : DotDims S2048x32x256 S2048x32x256 S2048x32x32 where
  lhsContracting := [2]
  rhsContracting := [2]
  lhsNonContracting := [1]
  rhsNonContracting := [1]
  lhsBatch := [0]
  rhsBatch := [0]
  wf := dot_S2048x32x256_S2048x32x256_S2048x32x32_2_2_1_1_0_0_wf

abbrev spec0_0 : Pipeline.WinSpec sig grid0.rank :=
  Pipeline.WinSpec.ofSpec (Memref.whole main_v2) S1x64x128.size reads0_0 false false 2 stage0_0 sem0_0 nbuf0_0 hstage0_0

abbrev spec0_1 : Pipeline.WinSpec sig grid0.rank :=
  Pipeline.WinSpec.ofSpec (Memref.whole main_v2) S1x64x128.size reads0_1 false false 2 stage0_1 sem0_1 nbuf0_1 hstage0_1

abbrev spec0_2 : Pipeline.WinSpec sig grid0.rank :=
  Pipeline.WinSpec.ofSpec (Memref.whole main_v2) S1x64x128.size reads0_2 false false 2 stage0_2 sem0_2 nbuf0_2 hstage0_2

abbrev spec0_3 : Pipeline.WinSpec sig grid0.rank :=
  Pipeline.WinSpec.ofSpec (Memref.whole main_v2) S1x64x128.size reads0_3 false false 2 stage0_3 sem0_3 nbuf0_3 hstage0_3

abbrev spec0_4 : Pipeline.WinSpec sig grid0.rank :=
  Pipeline.WinSpec.ofSpec (Memref.whole main_v3) S1x64x128.size reads0_4 false false 2 stage0_4 sem0_4 nbuf0_4 hstage0_4

abbrev spec0_5 : Pipeline.WinSpec sig grid0.rank :=
  Pipeline.WinSpec.ofSpec (Memref.whole main_v3) S1x64x128.size reads0_5 false false 2 stage0_5 sem0_5 nbuf0_5 hstage0_5

abbrev spec0_6 : Pipeline.WinSpec sig grid0.rank :=
  Pipeline.WinSpec.ofSpec (Memref.whole main_v3) S1x64x128.size reads0_6 false false 2 stage0_6 sem0_6 nbuf0_6 hstage0_6

abbrev spec0_7 : Pipeline.WinSpec sig grid0.rank :=
  Pipeline.WinSpec.ofSpec (Memref.whole main_v3) S1x64x128.size reads0_7 false false 2 stage0_7 sem0_7 nbuf0_7 hstage0_7

abbrev spec0_8 : Pipeline.WinSpec sig grid0.rank :=
  Pipeline.WinSpec.ofSpec (Memref.whole main_v4) S1x64x128.size reads0_8 false false 2 stage0_8 sem0_8 nbuf0_8 hstage0_8

abbrev spec0_9 : Pipeline.WinSpec sig grid0.rank :=
  Pipeline.WinSpec.ofSpec (Memref.whole main_v4) S1x64x128.size reads0_9 false false 2 stage0_9 sem0_9 nbuf0_9 hstage0_9

abbrev spec0_10 : Pipeline.WinSpec sig grid0.rank :=
  Pipeline.WinSpec.ofSpec (Memref.whole main_v4) S1x64x128.size reads0_10 false false 2 stage0_10 sem0_10 nbuf0_10 hstage0_10

abbrev spec0_11 : Pipeline.WinSpec sig grid0.rank :=
  Pipeline.WinSpec.ofSpec (Memref.whole main_v4) S1x64x128.size reads0_11 false false 2 stage0_11 sem0_11 nbuf0_11 hstage0_11

abbrev spec0_12 : Pipeline.WinSpec sig grid0.rank :=
  Pipeline.WinSpec.ofSpec (Memref.whole main_v5) S1x64x128.size reads0_12 false false 2 stage0_12 sem0_12 nbuf0_12 hstage0_12

abbrev spec0_13 : Pipeline.WinSpec sig grid0.rank :=
  Pipeline.WinSpec.ofSpec (Memref.whole main_v5) S1x64x128.size reads0_13 false false 2 stage0_13 sem0_13 nbuf0_13 hstage0_13

abbrev spec0_14 : Pipeline.WinSpec sig grid0.rank :=
  Pipeline.WinSpec.ofSpec (Memref.whole main_v5) S1x64x128.size reads0_14 false false 2 stage0_14 sem0_14 nbuf0_14 hstage0_14

abbrev spec0_15 : Pipeline.WinSpec sig grid0.rank :=
  Pipeline.WinSpec.ofSpec (Memref.whole main_v5) S1x64x128.size reads0_15 false false 2 stage0_15 sem0_15 nbuf0_15 hstage0_15

abbrev spec0_16 : Pipeline.WinSpec sig grid0.rank :=
  Pipeline.WinSpec.ofSpec (Memref.whole main_v6_0) S1x4x64x128.size reads0_16 true false 2 stage0_16 sem0_16 nbuf0_16 hstage0_16

abbrev spec0_17 : Pipeline.WinSpec sig grid0.rank :=
  Pipeline.WinSpec.ofSpec (Memref.whole main_v6_1) S1x4x64x128.size reads0_17 true false 2 stage0_17 sem0_17 nbuf0_17 hstage0_17

abbrev spec0_18 : Pipeline.WinSpec sig grid0.rank :=
  Pipeline.WinSpec.ofSpec (Memref.whole main_v6_2) S1x4x64x128.size reads0_18 true false 2 stage0_18 sem0_18 nbuf0_18 hstage0_18

abbrev spec0_19 : Pipeline.WinSpec sig grid0.rank :=
  Pipeline.WinSpec.ofSpec (Memref.whole main_v6_3) S1x4x64x128.size reads0_19 true false 2 stage0_19 sem0_19 nbuf0_19 hstage0_19

abbrev spec0 : Fin 20 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | 15 => spec0_15 | 16 => spec0_16 | 17 => spec0_17 | 18 => spec0_18 | 19 => spec0_19 | ⟨_ + 20, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | 15 => nbuf0_15 | 16 => nbuf0_16 | 17 => nbuf0_17 | 18 => nbuf0_18 | 19 => nbuf0_19 | ⟨_ + 20, h⟩ => absurd h (Nat.not_lt.2 (Nat.le_add_left _ _))
abbrev ix0 (pf : pre0.Contents (Elt F)) : (w : Fin 20) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 k0_off1_inb numel1_S1 pf | 9 => cc0_transform_9 k0_off1_inb numel1_S1 pf | 10 => cc0_transform_10 k0_off1_inb numel1_S1 pf | 11 => cc0_transform_11 k0_off1_inb numel1_S1 pf | 12 => cc0_transform_12 k0_off1_inb numel1_S1 pf | 13 => cc0_transform_13 k0_off1_inb numel1_S1 pf | 14 => cc0_transform_14 k0_off1_inb numel1_S1 pf | 15 => cc0_transform_15 k0_off1_inb numel1_S1 pf | 16 => cc0_transform_16 | 17 => cc0_transform_17 | 18 => cc0_transform_18 | 19 => cc0_transform_19 | ⟨_ + 20, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 pf | 9 => hreads0_9 pf | 10 => hreads0_10 pf | 11 => hreads0_11 pf | 12 => hreads0_12 pf | 13 => hreads0_13 pf | 14 => hreads0_14 pf | 15 => hreads0_15 pf | 16 => hreads0_16 | 17 => hreads0_17 | 18 => hreads0_18 | 19 => hreads0_19 | ⟨_ + 20, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x128.size a ≤ S2048x64x128.size a), EltTy.bits .f32 = 32 ∨ (Rect.block (s := S2048x64x128) S1x64x128.size (cc0_transform_0 k0_off1_inb numel1_S1 pf i) h).WholeWords (EltTy.packing .f32)) ∧
  (∀ i : grid0.Coords, ∃ h : (∀ a, (cc0_transform_1 k0_off1_inb numel1_S1 pf i a + 1) * S1x64x128.size a ≤ S2048x64x128.size a), EltTy.bits .f32 = 32 ∨ (Rect.block (s := S2048x64x128) S1x64x128.size (cc0_transform_1 k0_off1_inb numel1_S1 pf i) h).WholeWords (EltTy.packing .f32)) ∧
  (∀ i : grid0.Coords, ∃ h : (∀ a, (cc0_transform_2 k0_off1_inb numel1_S1 pf i a + 1) * S1x64x128.size a ≤ S2048x64x128.size a), EltTy.bits .f32 = 32 ∨ (Rect.block (s := S2048x64x128) S1x64x128.size (cc0_transform_2 k0_off1_inb numel1_S1 pf i) h).WholeWords (EltTy.packing .f32)) ∧
  (∀ i : grid0.Coords, ∃ h : (∀ a, (cc0_transform_3 k0_off1_inb numel1_S1 pf i a + 1) * S1x64x128.size a ≤ S2048x64x128.size a), EltTy.bits .f32 = 32 ∨ (Rect.block (s := S2048x64x128) S1x64x128.size (cc0_transform_3 k0_off1_inb numel1_S1 pf i) h).WholeWords (EltTy.packing .f32)) ∧
  (∀ i : grid0.Coords, ∃ h : (∀ a, (cc0_transform_4 k0_off1_inb numel1_S1 pf i a + 1) * S1x64x128.size a ≤ S2048x64x128.size a), EltTy.bits .f32 = 32 ∨ (Rect.block (s := S2048x64x128) S1x64x128.size (cc0_transform_4 k0_off1_inb numel1_S1 pf i) h).WholeWords (EltTy.packing .f32)) ∧
  (∀ i : grid0.Coords, ∃ h : (∀ a, (cc0_transform_5 k0_off1_inb numel1_S1 pf i a + 1) * S1x64x128.size a ≤ S2048x64x128.size a), EltTy.bits .f32 = 32 ∨ (Rect.block (s := S2048x64x128) S1x64x128.size (cc0_transform_5 k0_off1_inb numel1_S1 pf i) h).WholeWords (EltTy.packing .f32)) ∧
  (∀ i : grid0.Coords, ∃ h : (∀ a, (cc0_transform_6 k0_off1_inb numel1_S1 pf i a + 1) * S1x64x128.size a ≤ S2048x64x128.size a), EltTy.bits .f32 = 32 ∨ (Rect.block (s := S2048x64x128) S1x64x128.size (cc0_transform_6 k0_off1_inb numel1_S1 pf i) h).WholeWords (EltTy.packing .f32)) ∧
  (∀ i : grid0.Coords, ∃ h : (∀ a, (cc0_transform_7 k0_off1_inb numel1_S1 pf i a + 1) * S1x64x128.size a ≤ S2048x64x128.size a), EltTy.bits .f32 = 32 ∨ (Rect.block (s := S2048x64x128) S1x64x128.size (cc0_transform_7 k0_off1_inb numel1_S1 pf i) h).WholeWords (EltTy.packing .f32)) ∧
  (∀ i : grid0.Coords, ∃ h : (∀ a, (cc0_transform_8 k0_off1_inb numel1_S1 pf i a + 1) * S1x64x128.size a ≤ S2048x64x128.size a), EltTy.bits .f32 = 32 ∨ (Rect.block (s := S2048x64x128) S1x64x128.size (cc0_transform_8 k0_off1_inb numel1_S1 pf i) h).WholeWords (EltTy.packing .f32)) ∧
  (∀ i : grid0.Coords, ∃ h : (∀ a, (cc0_transform_9 k0_off1_inb numel1_S1 pf i a + 1) * S1x64x128.size a ≤ S2048x64x128.size a), EltTy.bits .f32 = 32 ∨ (Rect.block (s := S2048x64x128) S1x64x128.size (cc0_transform_9 k0_off1_inb numel1_S1 pf i) h).WholeWords (EltTy.packing .f32)) ∧
  (∀ i : grid0.Coords, ∃ h : (∀ a, (cc0_transform_10 k0_off1_inb numel1_S1 pf i a + 1) * S1x64x128.size a ≤ S2048x64x128.size a), EltTy.bits .f32 = 32 ∨ (Rect.block (s := S2048x64x128) S1x64x128.size (cc0_transform_10 k0_off1_inb numel1_S1 pf i) h).WholeWords (EltTy.packing .f32)) ∧
  (∀ i : grid0.Coords, ∃ h : (∀ a, (cc0_transform_11 k0_off1_inb numel1_S1 pf i a + 1) * S1x64x128.size a ≤ S2048x64x128.size a), EltTy.bits .f32 = 32 ∨ (Rect.block (s := S2048x64x128) S1x64x128.size (cc0_transform_11 k0_off1_inb numel1_S1 pf i) h).WholeWords (EltTy.packing .f32)) ∧
  (∀ i : grid0.Coords, ∃ h : (∀ a, (cc0_transform_12 k0_off1_inb numel1_S1 pf i a + 1) * S1x64x128.size a ≤ S2048x64x128.size a), EltTy.bits .f32 = 32 ∨ (Rect.block (s := S2048x64x128) S1x64x128.size (cc0_transform_12 k0_off1_inb numel1_S1 pf i) h).WholeWords (EltTy.packing .f32)) ∧
  (∀ i : grid0.Coords, ∃ h : (∀ a, (cc0_transform_13 k0_off1_inb numel1_S1 pf i a + 1) * S1x64x128.size a ≤ S2048x64x128.size a), EltTy.bits .f32 = 32 ∨ (Rect.block (s := S2048x64x128) S1x64x128.size (cc0_transform_13 k0_off1_inb numel1_S1 pf i) h).WholeWords (EltTy.packing .f32)) ∧
  (∀ i : grid0.Coords, ∃ h : (∀ a, (cc0_transform_14 k0_off1_inb numel1_S1 pf i a + 1) * S1x64x128.size a ≤ S2048x64x128.size a), EltTy.bits .f32 = 32 ∨ (Rect.block (s := S2048x64x128) S1x64x128.size (cc0_transform_14 k0_off1_inb numel1_S1 pf i) h).WholeWords (EltTy.packing .f32)) ∧
  (∀ i : grid0.Coords, ∃ h : (∀ a, (cc0_transform_15 k0_off1_inb numel1_S1 pf i a + 1) * S1x64x128.size a ≤ S2048x64x128.size a), EltTy.bits .f32 = 32 ∨ (Rect.block (s := S2048x64x128) S1x64x128.size (cc0_transform_15 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2.1 i).elim fun h _ => h a | 11 => fun i a => (hok.2.2.2.2.2.2.2.2.2.2.2.1 i).elim fun h _ => h a | 12 => fun i a => (hok.2.2.2.2.2.2.2.2.2.2.2.2.1 i).elim fun h _ => h a | 13 => fun i a => (hok.2.2.2.2.2.2.2.2.2.2.2.2.2.1 i).elim fun h _ => h a | 14 => fun i a => (hok.2.2.2.2.2.2.2.2.2.2.2.2.2.2.1 i).elim fun h _ => h a | 15 => fun i a => (hok.2.2.2.2.2.2.2.2.2.2.2.2.2.2.2 i).elim fun h _ => h a | 16 => hinb0_16 | 17 => hinb0_17 | 18 => hinb0_18 | 19 => hinb0_19 | ⟨_ + 20, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2.1 i).elim fun _ h => h | 11 => fun i => (hok.2.2.2.2.2.2.2.2.2.2.2.1 i).elim fun _ h => h | 12 => fun i => (hok.2.2.2.2.2.2.2.2.2.2.2.2.1 i).elim fun _ h => h | 13 => fun i => (hok.2.2.2.2.2.2.2.2.2.2.2.2.2.1 i).elim fun _ h => h | 14 => fun i => (hok.2.2.2.2.2.2.2.2.2.2.2.2.2.2.1 i).elim fun _ h => h | 15 => fun i => (hok.2.2.2.2.2.2.2.2.2.2.2.2.2.2.2 i).elim fun _ h => h | 16 => hwx0_16 | 17 => hwx0_17 | 18 => hwx0_18 | 19 => hwx0_19 | ⟨_ + 20, h⟩ => absurd h (Nat.not_lt.2 (Nat.le_add_left _ _))

class Facts : Prop extends Facts₀ where
  harr0 : ∀ w, (spec0 w).arr.IsWhole

variable [Facts]
-- ==== ReferenceIdeal.lean ====
abbrev S2x512x4 : Shape := ⟨3, ![2, 512, 4]⟩
abbrev S2048x256x32 : Shape := ⟨3, ![2048, 256, 32]⟩
abbrev S2048x32x256 : Shape := ⟨3, ![2048, 32, 256]⟩
abbrev S_ : Shape := ⟨0, ![]⟩
abbrev S2x512x4x1 : Shape := ⟨4, ![2, 512, 4, 1]⟩
abbrev S2x512x4x256x32 : Shape := ⟨5, ![2, 512, 4, 256, 32]⟩
abbrev S2x512x4x32x256 : Shape := ⟨5, ![2, 512, 4, 32, 256]⟩
abbrev S32x32 : Shape := ⟨2, ![32, 32]⟩
abbrev S1x32x32 : Shape := ⟨3, ![1, 32, 32]⟩
abbrev S2048x32x32 : Shape := ⟨3, ![2048, 32, 32]⟩

abbrev nBuf : Space → Nat
  | .hbm => 88
  | .vmem => 0
  | .smem => 0
  | _ => 0

abbrev bufTy : (tb : Table) → Fin (tcTables nBuf tb) → BufTy
  | .hbm, ⟨0, _⟩ => ⟨S2x512x4, .i32⟩
  | .hbm, ⟨1, _⟩ => ⟨S2048x256x32, .f32⟩
  | .hbm, ⟨2, _⟩ => ⟨S2048x256x32, .f32⟩
  | .hbm, ⟨3, _⟩ => ⟨S2048x256x32, .f32⟩
  | .hbm, ⟨4, _⟩ => ⟨S2048x32x256, .f32⟩
  | .hbm, ⟨5, _⟩ => ⟨S_, .i32⟩
  | .hbm, ⟨6, _⟩ => ⟨S2x512x4, .i32⟩
  | .hbm, ⟨7, _⟩ => ⟨S2x512x4, .i1⟩
  | .hbm, ⟨8, _⟩ => ⟨S_, .i32⟩
  | .hbm, ⟨9, _⟩ => ⟨S2x512x4, .i32⟩
  | .hbm, ⟨10, _⟩ => ⟨S2x512x4, .i32⟩
  | .hbm, ⟨11, _⟩ => ⟨S2x512x4, .i32⟩
  | .hbm, ⟨12, _⟩ => ⟨S2x512x4x1, .i32⟩
  | .hbm, ⟨13, _⟩ => ⟨S2x512x4x256x32, .f32⟩
  | .hbm, ⟨14, _⟩ => ⟨S_, .i32⟩
  | .hbm, ⟨15, _⟩ => ⟨S2x512x4, .i32⟩
  | .hbm, ⟨16, _⟩ => ⟨S2x512x4, .i1⟩
  | .hbm, ⟨17, _⟩ => ⟨S_, .i32⟩
  | .hbm, ⟨18, _⟩ => ⟨S2x512x4, .i32⟩
  | .hbm, ⟨19, _⟩ => ⟨S2x512x4, .i32⟩
  | .hbm, ⟨20, _⟩ => ⟨S2x512x4, .i32⟩
  | .hbm, ⟨21, _⟩ => ⟨S2x512x4x1, .i32⟩
  | .hbm, ⟨22, _⟩ => ⟨S2x512x4x256x32, .f32⟩
  | .hbm, ⟨23, _⟩ => ⟨S_, .i32⟩
  | .hbm, ⟨24, _⟩ => ⟨S2x512x4, .i32⟩
  | .hbm, ⟨25, _⟩ => ⟨S2x512x4, .i1⟩
  | .hbm, ⟨26, _⟩ => ⟨S_, .i32⟩
  | .hbm, ⟨27, _⟩ => ⟨S2x512x4, .i32⟩
  | .hbm, ⟨28, _⟩ => ⟨S2x512x4, .i32⟩
  | .hbm, ⟨29, _⟩ => ⟨S2x512x4, .i32⟩
  | .hbm, ⟨30, _⟩ => ⟨S2x512x4x1, .i32⟩
  | .hbm, ⟨31, _⟩ => ⟨S2x512x4x256x32, .f32⟩
  | .hbm, ⟨32, _⟩ => ⟨S_, .i32⟩
  | .hbm, ⟨33, _⟩ => ⟨S2x512x4, .i32⟩
  | .hbm, ⟨34, _⟩ => ⟨S2x512x4, .i1⟩
  | .hbm, ⟨35, _⟩ => ⟨S_, .i32⟩
  | .hbm, ⟨36, _⟩ => ⟨S2x512x4, .i32⟩
  | .hbm, ⟨37, _⟩ => ⟨S2x512x4, .i32⟩
  | .hbm, ⟨38, _⟩ => ⟨S2x512x4, .i32⟩
  | .hbm, ⟨39, _⟩ => ⟨S2x512x4x1, .i32⟩
  | .hbm, ⟨40, _⟩ => ⟨S2x512x4x32x256, .f32⟩
  | .hbm, ⟨41, _⟩ => ⟨S32x32, .i32⟩
  | .hbm, ⟨42, _⟩ => ⟨S32x32, .i32⟩
  | .hbm, ⟨43, _⟩ => ⟨S_, .i32⟩
  | .hbm, ⟨44, _⟩ => ⟨S32x32, .i32⟩
  | .hbm, ⟨45, _⟩ => ⟨S32x32, .i32⟩
  | .hbm, ⟨46, _⟩ => ⟨S32x32, .i1⟩
  | .hbm, ⟨47, _⟩ => ⟨S32x32, .f32⟩
  | .hbm, ⟨48, _⟩ => ⟨S1x32x32, .f32⟩
  | .hbm, ⟨49, _⟩ => ⟨S2048x32x32, .f32⟩
  | .hbm, ⟨50, _⟩ => ⟨S2048x32x32, .f32⟩
  | .hbm, ⟨51, _⟩ => ⟨S2048x32x32, .f32⟩
  | .hbm, ⟨52, _⟩ => ⟨S2048x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x32x32, .f32⟩
  | .hbm, ⟨60, _⟩ => ⟨S2048x32x32, .f32⟩
  | .hbm, ⟨61, _⟩ => ⟨S2048x32x32, .f32⟩
  | .hbm, ⟨62, _⟩ => ⟨S2048x32x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x32x32, .f32⟩
  | .hbm, ⟨69, _⟩ => ⟨S2048x32x32, .f32⟩
  | .hbm, ⟨70, _⟩ => ⟨S2048x32x32, .f32⟩
  | .hbm, ⟨71, _⟩ => ⟨S2048x32x32, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2048x32x32, .f32⟩
  | .hbm, ⟨78, _⟩ => ⟨S2048x32x32, .f32⟩
  | .hbm, ⟨79, _⟩ => ⟨S2048x32x32, .f32⟩
  | .hbm, ⟨80, _⟩ => ⟨S2048x32x32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S2x512x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S2x512x4 : S_.BroadcastsInDim S2x512x4 (![] : Fin 0 → Fin S2x512x4.rank)
  bcast_S2x512x4_S2x512x4x1_0_1_2 : S2x512x4.BroadcastsInDim S2x512x4x1 (![0, 1, 2] : Fin 3 → Fin S2x512x4x1.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2048x32x32_0_1_2 : S1x32x32.BroadcastsInDim S2048x32x32 (![0, 1, 2] : Fin 3 → Fin S2048x32x32.rank)
  reducesTo_S2048x32x32_S_d0_1_2 : S2048x32x32.ReducesTo [0, 1, 2] S_
  h_S_ : 0 < S_.numel
  gather_S2048x256x32_S2x512x4x1_S2x512x4x256x32_34_0_n_n_0_3_125632_wf : GatherDims.WF S2048x256x32 S2x512x4x1 S2x512x4x256x32 [3, 4] [0] [] [0] [] 3 ![1, 256, 32]
  gather_S2048x32x256_S2x512x4x1_S2x512x4x32x256_34_0_n_n_0_3_132256_wf : GatherDims.WF S2048x32x256 S2x512x4x1 S2x512x4x32x256 [3, 4] [0] [] [0] [] 3 ![1, 32, 256]
  dot_S2048x256x32_S2048x256x32_S2048x32x32_1_1_2_2_0_0_wf : DotDims.WF S2048x256x32 S2048x256x32 S2048x32x32 [1] [1] [2] [2] [0] [0]
  dot_S2048x32x256_S2048x32x256_S2048x32x32_2_2_1_1_0_0_wf : DotDims.WF S2048x32x256 S2048x32x256 S2048x32x32 [2] [2] [1] [1] [0] [0]

variable [Facts₀]

def gather_S2048x256x32_S2x512x4x1_S2x512x4x256x32_34_0_n_n_0_3_125632 : GatherDims S2048x256x32 S2x512x4x1 S2x512x4x256x32 where
  offsetDims := [3, 4]
  collapsedSliceDims := [0]
  operandBatchingDims := []
  startIndicesBatchingDims := []
  startIndexMap := [0]
  indexVectorDim := 3
  sliceSizes := ![1, 256, 32]
  wf := gather_S2048x256x32_S2x512x4x1_S2x512x4x256x32_34_0_n_n_0_3_125632_wf
def gather_S2048x32x256_S2x512x4x1_S2x512x4x32x256_34_0_n_n_0_3_132256 : GatherDims S2048x32x256 S2x512x4x1 S2x512x4x32x256 where
  offsetDims := [3, 4]
  collapsedSliceDims := [0]
  operandBatchingDims := []
  startIndicesBatchingDims := []
  startIndexMap := [0]
  indexVectorDim := 3
  sliceSizes := ![1, 32, 256]
  wf := gather_S2048x32x256_S2x512x4x1_S2x512x4x32x256_34_0_n_n_0_3_132256_wf
def dot_S2048x256x32_S2048x256x32_S2048x32x32_1_1_2_2_0_0 : DotDims S2048x256x32 S2048x256x32 S2048x32x32 where
  lhsContracting := [1]
  rhsContracting := [1]
  lhsNonContracting := [2]
  rhsNonContracting := [2]
  lhsBatch := [0]
  rhsBatch := [0]
  wf := dot_S2048x256x32_S2048x256x32_S2048x32x32_1_1_2_2_0_0_wf
def dot_S2048x32x256_S2048x32x256_S2048x32x32_2_2_1_1_0_0 : DotDims S2048x32x256 S2048x32x256 S2048x32x32 where
  lhsContracting := [2]
  rhsContracting := [2]
  lhsNonContracting := [1]
  rhsNonContracting := [1]
  lhsBatch := [0]
  rhsBatch := [0]
  wf := dot_S2048x32x256_S2048x32x256_S2048x32x32_2_2_1_1_0_0_wf

class Facts : Prop extends Facts₀ where

variable [Facts]
-- ==== Proof.BDefs.lean ====
/-
  The gather kernel's region, stated once for both readings of the program: the block each window
  stages at a grid point, what one output block holds after the body (the four staged rows stacked
  along its second axis), and the pipeline's proof data.  Each weight table is handed to the call
  through four input windows, so each of those windows holds a quarter of the table's share.
-/
import proofs.«401394_j300647710818_2_alg».proof.Proof.Gen.Kernel.Launch
import proofs.«401394_j300647710818_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at grid point `t`, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- Four [1, 64, 128] rows stacked into one [1, 4, 64, 128] block: slot `k` of the second axis is row `k`. -/
def stack4 (x0 x1 x2 x3 : Vec F S1x64x128 .f32) : Vec F S1x4x64x128 .f32 := fun j =>
  let y : S1x64x128.Idx := ValueIdx.ix3 (⟨0, Nat.one_pos⟩ : Fin 1) (⟨(j 2).val, (j 2).isLt⟩ : Fin 64) (⟨(j 3).val, (j 3).isLt⟩ : Fin 128)
  match (j 1).val with
  | 0 => x0 y
  | 1 => x1 y
  | 2 => x2 y
  | _ => x3 y

/-- The share of its table each input window holds: the four windows on one table take its four quarters;
    an output window's array is held whole. -/
def qshare : Fin 20 → PosShare TreeShare
  | ⟨0, _⟩ => fullShare.left.left
  | ⟨1, _⟩ => fullShare.left.right
  | ⟨2, _⟩ => fullShare.right.left
  | ⟨3, _⟩ => fullShare.right.right
  | ⟨4, _⟩ => fullShare.left.left
  | ⟨5, _⟩ => fullShare.left.right
  | ⟨6, _⟩ => fullShare.right.left
  | ⟨7, _⟩ => fullShare.right.right
  | ⟨8, _⟩ => fullShare.left.left
  | ⟨9, _⟩ => fullShare.left.right
  | ⟨10, _⟩ => fullShare.right.left
  | ⟨11, _⟩ => fullShare.right.right
  | ⟨12, _⟩ => fullShare.left.left
  | ⟨13, _⟩ => fullShare.left.right
  | ⟨14, _⟩ => fullShare.right.left
  | ⟨15, _⟩ => fullShare.right.right
  | _ => fullShare

/-- The proof data of the region on core `c`: the arrays as the region finds them; after the body at point `t`
    an input window's buffer still holds its block and output window `16 + o`'s holds the blocks of input windows
    `4 o … 4 o + 3` stacked; the invariant is the scoped rest, the generator register and the index table, held whole and never written. -/
def dat0 (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => iblk a V c 5 t
    | ⟨6, _⟩ => iblk a V c 6 t
    | ⟨7, _⟩ => iblk a V c 7 t
    | ⟨8, _⟩ => iblk a V c 8 t
    | ⟨9, _⟩ => iblk a V c 9 t
    | ⟨10, _⟩ => iblk a V c 10 t
    | ⟨11, _⟩ => iblk a V c 11 t
    | ⟨12, _⟩ => iblk a V c 12 t
    | ⟨13, _⟩ => iblk a V c 13 t
    | ⟨14, _⟩ => iblk a V c 14 t
    | ⟨15, _⟩ => iblk a V c 15 t
    | ⟨16, _⟩ => stack4 (iblk a V c 0 t) (iblk a V c 1 t) (iblk a V c 2 t) (iblk a V c 3 t)
    | ⟨17, _⟩ => stack4 (iblk a V c 4 t) (iblk a V c 5 t) (iblk a V c 6 t) (iblk a V c 7 t)
    | ⟨18, _⟩ => stack4 (iblk a V c 8 t) (iblk a V c 9 t) (iblk a V c 10 t) (iblk a V c 11 t)
    | ⟨19, _⟩ => stack4 (iblk a V c 12 t) (iblk a V c 13 t) (iblk a V c 14 t) (iblk a V c 15 t)
    | ⟨_ + 20, h⟩ => absurd h (Nat.not_lt.2 (Nat.le_add_left _ _))
  Φ _ := iprop(Pipeline.ΦA spec0 c ∗ Pipeline.prefHeld (Ix := Unit) (Name := ℕ) (U := UR sig nD τ) (Lvl := ℕ) pre0 c (fun _ => fullShare) a.1)
  q := qshare
  owed _ := 0

theorem A_eq (c : Dev nD) (w : Fin (cfg0 a).W) : (dat0 a V c).A w = V c (Pipeline.arrRef spec0 w) := by
  dsimp only [dat0]

end Cert.Kernel.Hand

end
-- ==== Proof.BFold.lean ====
/-
  The buffers' contents as @main proceeds up to the call: at launch, and after each of the three stretches of host
  operations before it (two constants; the clamp of the indices; the flattening of the index table and the relayout
  of the four weight tables).  The index table the call prefetches is read off the last of these.
-/
import proofs.«401394_j300647710818_2_alg».proof.Proof.Gen.Kernel.Launch
import Idealize.ShloMosaic.Lib.StableHlo.Run
import Idealize.ShloMosaic.Lib.Pipeline.RegionsLoop

noncomputable section

namespace Cert.Kernel.Hand

open Idealize.ShloMosaic Idealize.ShloMosaic.TcCoe Idealize.SL.Sem Cert.Kernel Cert.Kernel.Gen

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two constants. -/
abbrev W1 : Dev nD → Valuation τ sig (Elt F) := fun c => StableHlo.after hostOps0 (W0 m ρ c)
/-- After the clamp. -/
abbrev W2 : Dev nD → Valuation τ sig (Elt F) := fun c => StableHlo.after hostOps0_1 (W1 m ρ c)
/-- After the relayouts: what the call finds. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

/-- The index table's contents when the call is entered (the program runs on one device). -/
def tbl : pre0.Contents (Elt F) := fun j => V3 m ρ (0 : Dev nD) (pre0.ref j)

/-- On every device the table holds those contents. -/
theorem V_pre (c : Dev nD) (j : Fin 1) : V3 m ρ c (pre0.ref j) = tbl m ρ j := by
  obtain rfl : c = 0 := Subsingleton.elim _ _
  rfl

end Cert.Kernel.Hand

end
-- ==== Proof.BShare.lean ====
/-
  The call's arrays as the pipeline holds them against the buffers behind them.  Each weight table is handed to the
  call through four input windows, each holding a quarter of the table's share; each result array through one output
  window, held whole.  So the pipeline's `arrays`, at contents read off a valuation of the buffers, are exactly the
  eight distinct buffers each whole at the full share: a table's points-to splits into its four quarters and joins back.
-/
import proofs.«401394_j300647710818_2_alg».proof.Proof.Gen.Kernel.Launch
import proofs.«401394_j300647710818_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.BDefs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- A points-to at the full share is its four quarters. -/
theorem quarters {ℓ : Loc nD τ sig} (f : Buf (Elt F) ℓ) :
    (ℓ ↦{fullShare} f : sProp 𝕄) = iprop((ℓ ↦{fullShare.left.left} f) ∗ (ℓ ↦{fullShare.left.right} f) ∗ (ℓ ↦{fullShare.right.left} f) ∗ (ℓ ↦{fullShare.right.right} f)) := by
  rw [BI.Entails.antisymm (pointsTo_share (PosShare.mem_left_op_right fullShare)).1 (pointsTo_share (PosShare.mem_left_op_right fullShare)).2,
    BI.Entails.antisymm (pointsTo_share (PosShare.mem_left_op_right fullShare.left)).1 (pointsTo_share (PosShare.mem_left_op_right fullShare.left)).2,
    BI.Entails.antisymm (pointsTo_share (PosShare.mem_left_op_right fullShare.right)).1 (pointsTo_share (PosShare.mem_left_op_right fullShare.right)).2]
  exact BI.Entails.antisymm Idealize.SL.BI.sep_assoc Idealize.SL.BI.sep_assoc'

/-- Four conjuncts of a chain taken as one group. -/
theorem regroup4 (A B C D R : sProp 𝕄) : (iprop(A ∗ B ∗ C ∗ D ∗ R) : sProp 𝕄) = iprop((A ∗ B ∗ C ∗ D) ∗ R) :=
  BI.Entails.antisymm
    (show (iprop(A ∗ B ∗ C ∗ D ∗ R) : sProp 𝕄) ⊢ iprop((A ∗ B ∗ C ∗ D) ∗ R) from by
      iintro ⟨HA, HB, HC, HD, HR⟩
      isplitr [HR]
      · isplitl [HA]
        · iexact HA
        isplitl [HB]
        · iexact HB
        isplitl [HC]
        · iexact HC
        iexact HD
      · iexact HR)
    (show (iprop((A ∗ B ∗ C ∗ D) ∗ R) : sProp 𝕄) ⊢ iprop(A ∗ B ∗ C ∗ D ∗ R) from by
      iintro ⟨⟨HA, HB, HC, HD⟩, HR⟩
      isplitl [HA]
      · iexact HA
      isplitl [HB]
      · iexact HB
      isplitl [HC]
      · iexact HC
      isplitl [HD]
      · iexact HD
      iexact HR)

/-- The distinct buffers behind the windows' arrays. -/
theorem arrRefs_eq : Finset.univ.image (Pipeline.arrRef spec0) = {main_v2, main_v3, main_v4, main_v5, main_v6_0, main_v6_1, main_v6_2, main_v6_3} := by
  decide

/-- The share the pipeline holds each window's array at: a quarter for an input window, all of it for an output's. -/
theorem share_eq (c : Dev nD) (w : Fin 20) : (dat0 a V c).share w = qshare w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨_ + 20, h⟩ => exact absurd h (Nat.not_lt.2 (Nat.le_add_left _ _))

set_option maxHeartbeats 4000000 in
/-- The pipeline's arrays, at contents read off a valuation `V'` of the buffers, are the eight buffers behind them,
    each whole at the full share at `V'`. -/
theorem arrays_eq_arrBufs (c : Dev nD)
    (G : (w : Fin (cfg0 a).W) → Buf (Elt F) (((cfg0 a).win w).arr.view.loc (c.tc : Thread nD τ)))
    (V' : (b : Ref sig .tc) → Buf (Elt F) ((c : Thread nD τ).loc b))
    (hG : ∀ w, G w = V' (Pipeline.arrRef spec0 w)) :
    ((dat0 a V c).arrays G : sProp 𝕄) = Pipeline.arrBufs spec0 c V' := by
  have h1 : ((dat0 a V c).arrays G : sProp 𝕄)
      = bigSep Finset.univ fun w : Fin 20 => (((c.tc : Thread nD τ).loc (Pipeline.arrRef spec0 w)) ↦{qshare w} V' (Pipeline.arrRef spec0 w) : sProp 𝕄) := by
    unfold Dat.arrays
    exact bigSep_congr fun w _ => by rw [(arr_whole0 w).set_eq_univ, hG, share_eq]
  rw [h1, bigSep_W0]
  unfold Pipeline.arrBufs
  rw [arrRefs_eq]
  rw [bigSep_insert (by decide), bigSep_insert (by decide), bigSep_insert (by decide), bigSep_insert (by decide),
    bigSep_insert (by decide), bigSep_insert (by decide), bigSep_insert (by decide), bigSep_singleton]
  rw [quarters (V' main_v2), quarters (V' main_v3), quarters (V' main_v4), quarters (V' main_v5)]
  refine BI.Entails.antisymm ?_ ?_
  · show (_ : sProp 𝕄) ⊢ iprop(_ ∗ _ ∗ _ ∗ _ ∗ _ ∗ _ ∗ _ ∗ _)
    iintro ⟨A0, A1, A2, A3, A4, A5, A6, A7, A8, A9, A10, A11, A12, A13, A14, A15, A16, A17, A18, A19⟩
    isplitl [A0 A1 A2 A3]
    ·
      isplitl [A0]
      · iexact A0
      isplitl [A1]
      · iexact A1
      isplitl [A2]
      · iexact A2
      iexact A3
    isplitl [A4 A5 A6 A7]
    ·
      isplitl [A4]
      · iexact A4
      isplitl [A5]
      · iexact A5
      isplitl [A6]
      · iexact A6
      iexact A7
    isplitl [A8 A9 A10 A11]
    ·
      isplitl [A8]
      · iexact A8
      isplitl [A9]
      · iexact A9
      isplitl [A10]
      · iexact A10
      iexact A11
    isplitl [A12 A13 A14 A15]
    ·
      isplitl [A12]
      · iexact A12
      isplitl [A13]
      · iexact A13
      isplitl [A14]
      · iexact A14
      iexact A15
    isplitl [A16]
    · iexact A16
    isplitl [A17]
    · iexact A17
    isplitl [A18]
    · iexact A18
    iexact A19
  · show (iprop(_ ∗ _ ∗ _ ∗ _ ∗ _ ∗ _ ∗ _ ∗ _) : sProp 𝕄) ⊢ _
    iintro ⟨⟨A0, A1, A2, A3⟩, ⟨A4, A5, A6, A7⟩, ⟨A8, A9, A10, A11⟩, ⟨A12, A13, A14, A15⟩, A16, A17, A18, A19⟩
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    isplitl [A9]
    · iexact A9
    isplitl [A10]
    · iexact A10
    isplitl [A11]
    · iexact A11
    isplitl [A12]
    · iexact A12
    isplitl [A13]
    · iexact A13
    isplitl [A14]
    · iexact A14
    isplitl [A15]
    · iexact A15
    isplitl [A16]
    · iexact A16
    isplitl [A17]
    · iexact A17
    isplitl [A18]
    · iexact A18
    iexact A19

end Cert.Kernel.Hand

end
-- ==== Proof.BSpec.lean ====
/-
  The two pure functions the gather is stated through.  `clampFlat`: the index table the call prefetches — every
  index clamped into [0, 2047] (a signed maximum with 0, then a signed minimum with 2047) and the [2, 512, 4] array
  laid out flat.  `gatherRows`: row `tb[4 i + k]` of a [2048, 64, 128] table placed at position `(i, k)` of a
  [1024, 4, 64, 128] array — what the call's write-backs leave in one output.
-/
import proofs.«401394_j300647710818_2_alg».proof.Proof.Gen.Kernel
import Idealize.ShloMosaic.Lib.ValueIdx

noncomputable section

namespace Cert.Kernel.Hand

open Idealize.ShloMosaic Cert.Kernel Cert.Kernel.Gen

/-- Every index clamped into [0, 2047], the array laid out flat. -/
def clampFlat (x : IVec S2x512x4 32) : IVec S4096 32 :=
  shapeCast S4096
    (minsi (broadcastInDim S2x512x4 ![] bcast_S_S2x512x4 (constantI S_ 32 2047#32))
      (maxsi (broadcastInDim S2x512x4 ![] bcast_S_S2x512x4 (constantI S_ 32 0#32)) x))
    shapeCasts_S2x512x4_S4096

/-- Row `tb[4 i + k]` (read as a natural number, capped at the last row) of `W` at position `(i, k)`. -/
def gatherRows {α : Type} (W : S2048x64x128.Idx → α) (tb : IVec S4096 32) : S1024x4x64x128.Idx → α := fun j =>
  W (ValueIdx.ix3
    (⟨min (tb (ValueIdx.ix1 (⟨4 * (j 0).val + (j 1).val, by
        have h0 : (j 0).val < 1024 := (j 0).isLt
        have h1 : (j 1).val < 4 := (j 1).isLt
        omega⟩ : Fin 4096))).toNat 2047, by omega⟩ : Fin 2048)
    (⟨(j 2).val, (j 2).isLt⟩ : Fin 64) (⟨(j 3).val, (j 3).isLt⟩ : Fin 128))

end Cert.Kernel.Hand

end
-- ==== Proof.BEntry.lean ====
/-
  The host operations that run before the gather call, read as values.  The index array is clamped into
  [0, 2047] (a signed maximum with 0, then a signed minimum with 2047) and laid out flat: that flat table
  is what the call prefetches.  The four weight tables are re-laid as [2048, 64, 128] arrays.  Because every
  entry of the table is a row number in [0, 2047], each block the call stages lies inside its table: the
  call's side condition on the table holds for every input memory.
-/
import proofs.«401394_j300647710818_2_alg».proof.Proof.BSpec
import proofs.«401394_j300647710818_2_alg».proof.Proof.BFold
import proofs.«401394_j300647710818_2_alg».proof.Proof.Gen.Kernel.Launch
import Idealize.ShloMosaic.Lib.StableHlo.Run
import Idealize.ShloMosaic.Lib.Pipeline.RegionsLoop

set_option maxRecDepth 16384

noncomputable section

namespace Cert.Kernel.Hand

open Idealize.ShloMosaic Idealize.ShloMosaic.TcCoe Idealize.SL.Sem Cert.Kernel Cert.Kernel.Gen

variable {F : FTy → Type} [FloatOps F]
variable (m : (ℓ : Loc nD τ sig) → Buf (Elt F) ℓ) (ρ : Dev nD → PrngReg)

/-! ## What the call finds in each buffer it reads -/

/-- The prefetched table as the call finds it: the clamped indices laid out flat. -/
theorem V3_main_v1 (c : Dev nD) :
    (V3 m ρ c main_v1 : S4096.Idx → BitVec 32) = clampFlat (m ((c : Thread nD τ).loc main_arg0)) := by
  show StableHlo.after hostOps0_2 (W2 m ρ c) (Proc.devRef .tc main_v1) = _
  after_results
  rfl

/-- The first weight table re-laid as [2048, 64, 128]. -/
theorem V3_main_v2 (c : Dev nD) :
    (V3 m ρ c main_v2 : S2048x64x128.Idx → Elt F .f32)
      = shapeCast S2048x64x128 (m ((c : Thread nD τ).loc main_arg1)) shapeCasts_S2048x256x32_S2048x64x128 := by
  show StableHlo.after hostOps0_2 (W2 m ρ c) (Proc.devRef .tc main_v2) = _
  after_results
  rfl

/-- The second weight table re-laid as [2048, 64, 128]. -/
theorem V3_main_v3 (c : Dev nD) :
    (V3 m ρ c main_v3 : S2048x64x128.Idx → Elt F .f32)
      = shapeCast S2048x64x128 (m ((c : Thread nD τ).loc main_arg2)) shapeCasts_S2048x256x32_S2048x64x128 := by
  show StableHlo.after hostOps0_2 (W2 m ρ c) (Proc.devRef .tc main_v3) = _
  after_results
  rfl

/-- The third weight table re-laid as [2048, 64, 128]. -/
theorem V3_main_v4 (c : Dev nD) :
    (V3 m ρ c main_v4 : S2048x64x128.Idx → Elt F .f32)
      = shapeCast S2048x64x128 (m ((c : Thread nD τ).loc main_arg3)) shapeCasts_S2048x256x32_S2048x64x128 := by
  show StableHlo.after hostOps0_2 (W2 m ρ c) (Proc.devRef .tc main_v4) = _
  after_results
  rfl

/-- The fourth weight table, a [2048, 32, 256] array, re-laid as [2048, 64, 128]. -/
theorem V3_main_v5 (c : Dev nD) :
    (V3 m ρ c main_v5 : S2048x64x128.Idx → Elt F .f32)
      = shapeCast S2048x64x128 (m ((c : Thread nD τ).loc main_arg4)) shapeCasts_S2048x32x256_S2048x64x128 := by
  show StableHlo.after hostOps0_2 (W2 m ρ c) (Proc.devRef .tc main_v5) = _
  after_results
  rfl

/-! The arguments themselves are written by none of these operations. -/

theorem V3_main_arg0 (c : Dev nD) : V3 m ρ c main_arg0 = m ((c : Thread nD τ).loc main_arg0) := by
  show StableHlo.after hostOps0_2 (W2 m ρ c) (Proc.devRef .tc main_arg0) = _
  after_results

theorem V3_main_arg1 (c : Dev nD) : V3 m ρ c main_arg1 = m ((c : Thread nD τ).loc main_arg1) := by
  show StableHlo.after hostOps0_2 (W2 m ρ c) (Proc.devRef .tc main_arg1) = _
  after_results

theorem V3_main_arg2 (c : Dev nD) : V3 m ρ c main_arg2 = m ((c : Thread nD τ).loc main_arg2) := by
  show StableHlo.after hostOps0_2 (W2 m ρ c) (Proc.devRef .tc main_arg2) = _
  after_results

theorem V3_main_arg3 (c : Dev nD) : V3 m ρ c main_arg3 = m ((c : Thread nD τ).loc main_arg3) := by
  show StableHlo.after hostOps0_2 (W2 m ρ c) (Proc.devRef .tc main_arg3) = _
  after_results

theorem V3_main_arg4 (c : Dev nD) : V3 m ρ c main_arg4 = m ((c : Thread nD τ).loc main_arg4) := by
  show StableHlo.after hostOps0_2 (W2 m ρ c) (Proc.devRef .tc main_arg4) = _
  after_results

/-! ## The prefetched table -/

/-- The table is the clamped index array laid out flat. -/
theorem tbl_eq : (tbl m ρ 0 : S4096.Idx → BitVec 32) = clampFlat (m (((0 : Dev nD) : Thread nD τ).loc main_arg0)) := by
  unfold tbl
  exact V3_main_v1 m ρ 0

/-- A word clamped by a signed maximum with 0 and a signed minimum with 2047 is, unsigned, at most 2047. -/
theorem clamp_word_le (w : BitVec 32) : (IntOp.minsi (2047#32) (IntOp.maxsi (0#32) w)).toNat ≤ 2047 := by
  unfold IntOp.minsi IntOp.maxsi
  by_cases h1 : w.slt 0#32 = true
  · rw [if_pos h1]
    decide
  · rw [if_neg h1]
    by_cases h2 : (2047#32).slt w = true
    · rw [if_pos h2]; decide
    · rw [if_neg h2]
      simp only [BitVec.slt, decide_eq_true_eq, not_lt] at h1 h2
      have e0 : (0#32).toInt = 0 := by decide
      have e1 : (2047#32).toInt = 2047 := by decide
      rw [e0] at h1
      rw [e1] at h2
      have hw := BitVec.toInt_eq_toNat_cond w
      split at hw <;> omega

/-- Every entry of the table is a row number in [0, 2047]. -/
theorem clampFlat_le (x : IVec S2x512x4 32) (i : S4096.Idx) : (clampFlat x i).toNat ≤ 2047 := by
  unfold clampFlat shapeCast
  exact clamp_word_le _

/-! ## The call's side condition on the table

Each of the sixteen input windows stages, at grid point `i`, the block whose index along the first axis is a word
of the table (the word at `4 i + k`), and whose other two indices are 0.  A block of one row is inside the
[2048, 64, 128] table as soon as that word is at most 2047; the other two axes are taken whole. -/

/-- One row at a row number at most 2047 is inside 2048 rows. -/
theorem row_inside (w : BitVec 32) (hw : w.toNat ≤ 2047) : (w.toNat + 1) * 1 ≤ 2048 := by omega

/-- The side condition holds of any table all of whose entries are at most 2047. -/
theorem ok_of_le (pf : pre0.Contents (Elt F)) (h : ∀ j : S4096.Idx, ((pf 0 : S4096.Idx → BitVec 32) j).toNat ≤ 2047) :
    ok0 (F := F) pf := by
  unfold ok0
  refine ⟨?_, ?_, ?_, ?_, ?_, ?_, ?_, ?_, ?_, ?_, ?_, ?_, ?_, ?_, ?_, ?_⟩ <;>
  · intro i
    refine ⟨fun a => ?_, .inl rfl⟩
    match a with
    | ⟨0, _⟩ => exact row_inside _ (h _)
    | ⟨1, _⟩ => exact Nat.le_refl 64
    | ⟨2, _⟩ => exact Nat.le_refl 128

/-- The clamped table is admissible, whatever the input memory. -/
theorem ok_tbl : ok0 (F := F) (tbl m ρ) := by
  refine ok_of_le (tbl m ρ) fun j => ?_
  rw [tbl_eq]
  exact clampFlat_le _ j

/-- The table with the evidence that the call may run on it. -/
abbrev adm : (pcfg0 (F := F)).Adm := ⟨tbl m ρ, ok_tbl m ρ⟩

end Cert.Kernel.Hand

end
-- ==== Proof.BLaunch.lean ====
/-
  The run of the whole program: three stretches of host operations, the call, the host operations after it.
  The buffers' contents are followed through @main as a fold: the call leaves its four result arrays at what
  its write-backs made of them and every other buffer as it found it.  At the call's entry each weight table's
  buffer is split into the quarters its four windows hold, and joined back at the exit.
-/
import proofs.«401394_j300647710818_2_alg».proof.Proof.Gen.Kernel.Launch
import proofs.«401394_j300647710818_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.BDefs
import proofs.«401394_j300647710818_2_alg».proof.Proof.BFold
import proofs.«401394_j300647710818_2_alg».proof.Proof.BShare
import proofs.«401394_j300647710818_2_alg».proof.Proof.BEntry
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the call at the contents it is entered with. -/
abbrev datM (c : Dev nD) : Dat τ (Elt F) Unit ℕ (UR sig nD τ) ℕ (cfg0 (adm m ρ)) c := dat0 (adm m ρ) (V3 m ρ) c

/-- The four output windows by themselves: their arrays are distinct. -/
abbrev outSpec : Fin 4 → Pipeline.WinSpec sig grid0.rank := fun
  | ⟨0, _⟩ => spec0 16
  | ⟨1, _⟩ => spec0 17
  | ⟨2, _⟩ => spec0 18
  | ⟨3, _⟩ => spec0 19

theorem outSpec_inj : Function.Injective (Pipeline.arrRef outSpec) := by decide

/-- What the write-backs leave in each result array. -/
abbrev outAt (c : Dev nD) : (o : Fin 4) → Buf (Elt F) ((outSpec o).arr.view.loc (c.tc : Thread nD τ)) := fun
  | ⟨0, _⟩ => (datM m ρ c).arrAt 16 (cfg0 (adm m ρ)).N
  | ⟨1, _⟩ => (datM m ρ c).arrAt 17 (cfg0 (adm m ρ)).N
  | ⟨2, _⟩ => (datM m ρ c).arrAt 18 (cfg0 (adm m ρ)).N
  | ⟨3, _⟩ => (datM m ρ c).arrAt 19 (cfg0 (adm m ρ)).N

/-- The buffers' contents at the call's exit: the result arrays as written back, every other buffer as entered. -/
def W4 (c : Dev nD) : Valuation τ sig (Elt F) := Pipeline.withArrays outSpec c (W3 m ρ c) (outAt m ρ c)
abbrev V4 : (c : Dev nD) → (b : Ref sig .tc) → Buf (Elt F) ((c : Thread nD τ).loc b) := fun c b => W4 m ρ c b
/-- After the host operations that follow the call: the contents @main returns with. -/
abbrev W5 : Dev nD → Valuation τ sig (Elt F) := fun c => StableHlo.after hostOps1 (W4 m ρ c)

theorem W4_out (c : Dev nD) (o : Fin 4) : W4 m ρ c (Proc.devRef .tc (Pipeline.arrRef outSpec o)) = outAt m ρ c o := by
  unfold W4; exact Pipeline.withArrays_arr outSpec outSpec_inj c _ _ o

theorem W4_of_ne (c : Dev nD) (b : Ref sig .tc) (hb : ∀ o, Pipeline.arrRef outSpec o ≠ b) :
    W4 m ρ c (Proc.devRef .tc b) = W3 m ρ c (Proc.devRef .tc b) := by
  unfold W4; exact Pipeline.withArrays_of_ne outSpec c _ _ b hb

/-- A core's unscoped buffers are the eight buffers behind the call's windows and the rest. -/
theorem bufs_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec0 c V' ∗ Pipeline.unscopedRest spec0 c V') := by
  classical
  have hA : Finset.univ.image (Pipeline.arrRef spec0) ⊆ Finset.univ.filter fun b : Ref sig .tc => ¬ b.isScoped := by
    rw [arrRefs_eq]; decide
  unfold unscopedBufs Pipeline.unscopedRest Pipeline.arrBufs
  rw [bigSep_sdiff_split hA]
  rfl

/-- The first sixteen windows are inputs, and none of their arrays is a result array. -/
theorem in_isOut : ∀ w : Fin 20, w.val < 16 → (spec0 w).isOut = false := by decide
theorem in_ne_out : ∀ w : Fin 20, w.val < 16 → ∀ o : Fin 4, Pipeline.arrRef outSpec o ≠ Pipeline.arrRef spec0 w := by decide

/-- An input window's array is never written: at the exit it holds what the call found, which the exit valuation keeps. -/
theorem arrAt_V4_in (c : Dev nD) (w : Fin 20) (hw : w.val < 16) :
    (datM m ρ c).arrAt w (cfg0 (adm m ρ)).N = V4 m ρ c (Pipeline.arrRef spec0 w) :=
  ((datM m ρ c).arrAt_in w (in_isOut w hw) _).trans ((W4_of_ne m ρ c _ (in_ne_out w hw)).symm)

theorem arrAt_V4_16 (c : Dev nD) : (datM m ρ c).arrAt 16 (cfg0 (adm m ρ)).N = V4 m ρ c (Pipeline.arrRef spec0 16) := (W4_out m ρ c 0).symm
theorem arrAt_V4_17 (c : Dev nD) : (datM m ρ c).arrAt 17 (cfg0 (adm m ρ)).N = V4 m ρ c (Pipeline.arrRef spec0 17) := (W4_out m ρ c 1).symm
theorem arrAt_V4_18 (c : Dev nD) : (datM m ρ c).arrAt 18 (cfg0 (adm m ρ)).N = V4 m ρ c (Pipeline.arrRef spec0 18) := (W4_out m ρ c 2).symm
theorem arrAt_V4_19 (c : Dev nD) : (datM m ρ c).arrAt 19 (cfg0 (adm m ρ)).N = V4 m ρ c (Pipeline.arrRef spec0 19) := (W4_out m ρ c 3).symm

/-- At the exit every window's array holds what the exit valuation says. -/
theorem arrAt_V4 (c : Dev nD) (w : Fin 20) : (datM m ρ c).arrAt w (cfg0 (adm m ρ)).N = V4 m ρ c (Pipeline.arrRef spec0 w) := by
  by_cases hw : w.val < 16
  · exact arrAt_V4_in m ρ c w hw
  · have h : w.val = 16 ∨ w.val = 17 ∨ w.val = 18 ∨ w.val = 19 := by have := w.isLt; omega
    rcases h with h | h | h | h
    · obtain rfl : w = 16 := Fin.ext h
      exact arrAt_V4_16 m ρ c
    · obtain rfl : w = 17 := Fin.ext h
      exact arrAt_V4_17 m ρ c
    · obtain rfl : w = 18 := Fin.ext h
      exact arrAt_V4_18 m ρ c
    · obtain rfl : w = 19 := Fin.ext h
      exact arrAt_V4_19 m ρ c

/-- Off the result arrays the exit valuation is the entry one. -/
theorem V4_rest (c : Dev nD) (b : Ref sig .tc) (hb : b ∉ Finset.univ.image (Pipeline.arrRef spec0)) : V4 m ρ c b = V3 m ρ c b :=
  W4_of_ne m ρ c b fun o e => hb (Finset.mem_image.mpr ⟨⟨16 + o.val, by omega⟩, Finset.mem_univ _, by
    rw [← e]; match o with | ⟨0, _⟩ => rfl | ⟨1, _⟩ => rfl | ⟨2, _⟩ => rfl | ⟨3, _⟩ => rfl⟩)

/-- ENTRY: the unscoped buffers at the contents the call finds are the pipeline's arrays at their entry contents (each
    table split among its four windows), the index table whole, and the buffers that bypass the call. -/
theorem entry_eq (c : Dev nD) :
    (StableHlo.held (c : Thread nD τ) (Pipeline.ucRefs τ sig) (W3 m ρ c) : sProp 𝕄)
      = iprop((datM m ρ c).arrays ((datM m ρ c).arrAt · 0)
          ∗ Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V3 m ρ c)) := by
  rw [← Pipeline.unscopedBufs_held c (W3 m ρ c), bufs_split c, Pipeline.unscopedRest_split preFacts0 c,
    ← arrays_eq_arrBufs (adm m ρ) (V3 m ρ) c (fun w => (datM m ρ c).arrAt w 0) (V3 m ρ c) (fun w => rfl)]
  rw [show (fun k => V3 m ρ c (pre0.ref k)) = tbl m ρ from funext fun k => V_pre m ρ c k]

/-- The index table is no window's array, so the exit valuation keeps it. -/
theorem tbl_V4 (c : Dev nD) : (fun k => V4 m ρ c (pre0.ref k)) = tbl m ρ :=
  funext fun k => (V4_rest m ρ c _ ((by decide : ∀ k : Fin 1, pre0.ref k ∉ Finset.univ.image (Pipeline.arrRef spec0)) k)).trans (V_pre m ρ c k)

/-- The buffers that bypass the call are the same at both valuations. -/
theorem restP_V4 (c : Dev nD) :
    (Pipeline.unscopedRestP (Ix := Unit) (Name := ℕ) (U := UR sig nD τ) (Lvl := ℕ) pre0 spec0 c (V4 m ρ c) : sProp 𝕄)
      = Pipeline.unscopedRestP pre0 spec0 c (V3 m ρ c) := by
  unfold Pipeline.unscopedRestP
  exact bigSep_congr fun b hb => by rw [V4_rest m ρ c b (Finset.mem_sdiff.mp (Finset.mem_sdiff.mp hb).1).2]

/-- EXIT: the arrays at what the write-backs left (each table's quarters joined back), the index table and the bypassing
    buffers are the unscoped buffers at the exit valuation. -/
theorem exit_eq (c : Dev nD) :
    (iprop((datM m ρ c).arrays ((datM m ρ c).arrAt · (cfg0 (adm m ρ)).N)
          ∗ Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V3 m ρ c)) : sProp 𝕄)
      = StableHlo.held (c : Thread nD τ) (Pipeline.ucRefs τ sig) (W4 m ρ c) := by
  have e1 : (StableHlo.held (c : Thread nD τ) (Pipeline.ucRefs τ sig) (W4 m ρ c) : sProp 𝕄)
      = unscopedBufs (Ix := Unit) (Name := ℕ) (U := UR sig nD τ) (Lvl := ℕ) c (V4 m ρ c) := (Pipeline.unscopedBufs_held c (W4 m ρ c)).symm
  have e2 := bufs_split (F := F) c (V4 m ρ c)
  have e3 : (Pipeline.unscopedRest (Ix := Unit) (Name := ℕ) (U := UR sig nD τ) (Lvl := ℕ) spec0 c (V4 m ρ c) : sProp 𝕄) = _ :=
    Pipeline.unscopedRest_split preFacts0 c (V4 m ρ c)
  have e4 := arrays_eq_arrBufs (adm m ρ) (V3 m ρ) c (fun w => (datM m ρ c).arrAt w (cfg0 (adm m ρ)).N) (V4 m ρ c) (arrAt_V4 m ρ c)
  rw [e1, e2, e3, ← e4, tbl_V4 m ρ c, restP_V4 m ρ c]

/-! ## The proof data family, the thread state and the segments -/

/-- The index table's admissible contents, the same on every core. -/
abbrev admP : (p : Fin 1) → (pcfgs (F := F) p).Adm := fun _ => adm m ρ
/-- The one pipeline's proof data at the call's entry contents. -/
def pdats : (p : Fin 1) → (c : Dev nD) → Dat τ (Elt F) Unit ℕ (UR sig nD τ) ℕ (Pipeline.pin (pcfgs (F := F)) (admP m ρ) p) c :=
  fun _ c => datM m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register. -/
abbrev Tₙ (c : Dev nD) : sProp 𝕄 := iprop(StableHlo.held (c : Thread nD τ) (Pipeline.ucRefs τ sig) (W5 m ρ c) ∗ ∃ r, prngReg c r)

variable (hbody : ∀ c : Dev nD, BodyObligation (datM (F := F) m ρ c) (defs₀ (F := F)) Variants.none () Set.univ)

set_option backward.isDefEq.respectTransparency.types false in
/-- THE CALL over the thread state: entered from every unscoped buffer at `W3`, left at `W4`. -/
def reg0 : Pipeline.RegionSeg (pcfgs (F := F)) (admP m ρ) (pdats m ρ) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m ρ))
  Z c := Pipeline.unscopedRestP (Ix := Unit) (Name := ℕ) (U := UR sig nD τ) (Lvl := ℕ) pre0 spec0 c (V3 m ρ c)
  hentry c := by
    rw [Pipeline.ownSems0_none, entry_eq m ρ c]
    iintro ⟨⟨⟨Ha, Ht, Hrest⟩, Hp, HO⟩, -, -⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ Pipeline.prefHeld (Ix := Unit) (Name := ℕ) (U := UR sig nD τ) (Lvl := ℕ) pre0 c (fun _ => fullShare) (tbl m ρ)) from rfl]
    unfold Pipeline.ΦA
    iintro ⟨Hp, Ht, Hr⟩
    isplitr [Ht]
    · isplitl [Hr]; · iexact Hr
      iexact Hp
    · iexact Ht
  hout c := by
    rw [Pipeline.ownSems0_none, show (pdats m ρ 0 c).Φ (Fin.last _) = iprop(Pipeline.ΦA spec0 c ∗ Pipeline.prefHeld (Ix := Unit) (Name := ℕ) (U := UR sig nD τ) (Lvl := ℕ) pre0 c (fun _ => fullShare) (tbl m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    rw [← exit_eq m ρ c]
    iintro ⟨Ha, HO, ⟨HY, Ht⟩, Hrest⟩
    imodintro
    isplitl [Ha Ht Hrest]
    · isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) (admP m ρ) (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hbody),
    .host (hseg hostOps1 hostOps1_sub hostOps1_fresh (W4 m ρ)) ]

/-- @main is the run of the segments. -/
theorem main_run (c : Dev nD) : main (F := F) c = Pipeline.Seg.run (segs m ρ hbody) := (main_chain c).trans (by chain_rfl)

set_option backward.isDefEq.respectTransparency.types false in
/-- THE RUN: from any memory with zero counters every weakly fair execution of @main terminates, nothing faulting, and
    every unscoped buffer ends at the contents the fold computes. -/
theorem run_main (hbody : ∀ c : Dev nD, BodyObligation (datM (F := F) m ρ c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (admP m ρ) (pdats m ρ) () (cellOf_inj (admP m ρ)) emb₁ defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admP m ρ)) (cellOf_inj (admP m ρ))) (Pipeline.launchToks (Pipeline.pin (pcfgs (F := F)) (admP m ρ)) (cellOf_inj (admP m ρ))))
    (hu₀ := by
      iintro Hu; imodintro
      isplitl [Hu]
      · iapply (show (ownU (initOf (Pipeline.cells (Pipeline.pin (pcfgs (F := F)) (admP m ρ)) (cellOf_inj (admP m ρ))) (Pipeline.launchToks (Pipeline.pin (pcfgs (F := F)) (admP m ρ)) (cellOf_inj (admP m ρ)))) : sProp 𝕄)
            ⊢ BI.own (emb₁ (initOf (Pipeline.cells (Pipeline.pin (pcfgs (F := F)) (admP m ρ)) (cellOf_inj (admP m ρ))) (Pipeline.launchToks (Pipeline.pin (pcfgs (F := F)) (admP m ρ)) (cellOf_inj (admP m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.BBody.lean ====
/-
  The body of the gather kernel at one grid point.  For each of the four outputs and each of its four
  slots the body loads one input block whole, reshapes it [1, 64, 128] → [64, 128] → [1, 1, 64, 128] (the
  same elements in the same order) and stores it into that slot of the output block.  So after the body
  every input block is as it was found and output block `o` reads as input blocks `4 o … 4 o + 3` stacked
  along its second axis: the four slot rectangles tile the block, and on slot `k` the stored payload is
  input `4 o + k` at the same row and column.
-/
import proofs.«401394_j300647710818_2_alg».proof.Proof.BDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The staging memrefs the body is called with at a point -/

abbrev ms0 (a : (pcfg0 (F := F)).Adm) (t : Fin (cfg0 a).N) : Memref sig .tc .vmem S1x64x128 .f32 := spec0_0.stage ((cfg0 a).slots t 0)
abbrev hs0 (a : (pcfg0 (F := F)).Adm) (t : Fin (cfg0 a).N) : (ms0 a t).IsWhole := hstage0_0 (((cfg0 a).slots t 0).cast nbuf0_0)
abbrev ms1 (a : (pcfg0 (F := F)).Adm) (t : Fin (cfg0 a).N) : Memref sig .tc .vmem S1x64x128 .f32 := spec0_1.stage ((cfg0 a).slots t 1)
abbrev hs1 (a : (pcfg0 (F := F)).Adm) (t : Fin (cfg0 a).N) : (ms1 a t).IsWhole := hstage0_1 (((cfg0 a).slots t 1).cast nbuf0_1)
abbrev ms2 (a : (pcfg0 (F := F)).Adm) (t : Fin (cfg0 a).N) : Memref sig .tc .vmem S1x64x128 .f32 := spec0_2.stage ((cfg0 a).slots t 2)
abbrev hs2 (a : (pcfg0 (F := F)).Adm) (t : Fin (cfg0 a).N) : (ms2 a t).IsWhole := hstage0_2 (((cfg0 a).slots t 2).cast nbuf0_2)
abbrev ms3 (a : (pcfg0 (F := F)).Adm) (t : Fin (cfg0 a).N) : Memref sig .tc .vmem S1x64x128 .f32 := spec0_3.stage ((cfg0 a).slots t 3)
abbrev hs3 (a : (pcfg0 (F := F)).Adm) (t : Fin (cfg0 a).N) : (ms3 a t).IsWhole := hstage0_3 (((cfg0 a).slots t 3).cast nbuf0_3)
abbrev ms4 (a : (pcfg0 (F := F)).Adm) (t : Fin (cfg0 a).N) : Memref sig .tc .vmem S1x64x128 .f32 := spec0_4.stage ((cfg0 a).slots t 4)
abbrev hs4 (a : (pcfg0 (F := F)).Adm) (t : Fin (cfg0 a).N) : (ms4 a t).IsWhole := hstage0_4 (((cfg0 a).slots t 4).cast nbuf0_4)
abbrev ms5 (a : (pcfg0 (F := F)).Adm) (t : Fin (cfg0 a).N) : Memref sig .tc .vmem S1x64x128 .f32 := spec0_5.stage ((cfg0 a).slots t 5)
abbrev hs5 (a : (pcfg0 (F := F)).Adm) (t : Fin (cfg0 a).N) : (ms5 a t).IsWhole := hstage0_5 (((cfg0 a).slots t 5).cast nbuf0_5)
abbrev ms6 (a : (pcfg0 (F := F)).Adm) (t : Fin (cfg0 a).N) : Memref sig .tc .vmem S1x64x128 .f32 := spec0_6.stage ((cfg0 a).slots t 6)
abbrev hs6 (a : (pcfg0 (F := F)).Adm) (t : Fin (cfg0 a).N) : (ms6 a t).IsWhole := hstage0_6 (((cfg0 a).slots t 6).cast nbuf0_6)
abbrev ms7 (a : (pcfg0 (F := F)).Adm) (t : Fin (cfg0 a).N) : Memref sig .tc .vmem S1x64x128 .f32 := spec0_7.stage ((cfg0 a).slots t 7)
abbrev hs7 (a : (pcfg0 (F := F)).Adm) (t : Fin (cfg0 a).N) : (ms7 a t).IsWhole := hstage0_7 (((cfg0 a).slots t 7).cast nbuf0_7)
abbrev ms8 (a : (pcfg0 (F := F)).Adm) (t : Fin (cfg0 a).N) : Memref sig .tc .vmem S1x64x128 .f32 := spec0_8.stage ((cfg0 a).slots t 8)
abbrev hs8 (a : (pcfg0 (F := F)).Adm) (t : Fin (cfg0 a).N) : (ms8 a t).IsWhole := hstage0_8 (((cfg0 a).slots t 8).cast nbuf0_8)
abbrev ms9 (a : (pcfg0 (F := F)).Adm) (t : Fin (cfg0 a).N) : Memref sig .tc .vmem S1x64x128 .f32 := spec0_9.stage ((cfg0 a).slots t 9)
abbrev hs9 (a : (pcfg0 (F := F)).Adm) (t : Fin (cfg0 a).N) : (ms9 a t).IsWhole := hstage0_9 (((cfg0 a).slots t 9).cast nbuf0_9)
abbrev ms10 (a : (pcfg0 (F := F)).Adm) (t : Fin (cfg0 a).N) : Memref sig .tc .vmem S1x64x128 .f32 := spec0_10.stage ((cfg0 a).slots t 10)
abbrev hs10 (a : (pcfg0 (F := F)).Adm) (t : Fin (cfg0 a).N) : (ms10 a t).IsWhole := hstage0_10 (((cfg0 a).slots t 10).cast nbuf0_10)
abbrev ms11 (a : (pcfg0 (F := F)).Adm) (t : Fin (cfg0 a).N) : Memref sig .tc .vmem S1x64x128 .f32 := spec0_11.stage ((cfg0 a).slots t 11)
abbrev hs11 (a : (pcfg0 (F := F)).Adm) (t : Fin (cfg0 a).N) : (ms11 a t).IsWhole := hstage0_11 (((cfg0 a).slots t 11).cast nbuf0_11)
abbrev ms12 (a : (pcfg0 (F := F)).Adm) (t : Fin (cfg0 a).N) : Memref sig .tc .vmem S1x64x128 .f32 := spec0_12.stage ((cfg0 a).slots t 12)
abbrev hs12 (a : (pcfg0 (F := F)).Adm) (t : Fin (cfg0 a).N) : (ms12 a t).IsWhole := hstage0_12 (((cfg0 a).slots t 12).cast nbuf0_12)
abbrev ms13 (a : (pcfg0 (F := F)).Adm) (t : Fin (cfg0 a).N) : Memref sig .tc .vmem S1x64x128 .f32 := spec0_13.stage ((cfg0 a).slots t 13)
abbrev hs13 (a : (pcfg0 (F := F)).Adm) (t : Fin (cfg0 a).N) : (ms13 a t).IsWhole := hstage0_13 (((cfg0 a).slots t 13).cast nbuf0_13)
abbrev ms14 (a : (pcfg0 (F := F)).Adm) (t : Fin (cfg0 a).N) : Memref sig .tc .vmem S1x64x128 .f32 := spec0_14.stage ((cfg0 a).slots t 14)
abbrev hs14 (a : (pcfg0 (F := F)).Adm) (t : Fin (cfg0 a).N) : (ms14 a t).IsWhole := hstage0_14 (((cfg0 a).slots t 14).cast nbuf0_14)
abbrev ms15 (a : (pcfg0 (F := F)).Adm) (t : Fin (cfg0 a).N) : Memref sig .tc .vmem S1x64x128 .f32 := spec0_15.stage ((cfg0 a).slots t 15)
abbrev hs15 (a : (pcfg0 (F := F)).Adm) (t : Fin (cfg0 a).N) : (ms15 a t).IsWhole := hstage0_15 (((cfg0 a).slots t 15).cast nbuf0_15)
abbrev ms16 (a : (pcfg0 (F := F)).Adm) (t : Fin (cfg0 a).N) : Memref sig .tc .vmem S1x4x64x128 .f32 := spec0_16.stage ((cfg0 a).slots t 16)
abbrev hs16 (a : (pcfg0 (F := F)).Adm) (t : Fin (cfg0 a).N) : (ms16 a t).IsWhole := hstage0_16 (((cfg0 a).slots t 16).cast nbuf0_16)
abbrev ms17 (a : (pcfg0 (F := F)).Adm) (t : Fin (cfg0 a).N) : Memref sig .tc .vmem S1x4x64x128 .f32 := spec0_17.stage ((cfg0 a).slots t 17)
abbrev hs17 (a : (pcfg0 (F := F)).Adm) (t : Fin (cfg0 a).N) : (ms17 a t).IsWhole := hstage0_17 (((cfg0 a).slots t 17).cast nbuf0_17)
abbrev ms18 (a : (pcfg0 (F := F)).Adm) (t : Fin (cfg0 a).N) : Memref sig .tc .vmem S1x4x64x128 .f32 := spec0_18.stage ((cfg0 a).slots t 18)
abbrev hs18 (a : (pcfg0 (F := F)).Adm) (t : Fin (cfg0 a).N) : (ms18 a t).IsWhole := hstage0_18 (((cfg0 a).slots t 18).cast nbuf0_18)
abbrev ms19 (a : (pcfg0 (F := F)).Adm) (t : Fin (cfg0 a).N) : Memref sig .tc .vmem S1x4x64x128 .f32 := spec0_19.stage ((cfg0 a).slots t 19)
abbrev hs19 (a : (pcfg0 (F := F)).Adm) (t : Fin (cfg0 a).N) : (ms19 a t).IsWhole := hstage0_19 (((cfg0 a).slots t 19).cast nbuf0_19)

/-- The kernel function as the pipeline calls it at point `t`. -/
abbrev bodyAt (a : (pcfg0 (F := F)).Adm) (t : Fin (cfg0 a).N) : Prog (TpuEff nD τ sig (Elt F) Λ₀ .tc) PUnit :=
  cc0__gather_kernel (grid0.coords t) (Memref.whole main_v1) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) (ms11 a t) (hs11 a t) (ms12 a t) (hs12 a t) (ms13 a t) (hs13 a t) (ms14 a t) (hs14 a t) (ms15 a t) (hs15 a t) (ms16 a t) (hs16 a t) (ms17 a t) (hs17 a t) (ms18 a t) (hs18 a t) (ms19 a t) (hs19 a t)

variable (a : (pcfg0 (F := F)).Adm)
variable (V : (c : Dev nD) → (b : Ref sig .tc) → Buf (Elt F) ((c : Thread nD τ).loc b))

/-! ## What the proof data says each window holds after the body -/

theorem after0 (c : Dev nD) (t : Fin (cfg0 a).N) : (dat0 a V c).after 0 t = iblk a V c 0 t := by dsimp only [dat0]; try rfl
theorem after1 (c : Dev nD) (t : Fin (cfg0 a).N) : (dat0 a V c).after 1 t = iblk a V c 1 t := by dsimp only [dat0]; try rfl
theorem after2 (c : Dev nD) (t : Fin (cfg0 a).N) : (dat0 a V c).after 2 t = iblk a V c 2 t := by dsimp only [dat0]; try rfl
theorem after3 (c : Dev nD) (t : Fin (cfg0 a).N) : (dat0 a V c).after 3 t = iblk a V c 3 t := by dsimp only [dat0]; try rfl
theorem after4 (c : Dev nD) (t : Fin (cfg0 a).N) : (dat0 a V c).after 4 t = iblk a V c 4 t := by dsimp only [dat0]; try rfl
theorem after5 (c : Dev nD) (t : Fin (cfg0 a).N) : (dat0 a V c).after 5 t = iblk a V c 5 t := by dsimp only [dat0]; try rfl
theorem after6 (c : Dev nD) (t : Fin (cfg0 a).N) : (dat0 a V c).after 6 t = iblk a V c 6 t := by dsimp only [dat0]; try rfl
theorem after7 (c : Dev nD) (t : Fin (cfg0 a).N) : (dat0 a V c).after 7 t = iblk a V c 7 t := by dsimp only [dat0]; try rfl
theorem after8 (c : Dev nD) (t : Fin (cfg0 a).N) : (dat0 a V c).after 8 t = iblk a V c 8 t := by dsimp only [dat0]; try rfl
theorem after9 (c : Dev nD) (t : Fin (cfg0 a).N) : (dat0 a V c).after 9 t = iblk a V c 9 t := by dsimp only [dat0]; try rfl
theorem after10 (c : Dev nD) (t : Fin (cfg0 a).N) : (dat0 a V c).after 10 t = iblk a V c 10 t := by dsimp only [dat0]; try rfl
theorem after11 (c : Dev nD) (t : Fin (cfg0 a).N) : (dat0 a V c).after 11 t = iblk a V c 11 t := by dsimp only [dat0]; try rfl
theorem after12 (c : Dev nD) (t : Fin (cfg0 a).N) : (dat0 a V c).after 12 t = iblk a V c 12 t := by dsimp only [dat0]; try rfl
theorem after13 (c : Dev nD) (t : Fin (cfg0 a).N) : (dat0 a V c).after 13 t = iblk a V c 13 t := by dsimp only [dat0]; try rfl
theorem after14 (c : Dev nD) (t : Fin (cfg0 a).N) : (dat0 a V c).after 14 t = iblk a V c 14 t := by dsimp only [dat0]; try rfl
theorem after15 (c : Dev nD) (t : Fin (cfg0 a).N) : (dat0 a V c).after 15 t = iblk a V c 15 t := by dsimp only [dat0]; try rfl
theorem after16 (c : Dev nD) (t : Fin (cfg0 a).N) : (dat0 a V c).after 16 t = stack4 (iblk a V c 0 t) (iblk a V c 1 t) (iblk a V c 2 t) (iblk a V c 3 t) := by dsimp only [dat0]; try rfl
theorem after17 (c : Dev nD) (t : Fin (cfg0 a).N) : (dat0 a V c).after 17 t = stack4 (iblk a V c 4 t) (iblk a V c 5 t) (iblk a V c 6 t) (iblk a V c 7 t) := by dsimp only [dat0]; try rfl
theorem after18 (c : Dev nD) (t : Fin (cfg0 a).N) : (dat0 a V c).after 18 t = stack4 (iblk a V c 8 t) (iblk a V c 9 t) (iblk a V c 10 t) (iblk a V c 11 t) := by dsimp only [dat0]; try rfl
theorem after19 (c : Dev nD) (t : Fin (cfg0 a).N) : (dat0 a V c).after 19 t = stack4 (iblk a V c 12 t) (iblk a V c 13 t) (iblk a V c 14 t) (iblk a V c 15 t) := by dsimp only [dat0]; try rfl

/-! ## What an input window's buffer holds before the body: its block, fetched at this point or not -/

theorem before0 (c : Dev nD) (t : Fin (cfg0 a).N) (d) : (dat0 a V c).before 0 t d = iblk a V c 0 t :=
  ((dat0 a V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dat0 a V c).before 1 t d = iblk a V c 1 t :=
  ((dat0 a V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dat0 a V c).before 2 t d = iblk a V c 2 t :=
  ((dat0 a V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dat0 a V c).before 3 t d = iblk a V c 3 t :=
  ((dat0 a V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfg0 a).N) (d) : (dat0 a V c).before 4 t d = iblk a V c 4 t :=
  ((dat0 a V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfg0 a).N) (d) : (dat0 a V c).before 5 t d = iblk a V c 5 t :=
  ((dat0 a V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfg0 a).N) (d) : (dat0 a V c).before 6 t d = iblk a V c 6 t :=
  ((dat0 a V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin (cfg0 a).N) (d) : (dat0 a V c).before 7 t d = iblk a V c 7 t :=
  ((dat0 a V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin (cfg0 a).N) (d) : (dat0 a V c).before 8 t d = iblk a V c 8 t :=
  ((dat0 a V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin (cfg0 a).N) (d) : (dat0 a V c).before 9 t d = iblk a V c 9 t :=
  ((dat0 a V c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin (cfg0 a).N) (d) : (dat0 a V c).before 10 t d = iblk a V c 10 t :=
  ((dat0 a V c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin (cfg0 a).N) (d) : (dat0 a V c).before 11 t d = iblk a V c 11 t :=
  ((dat0 a V c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin (cfg0 a).N) (d) : (dat0 a V c).before 12 t d = iblk a V c 12 t :=
  ((dat0 a V c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin (cfg0 a).N) (d) : (dat0 a V c).before 13 t d = iblk a V c 13 t :=
  ((dat0 a V c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin (cfg0 a).N) (d) : (dat0 a V c).before 14 t d = iblk a V c 14 t :=
  ((dat0 a V c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin (cfg0 a).N) (d) : (dat0 a V c).before 15 t d = iblk a V c 15 t :=
  ((dat0 a V c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)

/-! ## The body's accesses -/

/-- An input block, whole. -/
abbrev rIn : Rect S1x64x128 := Rect.unit (s := S1x64x128) ![0, 0, 0] S1x64x128.size inb_S1x64x128_S1x64x128_0_0_0
/-- Slot `k` of an output block: the rows of its second axis' coordinate `k`. -/
abbrev rS0 : Rect S1x4x64x128 := Rect.unit (s := S1x4x64x128) ![0, 0, 0, 0] S1x1x64x128.size inb_S1x4x64x128_S1x1x64x128_0_0_0_0
abbrev rS1 : Rect S1x4x64x128 := Rect.unit (s := S1x4x64x128) ![0, 1, 0, 0] S1x1x64x128.size inb_S1x4x64x128_S1x1x64x128_0_1_0_0
abbrev rS2 : Rect S1x4x64x128 := Rect.unit (s := S1x4x64x128) ![0, 2, 0, 0] S1x1x64x128.size inb_S1x4x64x128_S1x1x64x128_0_2_0_0
abbrev rS3 : Rect S1x4x64x128 := Rect.unit (s := S1x4x64x128) ![0, 3, 0, 0] S1x1x64x128.size inb_S1x4x64x128_S1x1x64x128_0_3_0_0

/-! ## What the body leaves in each output block: its four stores as pieces, last first -/

def out16 (x0 x1 x2 x3 : Vec F S1x64x128 .f32) : Vec F S1x4x64x128 .f32 :=
  View.canon [⟨rS3, k0_pay7 (View.ld x3 rIn)⟩, ⟨rS2, k0_pay6 (View.ld x2 rIn)⟩, ⟨rS1, k0_pay5 (View.ld x1 rIn)⟩, ⟨rS0, k0_pay4 (View.ld x0 rIn)⟩]
def out17 (x0 x1 x2 x3 : Vec F S1x64x128 .f32) : Vec F S1x4x64x128 .f32 :=
  View.canon [⟨rS3, k0_pay12 (View.ld x3 rIn)⟩, ⟨rS2, k0_pay11 (View.ld x2 rIn)⟩, ⟨rS1, k0_pay10 (View.ld x1 rIn)⟩, ⟨rS0, k0_pay9 (k0_pay8 (View.ld x0 rIn))⟩]
def out18 (x0 x1 x2 x3 : Vec F S1x64x128 .f32) : Vec F S1x4x64x128 .f32 :=
  View.canon [⟨rS3, k0_pay16 (View.ld x3 rIn)⟩, ⟨rS2, k0_pay15 (View.ld x2 rIn)⟩, ⟨rS1, k0_pay14 (View.ld x1 rIn)⟩, ⟨rS0, k0_pay13 (View.ld x0 rIn)⟩]
def out19 (x0 x1 x2 x3 : Vec F S1x64x128 .f32) : Vec F S1x4x64x128 .f32 :=
  View.canon [⟨rS3, k0_pay3 (View.ld x3 rIn)⟩, ⟨rS2, k0_pay2 (View.ld x2 rIn)⟩, ⟨rS1, k0_pay1 (k0_pay18 (View.ld x1 rIn))⟩, ⟨rS0, k0_pay17 (View.ld x0 rIn)⟩]

/-- The four slot rectangles tile the block, so four stores through them cover it. -/
theorem cover4 (p3 p2 p1 p0 : Vec F S1x1x64x128 .f32) (y : S1x4x64x128.Idx) :
    ∃ pc ∈ ([⟨rS3, p3⟩, ⟨rS2, p2⟩, ⟨rS1, p1⟩, ⟨rS0, p0⟩] : List (View.Piece (Elt F) S1x4x64x128 .f32)), y ∈ pc.1.set :=
  View.cover_of_tiled [⟨rS3, p3⟩, ⟨rS2, p2⟩, ⟨rS1, p1⟩, ⟨rS0, p0⟩] S1x1x64x128.size (by rfl) y

/-! ## The stored payloads, read at an index -/

/-- The body's two reshapes of a block, [1, 64, 128] → [64, 128] → [1, 1, 64, 128], keep every element at its row
    and column: both are row-major renumberings and the added axes have one coordinate. -/
theorem pay_read (xk : Vec F S1x64x128 .f32) (h1 : S1x64x128.ShapeCasts S64x128) (h2 : S64x128.ShapeCasts S1x1x64x128)
    (x : S1x1x64x128.Idx) :
    shapeCast S1x1x64x128 (shapeCast S64x128 (View.ld xk rIn) h1) h2 x
      = xk (ValueIdx.ix3 (⟨0, Nat.one_pos⟩ : Fin 1) (⟨(x 2).val, (x 2).isLt⟩ : Fin 64) (⟨(x 3).val, (x 3).isLt⟩ : Fin 128)) := by
  have e : View.ld xk rIn = xk :=
    View.ld_unit_zero (funext fun a => match a with | ⟨0, _⟩ => rfl | ⟨1, _⟩ => rfl | ⟨2, _⟩ => rfl) inb_S1x64x128_S1x64x128_0_0_0 xk
  rw [e]
  have h0 : (x 0).val < 1 := (x 0).isLt
  have h1' : (x 1).val < 1 := (x 1).isLt
  have h2' : (x 2).val < 64 := (x 2).isLt
  have h3' : (x 3).val < 128 := (x 3).isLt
  refine (shapeCast_apply _ h2 x (ValueIdx.ix2 (⟨(x 2).val, h2'⟩ : Fin 64) (⟨(x 3).val, h3'⟩ : Fin 128)) ?_).trans
    (shapeCast_apply xk h1 _ (ValueIdx.ix3 (⟨0, Nat.one_pos⟩ : Fin 1) (⟨(x 2).val, h2'⟩ : Fin 64) (⟨(x 3).val, h3'⟩ : Fin 128)) ?_)
  · rw [Shape.rowMajor_val_two, Shape.rowMajor_val_four]
    show (x 2).val * 128 + (x 3).val = (((x 0).val * 1 + (x 1).val) * 64 + (x 2).val) * 128 + (x 3).val
    omega
  · rw [Shape.rowMajor_val_three, Shape.rowMajor_val_two]
    show (0 * 64 + (x 2).val) * 128 + (x 3).val = (x 2).val * 128 + (x 3).val
    omega

/-! ## The stacked block at the indices of one slot -/

theorem stack4_at0 (x0 x1 x2 x3 : Vec F S1x64x128 .f32) (u : Fin 1) (r : Fin 64) (l : Fin 128) :
    stack4 x0 x1 x2 x3 (ValueIdx.ix4 u (⟨0, by omega⟩ : Fin 4) r l) = x0 (ValueIdx.ix3 (⟨0, Nat.one_pos⟩ : Fin 1) r l) := rfl

/-- Slot 0's rectangle sends a local index to the block index with second coordinate 0 and the same row and column. -/
theorem emb_rS0 (x : S1x1x64x128.Idx) :
    rS0.emb x = ValueIdx.ix4 (⟨0, Nat.one_pos⟩ : Fin 1) (⟨0, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 0 + 1 * (x 1).val = 0; omega
  | ⟨2, _⟩ => show 0 + 1 * (x 2).val = (x 2).val; omega
  | ⟨3, _⟩ => show 0 + 1 * (x 3).val = (x 3).val; omega

theorem stack4_at1 (x0 x1 x2 x3 : Vec F S1x64x128 .f32) (u : Fin 1) (r : Fin 64) (l : Fin 128) :
    stack4 x0 x1 x2 x3 (ValueIdx.ix4 u (⟨1, by omega⟩ : Fin 4) r l) = x1 (ValueIdx.ix3 (⟨0, Nat.one_pos⟩ : Fin 1) r l) := rfl

/-- Slot 1's rectangle sends a local index to the block index with second coordinate 1 and the same row and column. -/
theorem emb_rS1 (x : S1x1x64x128.Idx) :
    rS1.emb x = ValueIdx.ix4 (⟨0, Nat.one_pos⟩ : Fin 1) (⟨1, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 1 + 1 * (x 1).val = 1; omega
  | ⟨2, _⟩ => show 0 + 1 * (x 2).val = (x 2).val; omega
  | ⟨3, _⟩ => show 0 + 1 * (x 3).val = (x 3).val; omega

theorem stack4_at2 (x0 x1 x2 x3 : Vec F S1x64x128 .f32) (u : Fin 1) (r : Fin 64) (l : Fin 128) :
    stack4 x0 x1 x2 x3 (ValueIdx.ix4 u (⟨2, by omega⟩ : Fin 4) r l) = x2 (ValueIdx.ix3 (⟨0, Nat.one_pos⟩ : Fin 1) r l) := rfl

/-- Slot 2's rectangle sends a local index to the block index with second coordinate 2 and the same row and column. -/
theorem emb_rS2 (x : S1x1x64x128.Idx) :
    rS2.emb x = ValueIdx.ix4 (⟨0, Nat.one_pos⟩ : Fin 1) (⟨2, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 2 + 1 * (x 1).val = 2; omega
  | ⟨2, _⟩ => show 0 + 1 * (x 2).val = (x 2).val; omega
  | ⟨3, _⟩ => show 0 + 1 * (x 3).val = (x 3).val; omega

theorem stack4_at3 (x0 x1 x2 x3 : Vec F S1x64x128 .f32) (u : Fin 1) (r : Fin 64) (l : Fin 128) :
    stack4 x0 x1 x2 x3 (ValueIdx.ix4 u (⟨3, by omega⟩ : Fin 4) r l) = x3 (ValueIdx.ix3 (⟨0, Nat.one_pos⟩ : Fin 1) r l) := rfl

/-- Slot 3's rectangle sends a local index to the block index with second coordinate 3 and the same row and column. -/
theorem emb_rS3 (x : S1x1x64x128.Idx) :
    rS3.emb x = ValueIdx.ix4 (⟨0, Nat.one_pos⟩ : Fin 1) (⟨3, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 3 + 1 * (x 1).val = 3; omega
  | ⟨2, _⟩ => show 0 + 1 * (x 2).val = (x 2).val; omega
  | ⟨3, _⟩ => show 0 + 1 * (x 3).val = (x 3).val; omega

/-- Four stores through the four slots, slot `k`'s payload reading `xk` at the same row and column, leave the stacked block. -/
theorem stack4_of_pieces (x0 x1 x2 x3 : Vec F S1x64x128 .f32) (p0 p1 p2 p3 : Vec F S1x1x64x128 .f32)
    (e0 : ∀ x : S1x1x64x128.Idx, p0 x = x0 (ValueIdx.ix3 (⟨0, Nat.one_pos⟩ : Fin 1) (⟨(x 2).val, (x 2).isLt⟩ : Fin 64) (⟨(x 3).val, (x 3).isLt⟩ : Fin 128)))
    (e1 : ∀ x : S1x1x64x128.Idx, p1 x = x1 (ValueIdx.ix3 (⟨0, Nat.one_pos⟩ : Fin 1) (⟨(x 2).val, (x 2).isLt⟩ : Fin 64) (⟨(x 3).val, (x 3).isLt⟩ : Fin 128)))
    (e2 : ∀ x : S1x1x64x128.Idx, p2 x = x2 (ValueIdx.ix3 (⟨0, Nat.one_pos⟩ : Fin 1) (⟨(x 2).val, (x 2).isLt⟩ : Fin 64) (⟨(x 3).val, (x 3).isLt⟩ : Fin 128)))
    (e3 : ∀ x : S1x1x64x128.Idx, p3 x = x3 (ValueIdx.ix3 (⟨0, Nat.one_pos⟩ : Fin 1) (⟨(x 2).val, (x 2).isLt⟩ : Fin 64) (⟨(x 3).val, (x 3).isLt⟩ : Fin 128))) :
    View.canon [⟨rS3, p3⟩, ⟨rS2, p2⟩, ⟨rS1, p1⟩, ⟨rS0, p0⟩] = stack4 x0 x1 x2 x3 := by
  funext y
  refine View.canon_apply_of_pieces (stack4 x0 x1 x2 x3) _ ?_ y (cover4 p3 p2 p1 p0 y)
  intro p hp
  rcases List.mem_cons.mp hp with rfl | hp
  · intro x
    exact (e3 x).trans ((stack4_at3 x0 x1 x2 x3 _ _ _).symm.trans (congrArg (stack4 x0 x1 x2 x3) (emb_rS3 x).symm))
  rcases List.mem_cons.mp hp with rfl | hp
  · intro x
    exact (e2 x).trans ((stack4_at2 x0 x1 x2 x3 _ _ _).symm.trans (congrArg (stack4 x0 x1 x2 x3) (emb_rS2 x).symm))
  rcases List.mem_cons.mp hp with rfl | hp
  · intro x
    exact (e1 x).trans ((stack4_at1 x0 x1 x2 x3 _ _ _).symm.trans (congrArg (stack4 x0 x1 x2 x3) (emb_rS1 x).symm))
  rcases List.mem_cons.mp hp with rfl | hp
  · intro x
    exact (e0 x).trans ((stack4_at0 x0 x1 x2 x3 _ _ _).symm.trans (congrArg (stack4 x0 x1 x2 x3) (emb_rS0 x).symm))
  · exact absurd hp List.not_mem_nil

theorem out16_eq (x0 x1 x2 x3 : Vec F S1x64x128 .f32) : out16 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out17_eq (x0 x1 x2 x3 : Vec F S1x64x128 .f32) : out17 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out18_eq (x0 x1 x2 x3 : Vec F S1x64x128 .f32) : out18 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out19_eq (x0 x1 x2 x3 : Vec F S1x64x128 .f32) : out19 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)

/-! ## The body's triple -/

set_option maxHeartbeats 1000000 in
/-- The kernel body on whole staging memrefs, the inputs' at read contents `x0 … x15` and the outputs' at anything, runs
    to the continuation holding the inputs' as they were and output `o`'s at inputs `4 o … 4 o + 3` stacked.  The
    index table's memref is never accessed. -/
theorem sound_kernel (c : Dev nD) (E : Set ℕ) (i : grid0.Coords) (arg1 : Memref sig .tc .smem S4096 .i32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x4x64x128 .f32) (harg18 : arg18.IsWhole) (arg19 : Memref sig .tc .vmem S1x4x64x128 .f32) (harg19 : arg19.IsWhole) (arg20 : Memref sig .tc .vmem S1x4x64x128 .f32) (harg20 : arg20.IsWhole) (arg21 : Memref sig .tc .vmem S1x4x64x128 .f32) (harg21 : arg21.IsWhole)
    (x0 x1 x2 x3 x4 x5 x6 x7 x8 x9 x10 x11 x12 x13 x14 x15 : Vec F S1x64x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15
            ∗ owns (c : Thread nD τ) arg18 fullShare (stack4 x0 x1 x2 x3) ∗ owns (c : Thread nD τ) arg19 fullShare (stack4 x4 x5 x6 x7) ∗ owns (c : Thread nD τ) arg20 fullShare (stack4 x8 x9 x10 x11) ∗ owns (c : Thread nD τ) arg21 fullShare (stack4 x12 x13 x14 x15)) -∗ K ⟨⟩))
      ⊢ wp frame (wpE (defs₀ (F := F)) Variants.none c none) E (cc0__gather_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__gather_kernel_eq_skeleton]; unfold cc0__gather_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro; exact (View.read_writes_eq_canon _ _ _ (cover4 _ _ _ _)).trans (out16_eq _ _ _ _)
  isplitl [H17]
  · iexists _; isplitr
    swap; · iexact H17
    ipureintro; exact (View.read_writes_eq_canon _ _ _ (cover4 _ _ _ _)).trans (out17_eq _ _ _ _)
  isplitl [H18]
  · iexists _; isplitr
    swap; · iexact H18
    ipureintro; exact (View.read_writes_eq_canon _ _ _ (cover4 _ _ _ _)).trans (out18_eq _ _ _ _)
  iexists _; isplitr
  swap; · iexact H19
  ipureintro; exact (View.read_writes_eq_canon _ _ _ (cover4 _ _ _ _)).trans (out19_eq _ _ _ _)

/-! ## The body obligation, at a generic point -/

/-- What the body is called with at point `t`: the invariant, what the core owes, and every window's current staging
    buffer at what it then holds. -/
def bodyPre (c : Dev nD) (t : Fin (cfg0 a).N) : sProp 𝕄 :=
  iprop((dat0 a V c).Φ t.castSucc ∗ (dat0 a V c).owesAt () t.castSucc
    ∗ (∃ d, owns (c : Thread nD τ) (ms0 a t) fullShare ((dat0 a V c).before 0 t d))
    ∗ (∃ d, owns (c : Thread nD τ) (ms1 a t) fullShare ((dat0 a V c).before 1 t d))
    ∗ (∃ d, owns (c : Thread nD τ) (ms2 a t) fullShare ((dat0 a V c).before 2 t d))
    ∗ (∃ d, owns (c : Thread nD τ) (ms3 a t) fullShare ((dat0 a V c).before 3 t d))
    ∗ (∃ d, owns (c : Thread nD τ) (ms4 a t) fullShare ((dat0 a V c).before 4 t d))
    ∗ (∃ d, owns (c : Thread nD τ) (ms5 a t) fullShare ((dat0 a V c).before 5 t d))
    ∗ (∃ d, owns (c : Thread nD τ) (ms6 a t) fullShare ((dat0 a V c).before 6 t d))
    ∗ (∃ d, owns (c : Thread nD τ) (ms7 a t) fullShare ((dat0 a V c).before 7 t d))
    ∗ (∃ d, owns (c : Thread nD τ) (ms8 a t) fullShare ((dat0 a V c).before 8 t d))
    ∗ (∃ d, owns (c : Thread nD τ) (ms9 a t) fullShare ((dat0 a V c).before 9 t d))
    ∗ (∃ d, owns (c : Thread nD τ) (ms10 a t) fullShare ((dat0 a V c).before 10 t d))
    ∗ (∃ d, owns (c : Thread nD τ) (ms11 a t) fullShare ((dat0 a V c).before 11 t d))
    ∗ (∃ d, owns (c : Thread nD τ) (ms12 a t) fullShare ((dat0 a V c).before 12 t d))
    ∗ (∃ d, owns (c : Thread nD τ) (ms13 a t) fullShare ((dat0 a V c).before 13 t d))
    ∗ (∃ d, owns (c : Thread nD τ) (ms14 a t) fullShare ((dat0 a V c).before 14 t d))
    ∗ (∃ d, owns (c : Thread nD τ) (ms15 a t) fullShare ((dat0 a V c).before 15 t d))
    ∗ (∃ d, owns (c : Thread nD τ) (ms16 a t) fullShare ((dat0 a V c).before 16 t d))
    ∗ (∃ d, owns (c : Thread nD τ) (ms17 a t) fullShare ((dat0 a V c).before 17 t d))
    ∗ (∃ d, owns (c : Thread nD τ) (ms18 a t) fullShare ((dat0 a V c).before 18 t d))
    ∗ (∃ d, owns (c : Thread nD τ) (ms19 a t) fullShare ((dat0 a V c).before 19 t d)))

/-- and what it returns. -/
def bodyPost (c : Dev nD) (t : Fin (cfg0 a).N) : sProp 𝕄 :=
  iprop((dat0 a V c).Φ t.succ ∗ (dat0 a V c).owesAt () t.succ
    ∗ owns (c : Thread nD τ) (ms0 a t) fullShare ((dat0 a V c).after 0 t)
    ∗ owns (c : Thread nD τ) (ms1 a t) fullShare ((dat0 a V c).after 1 t)
    ∗ owns (c : Thread nD τ) (ms2 a t) fullShare ((dat0 a V c).after 2 t)
    ∗ owns (c : Thread nD τ) (ms3 a t) fullShare ((dat0 a V c).after 3 t)
    ∗ owns (c : Thread nD τ) (ms4 a t) fullShare ((dat0 a V c).after 4 t)
    ∗ owns (c : Thread nD τ) (ms5 a t) fullShare ((dat0 a V c).after 5 t)
    ∗ owns (c : Thread nD τ) (ms6 a t) fullShare ((dat0 a V c).after 6 t)
    ∗ owns (c : Thread nD τ) (ms7 a t) fullShare ((dat0 a V c).after 7 t)
    ∗ owns (c : Thread nD τ) (ms8 a t) fullShare ((dat0 a V c).after 8 t)
    ∗ owns (c : Thread nD τ) (ms9 a t) fullShare ((dat0 a V c).after 9 t)
    ∗ owns (c : Thread nD τ) (ms10 a t) fullShare ((dat0 a V c).after 10 t)
    ∗ owns (c : Thread nD τ) (ms11 a t) fullShare ((dat0 a V c).after 11 t)
    ∗ owns (c : Thread nD τ) (ms12 a t) fullShare ((dat0 a V c).after 12 t)
    ∗ owns (c : Thread nD τ) (ms13 a t) fullShare ((dat0 a V c).after 13 t)
    ∗ owns (c : Thread nD τ) (ms14 a t) fullShare ((dat0 a V c).after 14 t)
    ∗ owns (c : Thread nD τ) (ms15 a t) fullShare ((dat0 a V c).after 15 t)
    ∗ owns (c : Thread nD τ) (ms16 a t) fullShare ((dat0 a V c).after 16 t)
    ∗ owns (c : Thread nD τ) (ms17 a t) fullShare ((dat0 a V c).after 17 t)
    ∗ owns (c : Thread nD τ) (ms18 a t) fullShare ((dat0 a V c).after 18 t)
    ∗ owns (c : Thread nD τ) (ms19 a t) fullShare ((dat0 a V c).after 19 t))

set_option maxHeartbeats 1000000 in
/-- The body at any point: the inputs' memrefs hold their blocks, so the body's triple applies at those blocks; the
    invariant and what the core owes pass through untouched. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before0, before1, before2, before3, before4, before5, before6, before7, before8, before9, before10, before11, before12, before13, before14, before15]
  rw [show (dat0 a V c).Φ t.succ = (dat0 a V c).Φ t.castSucc from rfl,
    show (dat0 a V c).owesAt () t.succ = (dat0 a V c).owesAt () t.castSucc from rfl,
    after0, after1, after2, after3, after4, after5, after6, after7, after8, after9, after10, after11, after12, after13, after14, after15, after16, after17, after18, after19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ _ _ (iblk a V c 0 t) (iblk a V c 1 t) (iblk a V c 2 t) (iblk a V c 3 t) (iblk a V c 4 t) (iblk a V c 5 t) (iblk a V c 6 t) (iblk a V c 7 t) (iblk a V c 8 t) (iblk a V c 9 t) (iblk a V c 10 t) (iblk a V c 11 t) (iblk a V c 12 t) (iblk a V c 13 t) (iblk a V c 14 t) (iblk a V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (a : (pcfg0 (F := F)).Adm) (V : (c : Dev nD) → (b : Ref sig .tc) → Buf (Elt F) ((c : Thread nD τ).loc b)) (c : Dev nD) :
    BodyObligation (dat0 (F := F) a V c) (defs₀ (F := F)) Variants.none () Set.univ := fun t => by
  rw [bigSep_W0, bigSep_W0]
  exact sound_body a V c t

end Cert.Kernel.Hand

end
-- ==== Proof.BTail.lean ====
/-
  The host operations that follow the gather call, read as pure functions of what the device holds
  when they start.  Four of them re-index the call's four results into the shapes the program returns.
  The rest compute, from the four weight tables alone, the mean over the tables of the mean squared
  entry of W·Wᵀ − I (each table a stack of 2048 matrices with 32 rows or columns to pair): the
  identity of order 32 is built from two index grids compared entrywise, each table is contracted
  with itself, the identity is subtracted, the difference squared, all 2048·32·32 entries summed and
  divided by 2^21, the four quotients added to zero in order and the sum divided by four.
  No operation of this stretch writes an argument of the program.
-/
import proofs.«401394_j300647710818_2_alg».proof.Proof.Gen.Kernel.Launch
import Idealize.ShloMosaic.Lib.StableHlo.Run

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The orthogonality loss of the four weight tables: for each table the sum over all entries of
    (W·Wᵀ − I)², divided by 2^21; the four added up from zero, the total divided by 4. -/
def lossOf (a1 a2 a3 : FVec F S2048x256x32 .f32) (a4 : FVec F S2048x32x256 .f32) : FVec F S_ .f32 :=
  Host.divf (addf (addf (addf (addf (constant (F := F) S_ .f32 0x00000000#32) (Host.divf (Host.reduceAdd (mulf (subf (Host.dotGeneral dot_S2048x256x32_S2048x256x32_S2048x32x32_1_1_2_2_0_0 none a1 a1) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a1 a1) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x256x32_S2048x256x32_S2048x32x32_1_1_2_2_0_0 none a2 a2) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a2 a2) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x256x32_S2048x256x32_S2048x32x32_1_1_2_2_0_0 none a3 a3) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a3 a3) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x32x256_S2048x32x256_S2048x32x32_2_2_1_1_0_0 none a4 a4) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x32x256_S2048x32x256_S2048x32x32_2_2_1_1_0_0 none a4 a4) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (constant (F := F) S_ .f32 0x40800000#32)

/-- After the stretch, `main_v7` is the call's result `main_v6_0` re-indexed. -/
theorem tail_v7 (W : Valuation τ sig (Elt F)) :
    (StableHlo.after (hostOps1 (F := F)) W (Proc.devRef .tc main_v7) : S2x512x4x256x32.Idx → Elt F .f32)
      = shapeCast S2x512x4x256x32 (W (Proc.devRef .tc main_v6_0)) shapeCasts_S1024x4x64x128_S2x512x4x256x32 := by
  after_results_simp
  rfl

/-- After the stretch, `main_v8` is the call's result `main_v6_1` re-indexed. -/
theorem tail_v8 (W : Valuation τ sig (Elt F)) :
    (StableHlo.after (hostOps1 (F := F)) W (Proc.devRef .tc main_v8) : S2x512x4x256x32.Idx → Elt F .f32)
      = shapeCast S2x512x4x256x32 (W (Proc.devRef .tc main_v6_1)) shapeCasts_S1024x4x64x128_S2x512x4x256x32 := by
  after_results_simp
  rfl

/-- After the stretch, `main_v9` is the call's result `main_v6_2` re-indexed. -/
theorem tail_v9 (W : Valuation τ sig (Elt F)) :
    (StableHlo.after (hostOps1 (F := F)) W (Proc.devRef .tc main_v9) : S2x512x4x256x32.Idx → Elt F .f32)
      = shapeCast S2x512x4x256x32 (W (Proc.devRef .tc main_v6_2)) shapeCasts_S1024x4x64x128_S2x512x4x256x32 := by
  after_results_simp
  rfl

/-- After the stretch, `main_v10` is the call's result `main_v6_3` re-indexed. -/
theorem tail_v10 (W : Valuation τ sig (Elt F)) :
    (StableHlo.after (hostOps1 (F := F)) W (Proc.devRef .tc main_v10) : S2x512x4x32x256.Idx → Elt F .f32)
      = shapeCast S2x512x4x32x256 (W (Proc.devRef .tc main_v6_3)) shapeCasts_S1024x4x64x128_S2x512x4x32x256 := by
  after_results_simp
  rfl

/-- After the stretch, `main_v46` is the loss of the four weight tables as the stretch found them. -/
theorem tail_v46 (W : Valuation τ sig (Elt F)) :
    (StableHlo.after (hostOps1 (F := F)) W (Proc.devRef .tc main_v46) : S_.Idx → Elt F .f32)
      = lossOf (W (Proc.devRef .tc main_arg1)) (W (Proc.devRef .tc main_arg2)) (W (Proc.devRef .tc main_arg3)) (W (Proc.devRef .tc main_arg4)) := by
  after_results_simp
  unfold lossOf
  rfl

/-- No operation of the stretch writes `main_arg0`. -/
theorem tail_arg0 (W : Valuation τ sig (Elt F)) :
    StableHlo.after (hostOps1 (F := F)) W (Proc.devRef .tc main_arg0) = W (Proc.devRef .tc main_arg0) := by
  after_results_simp

/-- No operation of the stretch writes `main_arg1`. -/
theorem tail_arg1 (W : Valuation τ sig (Elt F)) :
    StableHlo.after (hostOps1 (F := F)) W (Proc.devRef .tc main_arg1) = W (Proc.devRef .tc main_arg1) := by
  after_results_simp

/-- No operation of the stretch writes `main_arg2`. -/
theorem tail_arg2 (W : Valuation τ sig (Elt F)) :
    StableHlo.after (hostOps1 (F := F)) W (Proc.devRef .tc main_arg2) = W (Proc.devRef .tc main_arg2) := by
  after_results_simp

/-- No operation of the stretch writes `main_arg3`. -/
theorem tail_arg3 (W : Valuation τ sig (Elt F)) :
    StableHlo.after (hostOps1 (F := F)) W (Proc.devRef .tc main_arg3) = W (Proc.devRef .tc main_arg3) := by
  after_results_simp

/-- No operation of the stretch writes `main_arg4`. -/
theorem tail_arg4 (W : Valuation τ sig (Elt F)) :
    StableHlo.after (hostOps1 (F := F)) W (Proc.devRef .tc main_arg4) = W (Proc.devRef .tc main_arg4) := by
  after_results_simp

end Cert.Kernel.Hand

end
-- ==== Proof.BFrame.lean ====
/-
  The frame of the program from its run: no host operation and no window of the call writes an argument, so each
  argument's buffer, read in the final contents, walks back through the fold to what the launch memory held.
-/
import proofs.«401394_j300647710818_2_alg».proof.Proof.Gen.Kernel.Launch
import proofs.«401394_j300647710818_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.BLaunch
import proofs.«401394_j300647710818_2_alg».proof.Proof.BBody
import proofs.«401394_j300647710818_2_alg».proof.Proof.BTail
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with the body obligation supplied. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  run_main m ρ (fun c => body_obligation (adm m ρ) (V3 m ρ) c)

/-- An argument's buffer in the final contents is the launch memory's. -/
theorem W5_arg0 (c : Dev nD) : W5 m ρ c (Proc.devRef .tc main_arg0) = m ((c : Thread nD τ).loc main_arg0) :=
  (tail_arg0 (W4 m ρ c)).trans ((W4_of_ne m ρ c main_arg0 (by decide)).trans (V3_main_arg0 m ρ c))
theorem W5_arg1 (c : Dev nD) : W5 m ρ c (Proc.devRef .tc main_arg1) = m ((c : Thread nD τ).loc main_arg1) :=
  (tail_arg1 (W4 m ρ c)).trans ((W4_of_ne m ρ c main_arg1 (by decide)).trans (V3_main_arg1 m ρ c))
theorem W5_arg2 (c : Dev nD) : W5 m ρ c (Proc.devRef .tc main_arg2) = m ((c : Thread nD τ).loc main_arg2) :=
  (tail_arg2 (W4 m ρ c)).trans ((W4_of_ne m ρ c main_arg2 (by decide)).trans (V3_main_arg2 m ρ c))
theorem W5_arg3 (c : Dev nD) : W5 m ρ c (Proc.devRef .tc main_arg3) = m ((c : Thread nD τ).loc main_arg3) :=
  (tail_arg3 (W4 m ρ c)).trans ((W4_of_ne m ρ c main_arg3 (by decide)).trans (V3_main_arg3 m ρ c))
theorem W5_arg4 (c : Dev nD) : W5 m ρ c (Proc.devRef .tc main_arg4) = m ((c : Thread nD τ).loc main_arg4) :=
  (tail_arg4 (W4 m ρ c)).trans ((W4_of_ne m ρ c main_arg4 (by decide)).trans (V3_main_arg4 m ρ c))

/-- THE FRAME: from any memory with zero counters every weakly fair execution of @main terminates, nothing faulting,
    with the five argument arrays as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c)⟩) (run_all m ρ)

end Cert.Kernel.Hand

end
-- ==== Proof.KDefs.lean ====
/-
  The gather kernel's region, stated once for both readings of the program: the block each window
  stages at a grid point, what one output block holds after the body (the four staged rows stacked
  along its second axis), and the pipeline's proof data.  Each weight table is handed to the call
  through four input windows, so each of those windows holds a quarter of the table's share.
-/
import proofs.«401394_j300647710818_2_alg».proof.Proof.Gen.KernelIdeal.Launch
import proofs.«401394_j300647710818_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at grid point `t`, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- Four [1, 64, 128] rows stacked into one [1, 4, 64, 128] block: slot `k` of the second axis is row `k`. -/
def stack4 (x0 x1 x2 x3 : Vec F S1x64x128 .f32) : Vec F S1x4x64x128 .f32 := fun j =>
  let y : S1x64x128.Idx := ValueIdx.ix3 (⟨0, Nat.one_pos⟩ : Fin 1) (⟨(j 2).val, (j 2).isLt⟩ : Fin 64) (⟨(j 3).val, (j 3).isLt⟩ : Fin 128)
  match (j 1).val with
  | 0 => x0 y
  | 1 => x1 y
  | 2 => x2 y
  | _ => x3 y

/-- The share of its table each input window holds: the four windows on one table take its four quarters;
    an output window's array is held whole. -/
def qshare : Fin 20 → PosShare TreeShare
  | ⟨0, _⟩ => fullShare.left.left
  | ⟨1, _⟩ => fullShare.left.right
  | ⟨2, _⟩ => fullShare.right.left
  | ⟨3, _⟩ => fullShare.right.right
  | ⟨4, _⟩ => fullShare.left.left
  | ⟨5, _⟩ => fullShare.left.right
  | ⟨6, _⟩ => fullShare.right.left
  | ⟨7, _⟩ => fullShare.right.right
  | ⟨8, _⟩ => fullShare.left.left
  | ⟨9, _⟩ => fullShare.left.right
  | ⟨10, _⟩ => fullShare.right.left
  | ⟨11, _⟩ => fullShare.right.right
  | ⟨12, _⟩ => fullShare.left.left
  | ⟨13, _⟩ => fullShare.left.right
  | ⟨14, _⟩ => fullShare.right.left
  | ⟨15, _⟩ => fullShare.right.right
  | _ => fullShare

/-- The proof data of the region on core `c`: the arrays as the region finds them; after the body at point `t`
    an input window's buffer still holds its block and output window `16 + o`'s holds the blocks of input windows
    `4 o … 4 o + 3` stacked; the invariant is the scoped rest, the generator register and the index table, held whole and never written. -/
def dat0 (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => iblk a V c 5 t
    | ⟨6, _⟩ => iblk a V c 6 t
    | ⟨7, _⟩ => iblk a V c 7 t
    | ⟨8, _⟩ => iblk a V c 8 t
    | ⟨9, _⟩ => iblk a V c 9 t
    | ⟨10, _⟩ => iblk a V c 10 t
    | ⟨11, _⟩ => iblk a V c 11 t
    | ⟨12, _⟩ => iblk a V c 12 t
    | ⟨13, _⟩ => iblk a V c 13 t
    | ⟨14, _⟩ => iblk a V c 14 t
    | ⟨15, _⟩ => iblk a V c 15 t
    | ⟨16, _⟩ => stack4 (iblk a V c 0 t) (iblk a V c 1 t) (iblk a V c 2 t) (iblk a V c 3 t)
    | ⟨17, _⟩ => stack4 (iblk a V c 4 t) (iblk a V c 5 t) (iblk a V c 6 t) (iblk a V c 7 t)
    | ⟨18, _⟩ => stack4 (iblk a V c 8 t) (iblk a V c 9 t) (iblk a V c 10 t) (iblk a V c 11 t)
    | ⟨19, _⟩ => stack4 (iblk a V c 12 t) (iblk a V c 13 t) (iblk a V c 14 t) (iblk a V c 15 t)
    | ⟨_ + 20, h⟩ => absurd h (Nat.not_lt.2 (Nat.le_add_left _ _))
  Φ _ := iprop(Pipeline.ΦA spec0 c ∗ Pipeline.prefHeld (Ix := Unit) (Name := ℕ) (U := UR sig nD τ) (Lvl := ℕ) pre0 c (fun _ => fullShare) a.1)
  q := qshare
  owed _ := 0

theorem A_eq (c : Dev nD) (w : Fin (cfg0 a).W) : (dat0 a V c).A w = V c (Pipeline.arrRef spec0 w) := by
  dsimp only [dat0]

end Cert.KernelIdeal.Hand

end
-- ==== Proof.KFold.lean ====
/-
  The buffers' contents as @main proceeds up to the call: at launch, and after each of the three stretches of host
  operations before it (two constants; the clamp of the indices; the flattening of the index table and the relayout
  of the four weight tables).  The index table the call prefetches is read off the last of these.
-/
import proofs.«401394_j300647710818_2_alg».proof.Proof.Gen.KernelIdeal.Launch
import Idealize.ShloMosaic.Lib.StableHlo.Run
import Idealize.ShloMosaic.Lib.Pipeline.RegionsLoop

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two constants. -/
abbrev W1 : Dev nD → Valuation τ sig (Elt F) := fun c => StableHlo.after hostOps0 (W0 m ρ c)
/-- After the clamp. -/
abbrev W2 : Dev nD → Valuation τ sig (Elt F) := fun c => StableHlo.after hostOps0_1 (W1 m ρ c)
/-- After the relayouts: what the call finds. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

/-- The index table's contents when the call is entered (the program runs on one device). -/
def tbl : pre0.Contents (Elt F) := fun j => V3 m ρ (0 : Dev nD) (pre0.ref j)

/-- On every device the table holds those contents. -/
theorem V_pre (c : Dev nD) (j : Fin 1) : V3 m ρ c (pre0.ref j) = tbl m ρ j := by
  obtain rfl : c = 0 := Subsingleton.elim _ _
  rfl

end Cert.KernelIdeal.Hand

end
-- ==== Proof.KShare.lean ====
/-
  The call's arrays as the pipeline holds them against the buffers behind them.  Each weight table is handed to the
  call through four input windows, each holding a quarter of the table's share; each result array through one output
  window, held whole.  So the pipeline's `arrays`, at contents read off a valuation of the buffers, are exactly the
  eight distinct buffers each whole at the full share: a table's points-to splits into its four quarters and joins back.
-/
import proofs.«401394_j300647710818_2_alg».proof.Proof.Gen.KernelIdeal.Launch
import proofs.«401394_j300647710818_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.KDefs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- A points-to at the full share is its four quarters. -/
theorem quarters {ℓ : Loc nD τ sig} (f : Buf (Elt F) ℓ) :
    (ℓ ↦{fullShare} f : sProp 𝕄) = iprop((ℓ ↦{fullShare.left.left} f) ∗ (ℓ ↦{fullShare.left.right} f) ∗ (ℓ ↦{fullShare.right.left} f) ∗ (ℓ ↦{fullShare.right.right} f)) := by
  rw [BI.Entails.antisymm (pointsTo_share (PosShare.mem_left_op_right fullShare)).1 (pointsTo_share (PosShare.mem_left_op_right fullShare)).2,
    BI.Entails.antisymm (pointsTo_share (PosShare.mem_left_op_right fullShare.left)).1 (pointsTo_share (PosShare.mem_left_op_right fullShare.left)).2,
    BI.Entails.antisymm (pointsTo_share (PosShare.mem_left_op_right fullShare.right)).1 (pointsTo_share (PosShare.mem_left_op_right fullShare.right)).2]
  exact BI.Entails.antisymm Idealize.SL.BI.sep_assoc Idealize.SL.BI.sep_assoc'

/-- Four conjuncts of a chain taken as one group. -/
theorem regroup4 (A B C D R : sProp 𝕄) : (iprop(A ∗ B ∗ C ∗ D ∗ R) : sProp 𝕄) = iprop((A ∗ B ∗ C ∗ D) ∗ R) :=
  BI.Entails.antisymm
    (show (iprop(A ∗ B ∗ C ∗ D ∗ R) : sProp 𝕄) ⊢ iprop((A ∗ B ∗ C ∗ D) ∗ R) from by
      iintro ⟨HA, HB, HC, HD, HR⟩
      isplitr [HR]
      · isplitl [HA]
        · iexact HA
        isplitl [HB]
        · iexact HB
        isplitl [HC]
        · iexact HC
        iexact HD
      · iexact HR)
    (show (iprop((A ∗ B ∗ C ∗ D) ∗ R) : sProp 𝕄) ⊢ iprop(A ∗ B ∗ C ∗ D ∗ R) from by
      iintro ⟨⟨HA, HB, HC, HD⟩, HR⟩
      isplitl [HA]
      · iexact HA
      isplitl [HB]
      · iexact HB
      isplitl [HC]
      · iexact HC
      isplitl [HD]
      · iexact HD
      iexact HR)

/-- The distinct buffers behind the windows' arrays. -/
theorem arrRefs_eq : Finset.univ.image (Pipeline.arrRef spec0) = {main_v2, main_v3, main_v4, main_v5, main_v6_0, main_v6_1, main_v6_2, main_v6_3} := by
  decide

/-- The share the pipeline holds each window's array at: a quarter for an input window, all of it for an output's. -/
theorem share_eq (c : Dev nD) (w : Fin 20) : (dat0 a V c).share w = qshare w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨_ + 20, h⟩ => exact absurd h (Nat.not_lt.2 (Nat.le_add_left _ _))

set_option maxHeartbeats 4000000 in
/-- The pipeline's arrays, at contents read off a valuation `V'` of the buffers, are the eight buffers behind them,
    each whole at the full share at `V'`. -/
theorem arrays_eq_arrBufs (c : Dev nD)
    (G : (w : Fin (cfg0 a).W) → Buf (Elt F) (((cfg0 a).win w).arr.view.loc (c.tc : Thread nD τ)))
    (V' : (b : Ref sig .tc) → Buf (Elt F) ((c : Thread nD τ).loc b))
    (hG : ∀ w, G w = V' (Pipeline.arrRef spec0 w)) :
    ((dat0 a V c).arrays G : sProp 𝕄) = Pipeline.arrBufs spec0 c V' := by
  have h1 : ((dat0 a V c).arrays G : sProp 𝕄)
      = bigSep Finset.univ fun w : Fin 20 => (((c.tc : Thread nD τ).loc (Pipeline.arrRef spec0 w)) ↦{qshare w} V' (Pipeline.arrRef spec0 w) : sProp 𝕄) := by
    unfold Dat.arrays
    exact bigSep_congr fun w _ => by rw [(arr_whole0 w).set_eq_univ, hG, share_eq]
  rw [h1, bigSep_W0]
  unfold Pipeline.arrBufs
  rw [arrRefs_eq]
  rw [bigSep_insert (by decide), bigSep_insert (by decide), bigSep_insert (by decide), bigSep_insert (by decide),
    bigSep_insert (by decide), bigSep_insert (by decide), bigSep_insert (by decide), bigSep_singleton]
  rw [quarters (V' main_v2), quarters (V' main_v3), quarters (V' main_v4), quarters (V' main_v5)]
  refine BI.Entails.antisymm ?_ ?_
  · show (_ : sProp 𝕄) ⊢ iprop(_ ∗ _ ∗ _ ∗ _ ∗ _ ∗ _ ∗ _ ∗ _)
    iintro ⟨A0, A1, A2, A3, A4, A5, A6, A7, A8, A9, A10, A11, A12, A13, A14, A15, A16, A17, A18, A19⟩
    isplitl [A0 A1 A2 A3]
    ·
      isplitl [A0]
      · iexact A0
      isplitl [A1]
      · iexact A1
      isplitl [A2]
      · iexact A2
      iexact A3
    isplitl [A4 A5 A6 A7]
    ·
      isplitl [A4]
      · iexact A4
      isplitl [A5]
      · iexact A5
      isplitl [A6]
      · iexact A6
      iexact A7
    isplitl [A8 A9 A10 A11]
    ·
      isplitl [A8]
      · iexact A8
      isplitl [A9]
      · iexact A9
      isplitl [A10]
      · iexact A10
      iexact A11
    isplitl [A12 A13 A14 A15]
    ·
      isplitl [A12]
      · iexact A12
      isplitl [A13]
      · iexact A13
      isplitl [A14]
      · iexact A14
      iexact A15
    isplitl [A16]
    · iexact A16
    isplitl [A17]
    · iexact A17
    isplitl [A18]
    · iexact A18
    iexact A19
  · show (iprop(_ ∗ _ ∗ _ ∗ _ ∗ _ ∗ _ ∗ _ ∗ _) : sProp 𝕄) ⊢ _
    iintro ⟨⟨A0, A1, A2, A3⟩, ⟨A4, A5, A6, A7⟩, ⟨A8, A9, A10, A11⟩, ⟨A12, A13, A14, A15⟩, A16, A17, A18, A19⟩
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    isplitl [A9]
    · iexact A9
    isplitl [A10]
    · iexact A10
    isplitl [A11]
    · iexact A11
    isplitl [A12]
    · iexact A12
    isplitl [A13]
    · iexact A13
    isplitl [A14]
    · iexact A14
    isplitl [A15]
    · iexact A15
    isplitl [A16]
    · iexact A16
    isplitl [A17]
    · iexact A17
    isplitl [A18]
    · iexact A18
    iexact A19

end Cert.KernelIdeal.Hand

end
-- ==== Proof.KSpec.lean ====
/-
  The two pure functions the gather is stated through.  `clampFlat`: the index table the call prefetches — every
  index clamped into [0, 2047] (a signed maximum with 0, then a signed minimum with 2047) and the [2, 512, 4] array
  laid out flat.  `gatherRows`: row `tb[4 i + k]` of a [2048, 64, 128] table placed at position `(i, k)` of a
  [1024, 4, 64, 128] array — what the call's write-backs leave in one output.
-/
import proofs.«401394_j300647710818_2_alg».proof.Proof.Gen.KernelIdeal
import Idealize.ShloMosaic.Lib.ValueIdx

noncomputable section

namespace Cert.KernelIdeal.Hand

open Idealize.ShloMosaic Cert.KernelIdeal Cert.KernelIdeal.Gen

/-- Every index clamped into [0, 2047], the array laid out flat. -/
def clampFlat (x : IVec S2x512x4 32) : IVec S4096 32 :=
  shapeCast S4096
    (minsi (broadcastInDim S2x512x4 ![] bcast_S_S2x512x4 (constantI S_ 32 2047#32))
      (maxsi (broadcastInDim S2x512x4 ![] bcast_S_S2x512x4 (constantI S_ 32 0#32)) x))
    shapeCasts_S2x512x4_S4096

/-- Row `tb[4 i + k]` (read as a natural number, capped at the last row) of `W` at position `(i, k)`. -/
def gatherRows {α : Type} (W : S2048x64x128.Idx → α) (tb : IVec S4096 32) : S1024x4x64x128.Idx → α := fun j =>
  W (ValueIdx.ix3
    (⟨min (tb (ValueIdx.ix1 (⟨4 * (j 0).val + (j 1).val, by
        have h0 : (j 0).val < 1024 := (j 0).isLt
        have h1 : (j 1).val < 4 := (j 1).isLt
        omega⟩ : Fin 4096))).toNat 2047, by omega⟩ : Fin 2048)
    (⟨(j 2).val, (j 2).isLt⟩ : Fin 64) (⟨(j 3).val, (j 3).isLt⟩ : Fin 128))

end Cert.KernelIdeal.Hand

end
-- ==== Proof.KEntry.lean ====
/-
  The host operations that run before the gather call, read as values.  The index array is clamped into
  [0, 2047] (a signed maximum with 0, then a signed minimum with 2047) and laid out flat: that flat table
  is what the call prefetches.  The four weight tables are re-laid as [2048, 64, 128] arrays.  Because every
  entry of the table is a row number in [0, 2047], each block the call stages lies inside its table: the
  call's side condition on the table holds for every input memory.
-/
import proofs.«401394_j300647710818_2_alg».proof.Proof.KSpec
import proofs.«401394_j300647710818_2_alg».proof.Proof.KFold
import proofs.«401394_j300647710818_2_alg».proof.Proof.Gen.KernelIdeal.Launch
import Idealize.ShloMosaic.Lib.StableHlo.Run
import Idealize.ShloMosaic.Lib.Pipeline.RegionsLoop

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## What the call finds in each buffer it reads -/

/-- The prefetched table as the call finds it: the clamped indices laid out flat. -/
theorem V3_main_v1 (c : Dev nD) :
    (V3 m ρ c main_v1 : S4096.Idx → BitVec 32) = clampFlat (m ((c : Thread nD τ).loc main_arg0)) := by
  show StableHlo.after hostOps0_2 (W2 m ρ c) (Proc.devRef .tc main_v1) = _
  after_results
  rfl

/-- The first weight table re-laid as [2048, 64, 128]. -/
theorem V3_main_v2 (c : Dev nD) :
    (V3 m ρ c main_v2 : S2048x64x128.Idx → Elt F .f32)
      = shapeCast S2048x64x128 (m ((c : Thread nD τ).loc main_arg1)) shapeCasts_S2048x256x32_S2048x64x128 := by
  show StableHlo.after hostOps0_2 (W2 m ρ c) (Proc.devRef .tc main_v2) = _
  after_results
  rfl

/-- The second weight table re-laid as [2048, 64, 128]. -/
theorem V3_main_v3 (c : Dev nD) :
    (V3 m ρ c main_v3 : S2048x64x128.Idx → Elt F .f32)
      = shapeCast S2048x64x128 (m ((c : Thread nD τ).loc main_arg2)) shapeCasts_S2048x256x32_S2048x64x128 := by
  show StableHlo.after hostOps0_2 (W2 m ρ c) (Proc.devRef .tc main_v3) = _
  after_results
  rfl

/-- The third weight table re-laid as [2048, 64, 128]. -/
theorem V3_main_v4 (c : Dev nD) :
    (V3 m ρ c main_v4 : S2048x64x128.Idx → Elt F .f32)
      = shapeCast S2048x64x128 (m ((c : Thread nD τ).loc main_arg3)) shapeCasts_S2048x256x32_S2048x64x128 := by
  show StableHlo.after hostOps0_2 (W2 m ρ c) (Proc.devRef .tc main_v4) = _
  after_results
  rfl

/-- The fourth weight table, a [2048, 32, 256] array, re-laid as [2048, 64, 128]. -/
theorem V3_main_v5 (c : Dev nD) :
    (V3 m ρ c main_v5 : S2048x64x128.Idx → Elt F .f32)
      = shapeCast S2048x64x128 (m ((c : Thread nD τ).loc main_arg4)) shapeCasts_S2048x32x256_S2048x64x128 := by
  show StableHlo.after hostOps0_2 (W2 m ρ c) (Proc.devRef .tc main_v5) = _
  after_results
  rfl

/-! The arguments themselves are written by none of these operations. -/

theorem V3_main_arg0 (c : Dev nD) : V3 m ρ c main_arg0 = m ((c : Thread nD τ).loc main_arg0) := by
  show StableHlo.after hostOps0_2 (W2 m ρ c) (Proc.devRef .tc main_arg0) = _
  after_results

theorem V3_main_arg1 (c : Dev nD) : V3 m ρ c main_arg1 = m ((c : Thread nD τ).loc main_arg1) := by
  show StableHlo.after hostOps0_2 (W2 m ρ c) (Proc.devRef .tc main_arg1) = _
  after_results

theorem V3_main_arg2 (c : Dev nD) : V3 m ρ c main_arg2 = m ((c : Thread nD τ).loc main_arg2) := by
  show StableHlo.after hostOps0_2 (W2 m ρ c) (Proc.devRef .tc main_arg2) = _
  after_results

theorem V3_main_arg3 (c : Dev nD) : V3 m ρ c main_arg3 = m ((c : Thread nD τ).loc main_arg3) := by
  show StableHlo.after hostOps0_2 (W2 m ρ c) (Proc.devRef .tc main_arg3) = _
  after_results

theorem V3_main_arg4 (c : Dev nD) : V3 m ρ c main_arg4 = m ((c : Thread nD τ).loc main_arg4) := by
  show StableHlo.after hostOps0_2 (W2 m ρ c) (Proc.devRef .tc main_arg4) = _
  after_results

/-! ## The prefetched table -/

/-- The table is the clamped index array laid out flat. -/
theorem tbl_eq : (tbl m ρ 0 : S4096.Idx → BitVec 32) = clampFlat (m (((0 : Dev nD) : Thread nD τ).loc main_arg0)) := by
  unfold tbl
  exact V3_main_v1 m ρ 0

/-- A word clamped by a signed maximum with 0 and a signed minimum with 2047 is, unsigned, at most 2047. -/
theorem clamp_word_le (w : BitVec 32) : (IntOp.minsi (2047#32) (IntOp.maxsi (0#32) w)).toNat ≤ 2047 := by
  unfold IntOp.minsi IntOp.maxsi
  by_cases h1 : w.slt 0#32 = true
  · rw [if_pos h1]
    decide
  · rw [if_neg h1]
    by_cases h2 : (2047#32).slt w = true
    · rw [if_pos h2]; decide
    · rw [if_neg h2]
      simp only [BitVec.slt, decide_eq_true_eq, not_lt] at h1 h2
      have e0 : (0#32).toInt = 0 := by decide
      have e1 : (2047#32).toInt = 2047 := by decide
      rw [e0] at h1
      rw [e1] at h2
      have hw := BitVec.toInt_eq_toNat_cond w
      split at hw <;> omega

/-- Every entry of the table is a row number in [0, 2047]. -/
theorem clampFlat_le (x : IVec S2x512x4 32) (i : S4096.Idx) : (clampFlat x i).toNat ≤ 2047 := by
  unfold clampFlat shapeCast
  exact clamp_word_le _

/-! ## The call's side condition on the table

Each of the sixteen input windows stages, at grid point `i`, the block whose index along the first axis is a word
of the table (the word at `4 i + k`), and whose other two indices are 0.  A block of one row is inside the
[2048, 64, 128] table as soon as that word is at most 2047; the other two axes are taken whole. -/

/-- One row at a row number at most 2047 is inside 2048 rows. -/
theorem row_inside (w : BitVec 32) (hw : w.toNat ≤ 2047) : (w.toNat + 1) * 1 ≤ 2048 := by omega

/-- The side condition holds of any table all of whose entries are at most 2047. -/
theorem ok_of_le (pf : pre0.Contents (Elt F)) (h : ∀ j : S4096.Idx, ((pf 0 : S4096.Idx → BitVec 32) j).toNat ≤ 2047) :
    ok0 (F := F) pf := by
  unfold ok0
  refine ⟨?_, ?_, ?_, ?_, ?_, ?_, ?_, ?_, ?_, ?_, ?_, ?_, ?_, ?_, ?_, ?_⟩ <;>
  · intro i
    refine ⟨fun a => ?_, .inl rfl⟩
    match a with
    | ⟨0, _⟩ => exact row_inside _ (h _)
    | ⟨1, _⟩ => exact Nat.le_refl 64
    | ⟨2, _⟩ => exact Nat.le_refl 128

/-- The clamped table is admissible, whatever the input memory. -/
theorem ok_tbl : ok0 (F := F) (tbl m ρ) := by
  refine ok_of_le (tbl m ρ) fun j => ?_
  rw [tbl_eq]
  exact clampFlat_le _ j

/-- The table with the evidence that the call may run on it. -/
abbrev adm : (pcfg0 (F := F)).Adm := ⟨tbl m ρ, ok_tbl m ρ⟩

end Cert.KernelIdeal.Hand

end
-- ==== Proof.KLaunch.lean ====
/-
  The run of the whole program: three stretches of host operations, the call, the host operations after it.
  The buffers' contents are followed through @main as a fold: the call leaves its four result arrays at what
  its write-backs made of them and every other buffer as it found it.  At the call's entry each weight table's
  buffer is split into the quarters its four windows hold, and joined back at the exit.
-/
import proofs.«401394_j300647710818_2_alg».proof.Proof.Gen.KernelIdeal.Launch
import proofs.«401394_j300647710818_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.KDefs
import proofs.«401394_j300647710818_2_alg».proof.Proof.KFold
import proofs.«401394_j300647710818_2_alg».proof.Proof.KShare
import proofs.«401394_j300647710818_2_alg».proof.Proof.KEntry
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the call at the contents it is entered with. -/
abbrev datM (c : Dev nD) : Dat τ (Elt F) Unit ℕ (UR sig nD τ) ℕ (cfg0 (adm m ρ)) c := dat0 (adm m ρ) (V3 m ρ) c

/-- The four output windows by themselves: their arrays are distinct. -/
abbrev outSpec : Fin 4 → Pipeline.WinSpec sig grid0.rank := fun
  | ⟨0, _⟩ => spec0 16
  | ⟨1, _⟩ => spec0 17
  | ⟨2, _⟩ => spec0 18
  | ⟨3, _⟩ => spec0 19

theorem outSpec_inj : Function.Injective (Pipeline.arrRef outSpec) := by decide

/-- What the write-backs leave in each result array. -/
abbrev outAt (c : Dev nD) : (o : Fin 4) → Buf (Elt F) ((outSpec o).arr.view.loc (c.tc : Thread nD τ)) := fun
  | ⟨0, _⟩ => (datM m ρ c).arrAt 16 (cfg0 (adm m ρ)).N
  | ⟨1, _⟩ => (datM m ρ c).arrAt 17 (cfg0 (adm m ρ)).N
  | ⟨2, _⟩ => (datM m ρ c).arrAt 18 (cfg0 (adm m ρ)).N
  | ⟨3, _⟩ => (datM m ρ c).arrAt 19 (cfg0 (adm m ρ)).N

/-- The buffers' contents at the call's exit: the result arrays as written back, every other buffer as entered. -/
def W4 (c : Dev nD) : Valuation τ sig (Elt F) := Pipeline.withArrays outSpec c (W3 m ρ c) (outAt m ρ c)
abbrev V4 : (c : Dev nD) → (b : Ref sig .tc) → Buf (Elt F) ((c : Thread nD τ).loc b) := fun c b => W4 m ρ c b
/-- After the host operations that follow the call: the contents @main returns with. -/
abbrev W5 : Dev nD → Valuation τ sig (Elt F) := fun c => StableHlo.after hostOps1 (W4 m ρ c)

theorem W4_out (c : Dev nD) (o : Fin 4) : W4 m ρ c (Proc.devRef .tc (Pipeline.arrRef outSpec o)) = outAt m ρ c o := by
  unfold W4; exact Pipeline.withArrays_arr outSpec outSpec_inj c _ _ o

theorem W4_of_ne (c : Dev nD) (b : Ref sig .tc) (hb : ∀ o, Pipeline.arrRef outSpec o ≠ b) :
    W4 m ρ c (Proc.devRef .tc b) = W3 m ρ c (Proc.devRef .tc b) := by
  unfold W4; exact Pipeline.withArrays_of_ne outSpec c _ _ b hb

/-- A core's unscoped buffers are the eight buffers behind the call's windows and the rest. -/
theorem bufs_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec0 c V' ∗ Pipeline.unscopedRest spec0 c V') := by
  classical
  have hA : Finset.univ.image (Pipeline.arrRef spec0) ⊆ Finset.univ.filter fun b : Ref sig .tc => ¬ b.isScoped := by
    rw [arrRefs_eq]; decide
  unfold unscopedBufs Pipeline.unscopedRest Pipeline.arrBufs
  rw [bigSep_sdiff_split hA]
  rfl

/-- The first sixteen windows are inputs, and none of their arrays is a result array. -/
theorem in_isOut : ∀ w : Fin 20, w.val < 16 → (spec0 w).isOut = false := by decide
theorem in_ne_out : ∀ w : Fin 20, w.val < 16 → ∀ o : Fin 4, Pipeline.arrRef outSpec o ≠ Pipeline.arrRef spec0 w := by decide

/-- An input window's array is never written: at the exit it holds what the call found, which the exit valuation keeps. -/
theorem arrAt_V4_in (c : Dev nD) (w : Fin 20) (hw : w.val < 16) :
    (datM m ρ c).arrAt w (cfg0 (adm m ρ)).N = V4 m ρ c (Pipeline.arrRef spec0 w) :=
  ((datM m ρ c).arrAt_in w (in_isOut w hw) _).trans ((W4_of_ne m ρ c _ (in_ne_out w hw)).symm)

theorem arrAt_V4_16 (c : Dev nD) : (datM m ρ c).arrAt 16 (cfg0 (adm m ρ)).N = V4 m ρ c (Pipeline.arrRef spec0 16) := (W4_out m ρ c 0).symm
theorem arrAt_V4_17 (c : Dev nD) : (datM m ρ c).arrAt 17 (cfg0 (adm m ρ)).N = V4 m ρ c (Pipeline.arrRef spec0 17) := (W4_out m ρ c 1).symm
theorem arrAt_V4_18 (c : Dev nD) : (datM m ρ c).arrAt 18 (cfg0 (adm m ρ)).N = V4 m ρ c (Pipeline.arrRef spec0 18) := (W4_out m ρ c 2).symm
theorem arrAt_V4_19 (c : Dev nD) : (datM m ρ c).arrAt 19 (cfg0 (adm m ρ)).N = V4 m ρ c (Pipeline.arrRef spec0 19) := (W4_out m ρ c 3).symm

/-- At the exit every window's array holds what the exit valuation says. -/
theorem arrAt_V4 (c : Dev nD) (w : Fin 20) : (datM m ρ c).arrAt w (cfg0 (adm m ρ)).N = V4 m ρ c (Pipeline.arrRef spec0 w) := by
  by_cases hw : w.val < 16
  · exact arrAt_V4_in m ρ c w hw
  · have h : w.val = 16 ∨ w.val = 17 ∨ w.val = 18 ∨ w.val = 19 := by have := w.isLt; omega
    rcases h with h | h | h | h
    · obtain rfl : w = 16 := Fin.ext h
      exact arrAt_V4_16 m ρ c
    · obtain rfl : w = 17 := Fin.ext h
      exact arrAt_V4_17 m ρ c
    · obtain rfl : w = 18 := Fin.ext h
      exact arrAt_V4_18 m ρ c
    · obtain rfl : w = 19 := Fin.ext h
      exact arrAt_V4_19 m ρ c

/-- Off the result arrays the exit valuation is the entry one. -/
theorem V4_rest (c : Dev nD) (b : Ref sig .tc) (hb : b ∉ Finset.univ.image (Pipeline.arrRef spec0)) : V4 m ρ c b = V3 m ρ c b :=
  W4_of_ne m ρ c b fun o e => hb (Finset.mem_image.mpr ⟨⟨16 + o.val, by omega⟩, Finset.mem_univ _, by
    rw [← e]; match o with | ⟨0, _⟩ => rfl | ⟨1, _⟩ => rfl | ⟨2, _⟩ => rfl | ⟨3, _⟩ => rfl⟩)

/-- ENTRY: the unscoped buffers at the contents the call finds are the pipeline's arrays at their entry contents (each
    table split among its four windows), the index table whole, and the buffers that bypass the call. -/
theorem entry_eq (c : Dev nD) :
    (StableHlo.held (c : Thread nD τ) (Pipeline.ucRefs τ sig) (W3 m ρ c) : sProp 𝕄)
      = iprop((datM m ρ c).arrays ((datM m ρ c).arrAt · 0)
          ∗ Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V3 m ρ c)) := by
  rw [← Pipeline.unscopedBufs_held c (W3 m ρ c), bufs_split c, Pipeline.unscopedRest_split preFacts0 c,
    ← arrays_eq_arrBufs (adm m ρ) (V3 m ρ) c (fun w => (datM m ρ c).arrAt w 0) (V3 m ρ c) (fun w => rfl)]
  rw [show (fun k => V3 m ρ c (pre0.ref k)) = tbl m ρ from funext fun k => V_pre m ρ c k]

/-- The index table is no window's array, so the exit valuation keeps it. -/
theorem tbl_V4 (c : Dev nD) : (fun k => V4 m ρ c (pre0.ref k)) = tbl m ρ :=
  funext fun k => (V4_rest m ρ c _ ((by decide : ∀ k : Fin 1, pre0.ref k ∉ Finset.univ.image (Pipeline.arrRef spec0)) k)).trans (V_pre m ρ c k)

/-- The buffers that bypass the call are the same at both valuations. -/
theorem restP_V4 (c : Dev nD) :
    (Pipeline.unscopedRestP (Ix := Unit) (Name := ℕ) (U := UR sig nD τ) (Lvl := ℕ) pre0 spec0 c (V4 m ρ c) : sProp 𝕄)
      = Pipeline.unscopedRestP pre0 spec0 c (V3 m ρ c) := by
  unfold Pipeline.unscopedRestP
  exact bigSep_congr fun b hb => by rw [V4_rest m ρ c b (Finset.mem_sdiff.mp (Finset.mem_sdiff.mp hb).1).2]

/-- EXIT: the arrays at what the write-backs left (each table's quarters joined back), the index table and the bypassing
    buffers are the unscoped buffers at the exit valuation. -/
theorem exit_eq (c : Dev nD) :
    (iprop((datM m ρ c).arrays ((datM m ρ c).arrAt · (cfg0 (adm m ρ)).N)
          ∗ Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V3 m ρ c)) : sProp 𝕄)
      = StableHlo.held (c : Thread nD τ) (Pipeline.ucRefs τ sig) (W4 m ρ c) := by
  have e1 : (StableHlo.held (c : Thread nD τ) (Pipeline.ucRefs τ sig) (W4 m ρ c) : sProp 𝕄)
      = unscopedBufs (Ix := Unit) (Name := ℕ) (U := UR sig nD τ) (Lvl := ℕ) c (V4 m ρ c) := (Pipeline.unscopedBufs_held c (W4 m ρ c)).symm
  have e2 := bufs_split (F := F) c (V4 m ρ c)
  have e3 : (Pipeline.unscopedRest (Ix := Unit) (Name := ℕ) (U := UR sig nD τ) (Lvl := ℕ) spec0 c (V4 m ρ c) : sProp 𝕄) = _ :=
    Pipeline.unscopedRest_split preFacts0 c (V4 m ρ c)
  have e4 := arrays_eq_arrBufs (adm m ρ) (V3 m ρ) c (fun w => (datM m ρ c).arrAt w (cfg0 (adm m ρ)).N) (V4 m ρ c) (arrAt_V4 m ρ c)
  rw [e1, e2, e3, ← e4, tbl_V4 m ρ c, restP_V4 m ρ c]

/-! ## The proof data family, the thread state and the segments -/

/-- The index table's admissible contents, the same on every core. -/
abbrev admP : (p : Fin 1) → (pcfgs (F := F) p).Adm := fun _ => adm m ρ
/-- The one pipeline's proof data at the call's entry contents. -/
def pdats : (p : Fin 1) → (c : Dev nD) → Dat τ (Elt F) Unit ℕ (UR sig nD τ) ℕ (Pipeline.pin (pcfgs (F := F)) (admP m ρ) p) c :=
  fun _ c => datM m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register. -/
abbrev Tₙ (c : Dev nD) : sProp 𝕄 := iprop(StableHlo.held (c : Thread nD τ) (Pipeline.ucRefs τ sig) (W5 m ρ c) ∗ ∃ r, prngReg c r)

variable (hbody : ∀ c : Dev nD, BodyObligation (datM (F := F) m ρ c) (defs₀ (F := F)) Variants.none () Set.univ)

set_option backward.isDefEq.respectTransparency.types false in
/-- THE CALL over the thread state: entered from every unscoped buffer at `W3`, left at `W4`. -/
def reg0 : Pipeline.RegionSeg (pcfgs (F := F)) (admP m ρ) (pdats m ρ) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m ρ))
  Z c := Pipeline.unscopedRestP (Ix := Unit) (Name := ℕ) (U := UR sig nD τ) (Lvl := ℕ) pre0 spec0 c (V3 m ρ c)
  hentry c := by
    rw [Pipeline.ownSems0_none, entry_eq m ρ c]
    iintro ⟨⟨⟨Ha, Ht, Hrest⟩, Hp, HO⟩, -, -⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.ΦA spec0 c ∗ Pipeline.prefHeld (Ix := Unit) (Name := ℕ) (U := UR sig nD τ) (Lvl := ℕ) pre0 c (fun _ => fullShare) (tbl m ρ)) from rfl]
    unfold Pipeline.ΦA
    iintro ⟨Hp, Ht, Hr⟩
    isplitr [Ht]
    · isplitl [Hr]; · iexact Hr
      iexact Hp
    · iexact Ht
  hout c := by
    rw [Pipeline.ownSems0_none, show (pdats m ρ 0 c).Φ (Fin.last _) = iprop(Pipeline.ΦA spec0 c ∗ Pipeline.prefHeld (Ix := Unit) (Name := ℕ) (U := UR sig nD τ) (Lvl := ℕ) pre0 c (fun _ => fullShare) (tbl m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    rw [← exit_eq m ρ c]
    iintro ⟨Ha, HO, ⟨HY, Ht⟩, Hrest⟩
    imodintro
    isplitl [Ha Ht Hrest]
    · isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) (admP m ρ) (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hbody),
    .host (hseg hostOps1 hostOps1_sub hostOps1_fresh (W4 m ρ)) ]

/-- @main is the run of the segments. -/
theorem main_run (c : Dev nD) : main (F := F) c = Pipeline.Seg.run (segs m ρ hbody) := (main_chain c).trans (by chain_rfl)

set_option backward.isDefEq.respectTransparency.types false in
/-- THE RUN: from any memory with zero counters every weakly fair execution of @main terminates, nothing faulting, and
    every unscoped buffer ends at the contents the fold computes. -/
theorem run_main (hbody : ∀ c : Dev nD, BodyObligation (datM (F := F) m ρ c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) (admP m ρ) (pdats m ρ) () (cellOf_inj (admP m ρ)) emb₁ defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admP m ρ)) (cellOf_inj (admP m ρ))) (Pipeline.launchToks (Pipeline.pin (pcfgs (F := F)) (admP m ρ)) (cellOf_inj (admP m ρ))))
    (hu₀ := by
      iintro Hu; imodintro
      isplitl [Hu]
      · iapply (show (ownU (initOf (Pipeline.cells (Pipeline.pin (pcfgs (F := F)) (admP m ρ)) (cellOf_inj (admP m ρ))) (Pipeline.launchToks (Pipeline.pin (pcfgs (F := F)) (admP m ρ)) (cellOf_inj (admP m ρ)))) : sProp 𝕄)
            ⊢ BI.own (emb₁ (initOf (Pipeline.cells (Pipeline.pin (pcfgs (F := F)) (admP m ρ)) (cellOf_inj (admP m ρ))) (Pipeline.launchToks (Pipeline.pin (pcfgs (F := F)) (admP m ρ)) (cellOf_inj (admP m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KBody.lean ====
/-
  The body of the gather kernel at one grid point.  For each of the four outputs and each of its four
  slots the body loads one input block whole, reshapes it [1, 64, 128] → [64, 128] → [1, 1, 64, 128] (the
  same elements in the same order) and stores it into that slot of the output block.  So after the body
  every input block is as it was found and output block `o` reads as input blocks `4 o … 4 o + 3` stacked
  along its second axis: the four slot rectangles tile the block, and on slot `k` the stored payload is
  input `4 o + k` at the same row and column.
-/
import proofs.«401394_j300647710818_2_alg».proof.Proof.KDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The staging memrefs the body is called with at a point -/

abbrev ms0 (a : (pcfg0 (F := F)).Adm) (t : Fin (cfg0 a).N) : Memref sig .tc .vmem S1x64x128 .f32 := spec0_0.stage ((cfg0 a).slots t 0)
abbrev hs0 (a : (pcfg0 (F := F)).Adm) (t : Fin (cfg0 a).N) : (ms0 a t).IsWhole := hstage0_0 (((cfg0 a).slots t 0).cast nbuf0_0)
abbrev ms1 (a : (pcfg0 (F := F)).Adm) (t : Fin (cfg0 a).N) : Memref sig .tc .vmem S1x64x128 .f32 := spec0_1.stage ((cfg0 a).slots t 1)
abbrev hs1 (a : (pcfg0 (F := F)).Adm) (t : Fin (cfg0 a).N) : (ms1 a t).IsWhole := hstage0_1 (((cfg0 a).slots t 1).cast nbuf0_1)
abbrev ms2 (a : (pcfg0 (F := F)).Adm) (t : Fin (cfg0 a).N) : Memref sig .tc .vmem S1x64x128 .f32 := spec0_2.stage ((cfg0 a).slots t 2)
abbrev hs2 (a : (pcfg0 (F := F)).Adm) (t : Fin (cfg0 a).N) : (ms2 a t).IsWhole := hstage0_2 (((cfg0 a).slots t 2).cast nbuf0_2)
abbrev ms3 (a : (pcfg0 (F := F)).Adm) (t : Fin (cfg0 a).N) : Memref sig .tc .vmem S1x64x128 .f32 := spec0_3.stage ((cfg0 a).slots t 3)
abbrev hs3 (a : (pcfg0 (F := F)).Adm) (t : Fin (cfg0 a).N) : (ms3 a t).IsWhole := hstage0_3 (((cfg0 a).slots t 3).cast nbuf0_3)
abbrev ms4 (a : (pcfg0 (F := F)).Adm) (t : Fin (cfg0 a).N) : Memref sig .tc .vmem S1x64x128 .f32 := spec0_4.stage ((cfg0 a).slots t 4)
abbrev hs4 (a : (pcfg0 (F := F)).Adm) (t : Fin (cfg0 a).N) : (ms4 a t).IsWhole := hstage0_4 (((cfg0 a).slots t 4).cast nbuf0_4)
abbrev ms5 (a : (pcfg0 (F := F)).Adm) (t : Fin (cfg0 a).N) : Memref sig .tc .vmem S1x64x128 .f32 := spec0_5.stage ((cfg0 a).slots t 5)
abbrev hs5 (a : (pcfg0 (F := F)).Adm) (t : Fin (cfg0 a).N) : (ms5 a t).IsWhole := hstage0_5 (((cfg0 a).slots t 5).cast nbuf0_5)
abbrev ms6 (a : (pcfg0 (F := F)).Adm) (t : Fin (cfg0 a).N) : Memref sig .tc .vmem S1x64x128 .f32 := spec0_6.stage ((cfg0 a).slots t 6)
abbrev hs6 (a : (pcfg0 (F := F)).Adm) (t : Fin (cfg0 a).N) : (ms6 a t).IsWhole := hstage0_6 (((cfg0 a).slots t 6).cast nbuf0_6)
abbrev ms7 (a : (pcfg0 (F := F)).Adm) (t : Fin (cfg0 a).N) : Memref sig .tc .vmem S1x64x128 .f32 := spec0_7.stage ((cfg0 a).slots t 7)
abbrev hs7 (a : (pcfg0 (F := F)).Adm) (t : Fin (cfg0 a).N) : (ms7 a t).IsWhole := hstage0_7 (((cfg0 a).slots t 7).cast nbuf0_7)
abbrev ms8 (a : (pcfg0 (F := F)).Adm) (t : Fin (cfg0 a).N) : Memref sig .tc .vmem S1x64x128 .f32 := spec0_8.stage ((cfg0 a).slots t 8)
abbrev hs8 (a : (pcfg0 (F := F)).Adm) (t : Fin (cfg0 a).N) : (ms8 a t).IsWhole := hstage0_8 (((cfg0 a).slots t 8).cast nbuf0_8)
abbrev ms9 (a : (pcfg0 (F := F)).Adm) (t : Fin (cfg0 a).N) : Memref sig .tc .vmem S1x64x128 .f32 := spec0_9.stage ((cfg0 a).slots t 9)
abbrev hs9 (a : (pcfg0 (F := F)).Adm) (t : Fin (cfg0 a).N) : (ms9 a t).IsWhole := hstage0_9 (((cfg0 a).slots t 9).cast nbuf0_9)
abbrev ms10 (a : (pcfg0 (F := F)).Adm) (t : Fin (cfg0 a).N) : Memref sig .tc .vmem S1x64x128 .f32 := spec0_10.stage ((cfg0 a).slots t 10)
abbrev hs10 (a : (pcfg0 (F := F)).Adm) (t : Fin (cfg0 a).N) : (ms10 a t).IsWhole := hstage0_10 (((cfg0 a).slots t 10).cast nbuf0_10)
abbrev ms11 (a : (pcfg0 (F := F)).Adm) (t : Fin (cfg0 a).N) : Memref sig .tc .vmem S1x64x128 .f32 := spec0_11.stage ((cfg0 a).slots t 11)
abbrev hs11 (a : (pcfg0 (F := F)).Adm) (t : Fin (cfg0 a).N) : (ms11 a t).IsWhole := hstage0_11 (((cfg0 a).slots t 11).cast nbuf0_11)
abbrev ms12 (a : (pcfg0 (F := F)).Adm) (t : Fin (cfg0 a).N) : Memref sig .tc .vmem S1x64x128 .f32 := spec0_12.stage ((cfg0 a).slots t 12)
abbrev hs12 (a : (pcfg0 (F := F)).Adm) (t : Fin (cfg0 a).N) : (ms12 a t).IsWhole := hstage0_12 (((cfg0 a).slots t 12).cast nbuf0_12)
abbrev ms13 (a : (pcfg0 (F := F)).Adm) (t : Fin (cfg0 a).N) : Memref sig .tc .vmem S1x64x128 .f32 := spec0_13.stage ((cfg0 a).slots t 13)
abbrev hs13 (a : (pcfg0 (F := F)).Adm) (t : Fin (cfg0 a).N) : (ms13 a t).IsWhole := hstage0_13 (((cfg0 a).slots t 13).cast nbuf0_13)
abbrev ms14 (a : (pcfg0 (F := F)).Adm) (t : Fin (cfg0 a).N) : Memref sig .tc .vmem S1x64x128 .f32 := spec0_14.stage ((cfg0 a).slots t 14)
abbrev hs14 (a : (pcfg0 (F := F)).Adm) (t : Fin (cfg0 a).N) : (ms14 a t).IsWhole := hstage0_14 (((cfg0 a).slots t 14).cast nbuf0_14)
abbrev ms15 (a : (pcfg0 (F := F)).Adm) (t : Fin (cfg0 a).N) : Memref sig .tc .vmem S1x64x128 .f32 := spec0_15.stage ((cfg0 a).slots t 15)
abbrev hs15 (a : (pcfg0 (F := F)).Adm) (t : Fin (cfg0 a).N) : (ms15 a t).IsWhole := hstage0_15 (((cfg0 a).slots t 15).cast nbuf0_15)
abbrev ms16 (a : (pcfg0 (F := F)).Adm) (t : Fin (cfg0 a).N) : Memref sig .tc .vmem S1x4x64x128 .f32 := spec0_16.stage ((cfg0 a).slots t 16)
abbrev hs16 (a : (pcfg0 (F := F)).Adm) (t : Fin (cfg0 a).N) : (ms16 a t).IsWhole := hstage0_16 (((cfg0 a).slots t 16).cast nbuf0_16)
abbrev ms17 (a : (pcfg0 (F := F)).Adm) (t : Fin (cfg0 a).N) : Memref sig .tc .vmem S1x4x64x128 .f32 := spec0_17.stage ((cfg0 a).slots t 17)
abbrev hs17 (a : (pcfg0 (F := F)).Adm) (t : Fin (cfg0 a).N) : (ms17 a t).IsWhole := hstage0_17 (((cfg0 a).slots t 17).cast nbuf0_17)
abbrev ms18 (a : (pcfg0 (F := F)).Adm) (t : Fin (cfg0 a).N) : Memref sig .tc .vmem S1x4x64x128 .f32 := spec0_18.stage ((cfg0 a).slots t 18)
abbrev hs18 (a : (pcfg0 (F := F)).Adm) (t : Fin (cfg0 a).N) : (ms18 a t).IsWhole := hstage0_18 (((cfg0 a).slots t 18).cast nbuf0_18)
abbrev ms19 (a : (pcfg0 (F := F)).Adm) (t : Fin (cfg0 a).N) : Memref sig .tc .vmem S1x4x64x128 .f32 := spec0_19.stage ((cfg0 a).slots t 19)
abbrev hs19 (a : (pcfg0 (F := F)).Adm) (t : Fin (cfg0 a).N) : (ms19 a t).IsWhole := hstage0_19 (((cfg0 a).slots t 19).cast nbuf0_19)

/-- The kernel function as the pipeline calls it at point `t`. -/
abbrev bodyAt (a : (pcfg0 (F := F)).Adm) (t : Fin (cfg0 a).N) : Prog (TpuEff nD τ sig (Elt F) Λ₀ .tc) PUnit :=
  cc0__gather_kernel (grid0.coords t) (Memref.whole main_v1) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (ms10 a t) (hs10 a t) (ms11 a t) (hs11 a t) (ms12 a t) (hs12 a t) (ms13 a t) (hs13 a t) (ms14 a t) (hs14 a t) (ms15 a t) (hs15 a t) (ms16 a t) (hs16 a t) (ms17 a t) (hs17 a t) (ms18 a t) (hs18 a t) (ms19 a t) (hs19 a t)

variable (a : (pcfg0 (F := F)).Adm)
variable (V : (c : Dev nD) → (b : Ref sig .tc) → Buf (Elt F) ((c : Thread nD τ).loc b))

/-! ## What the proof data says each window holds after the body -/

theorem after0 (c : Dev nD) (t : Fin (cfg0 a).N) : (dat0 a V c).after 0 t = iblk a V c 0 t := by dsimp only [dat0]; try rfl
theorem after1 (c : Dev nD) (t : Fin (cfg0 a).N) : (dat0 a V c).after 1 t = iblk a V c 1 t := by dsimp only [dat0]; try rfl
theorem after2 (c : Dev nD) (t : Fin (cfg0 a).N) : (dat0 a V c).after 2 t = iblk a V c 2 t := by dsimp only [dat0]; try rfl
theorem after3 (c : Dev nD) (t : Fin (cfg0 a).N) : (dat0 a V c).after 3 t = iblk a V c 3 t := by dsimp only [dat0]; try rfl
theorem after4 (c : Dev nD) (t : Fin (cfg0 a).N) : (dat0 a V c).after 4 t = iblk a V c 4 t := by dsimp only [dat0]; try rfl
theorem after5 (c : Dev nD) (t : Fin (cfg0 a).N) : (dat0 a V c).after 5 t = iblk a V c 5 t := by dsimp only [dat0]; try rfl
theorem after6 (c : Dev nD) (t : Fin (cfg0 a).N) : (dat0 a V c).after 6 t = iblk a V c 6 t := by dsimp only [dat0]; try rfl
theorem after7 (c : Dev nD) (t : Fin (cfg0 a).N) : (dat0 a V c).after 7 t = iblk a V c 7 t := by dsimp only [dat0]; try rfl
theorem after8 (c : Dev nD) (t : Fin (cfg0 a).N) : (dat0 a V c).after 8 t = iblk a V c 8 t := by dsimp only [dat0]; try rfl
theorem after9 (c : Dev nD) (t : Fin (cfg0 a).N) : (dat0 a V c).after 9 t = iblk a V c 9 t := by dsimp only [dat0]; try rfl
theorem after10 (c : Dev nD) (t : Fin (cfg0 a).N) : (dat0 a V c).after 10 t = iblk a V c 10 t := by dsimp only [dat0]; try rfl
theorem after11 (c : Dev nD) (t : Fin (cfg0 a).N) : (dat0 a V c).after 11 t = iblk a V c 11 t := by dsimp only [dat0]; try rfl
theorem after12 (c : Dev nD) (t : Fin (cfg0 a).N) : (dat0 a V c).after 12 t = iblk a V c 12 t := by dsimp only [dat0]; try rfl
theorem after13 (c : Dev nD) (t : Fin (cfg0 a).N) : (dat0 a V c).after 13 t = iblk a V c 13 t := by dsimp only [dat0]; try rfl
theorem after14 (c : Dev nD) (t : Fin (cfg0 a).N) : (dat0 a V c).after 14 t = iblk a V c 14 t := by dsimp only [dat0]; try rfl
theorem after15 (c : Dev nD) (t : Fin (cfg0 a).N) : (dat0 a V c).after 15 t = iblk a V c 15 t := by dsimp only [dat0]; try rfl
theorem after16 (c : Dev nD) (t : Fin (cfg0 a).N) : (dat0 a V c).after 16 t = stack4 (iblk a V c 0 t) (iblk a V c 1 t) (iblk a V c 2 t) (iblk a V c 3 t) := by dsimp only [dat0]; try rfl
theorem after17 (c : Dev nD) (t : Fin (cfg0 a).N) : (dat0 a V c).after 17 t = stack4 (iblk a V c 4 t) (iblk a V c 5 t) (iblk a V c 6 t) (iblk a V c 7 t) := by dsimp only [dat0]; try rfl
theorem after18 (c : Dev nD) (t : Fin (cfg0 a).N) : (dat0 a V c).after 18 t = stack4 (iblk a V c 8 t) (iblk a V c 9 t) (iblk a V c 10 t) (iblk a V c 11 t) := by dsimp only [dat0]; try rfl
theorem after19 (c : Dev nD) (t : Fin (cfg0 a).N) : (dat0 a V c).after 19 t = stack4 (iblk a V c 12 t) (iblk a V c 13 t) (iblk a V c 14 t) (iblk a V c 15 t) := by dsimp only [dat0]; try rfl

/-! ## What an input window's buffer holds before the body: its block, fetched at this point or not -/

theorem before0 (c : Dev nD) (t : Fin (cfg0 a).N) (d) : (dat0 a V c).before 0 t d = iblk a V c 0 t :=
  ((dat0 a V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dat0 a V c).before 1 t d = iblk a V c 1 t :=
  ((dat0 a V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dat0 a V c).before 2 t d = iblk a V c 2 t :=
  ((dat0 a V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dat0 a V c).before 3 t d = iblk a V c 3 t :=
  ((dat0 a V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfg0 a).N) (d) : (dat0 a V c).before 4 t d = iblk a V c 4 t :=
  ((dat0 a V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfg0 a).N) (d) : (dat0 a V c).before 5 t d = iblk a V c 5 t :=
  ((dat0 a V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfg0 a).N) (d) : (dat0 a V c).before 6 t d = iblk a V c 6 t :=
  ((dat0 a V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin (cfg0 a).N) (d) : (dat0 a V c).before 7 t d = iblk a V c 7 t :=
  ((dat0 a V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin (cfg0 a).N) (d) : (dat0 a V c).before 8 t d = iblk a V c 8 t :=
  ((dat0 a V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin (cfg0 a).N) (d) : (dat0 a V c).before 9 t d = iblk a V c 9 t :=
  ((dat0 a V c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin (cfg0 a).N) (d) : (dat0 a V c).before 10 t d = iblk a V c 10 t :=
  ((dat0 a V c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin (cfg0 a).N) (d) : (dat0 a V c).before 11 t d = iblk a V c 11 t :=
  ((dat0 a V c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin (cfg0 a).N) (d) : (dat0 a V c).before 12 t d = iblk a V c 12 t :=
  ((dat0 a V c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin (cfg0 a).N) (d) : (dat0 a V c).before 13 t d = iblk a V c 13 t :=
  ((dat0 a V c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin (cfg0 a).N) (d) : (dat0 a V c).before 14 t d = iblk a V c 14 t :=
  ((dat0 a V c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin (cfg0 a).N) (d) : (dat0 a V c).before 15 t d = iblk a V c 15 t :=
  ((dat0 a V c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)

/-! ## The body's accesses -/

/-- An input block, whole. -/
abbrev rIn : Rect S1x64x128 := Rect.unit (s := S1x64x128) ![0, 0, 0] S1x64x128.size inb_S1x64x128_S1x64x128_0_0_0
/-- Slot `k` of an output block: the rows of its second axis' coordinate `k`. -/
abbrev rS0 : Rect S1x4x64x128 := Rect.unit (s := S1x4x64x128) ![0, 0, 0, 0] S1x1x64x128.size inb_S1x4x64x128_S1x1x64x128_0_0_0_0
abbrev rS1 : Rect S1x4x64x128 := Rect.unit (s := S1x4x64x128) ![0, 1, 0, 0] S1x1x64x128.size inb_S1x4x64x128_S1x1x64x128_0_1_0_0
abbrev rS2 : Rect S1x4x64x128 := Rect.unit (s := S1x4x64x128) ![0, 2, 0, 0] S1x1x64x128.size inb_S1x4x64x128_S1x1x64x128_0_2_0_0
abbrev rS3 : Rect S1x4x64x128 := Rect.unit (s := S1x4x64x128) ![0, 3, 0, 0] S1x1x64x128.size inb_S1x4x64x128_S1x1x64x128_0_3_0_0

/-! ## What the body leaves in each output block: its four stores as pieces, last first -/

def out16 (x0 x1 x2 x3 : Vec F S1x64x128 .f32) : Vec F S1x4x64x128 .f32 :=
  View.canon [⟨rS3, k0_pay7 (View.ld x3 rIn)⟩, ⟨rS2, k0_pay6 (View.ld x2 rIn)⟩, ⟨rS1, k0_pay5 (View.ld x1 rIn)⟩, ⟨rS0, k0_pay4 (View.ld x0 rIn)⟩]
def out17 (x0 x1 x2 x3 : Vec F S1x64x128 .f32) : Vec F S1x4x64x128 .f32 :=
  View.canon [⟨rS3, k0_pay12 (View.ld x3 rIn)⟩, ⟨rS2, k0_pay11 (View.ld x2 rIn)⟩, ⟨rS1, k0_pay10 (View.ld x1 rIn)⟩, ⟨rS0, k0_pay9 (k0_pay8 (View.ld x0 rIn))⟩]
def out18 (x0 x1 x2 x3 : Vec F S1x64x128 .f32) : Vec F S1x4x64x128 .f32 :=
  View.canon [⟨rS3, k0_pay16 (View.ld x3 rIn)⟩, ⟨rS2, k0_pay15 (View.ld x2 rIn)⟩, ⟨rS1, k0_pay14 (View.ld x1 rIn)⟩, ⟨rS0, k0_pay13 (View.ld x0 rIn)⟩]
def out19 (x0 x1 x2 x3 : Vec F S1x64x128 .f32) : Vec F S1x4x64x128 .f32 :=
  View.canon [⟨rS3, k0_pay3 (View.ld x3 rIn)⟩, ⟨rS2, k0_pay2 (View.ld x2 rIn)⟩, ⟨rS1, k0_pay1 (k0_pay18 (View.ld x1 rIn))⟩, ⟨rS0, k0_pay17 (View.ld x0 rIn)⟩]

/-- The four slot rectangles tile the block, so four stores through them cover it. -/
theorem cover4 (p3 p2 p1 p0 : Vec F S1x1x64x128 .f32) (y : S1x4x64x128.Idx) :
    ∃ pc ∈ ([⟨rS3, p3⟩, ⟨rS2, p2⟩, ⟨rS1, p1⟩, ⟨rS0, p0⟩] : List (View.Piece (Elt F) S1x4x64x128 .f32)), y ∈ pc.1.set :=
  View.cover_of_tiled [⟨rS3, p3⟩, ⟨rS2, p2⟩, ⟨rS1, p1⟩, ⟨rS0, p0⟩] S1x1x64x128.size (by rfl) y

/-! ## The stored payloads, read at an index -/

/-- The body's two reshapes of a block, [1, 64, 128] → [64, 128] → [1, 1, 64, 128], keep every element at its row
    and column: both are row-major renumberings and the added axes have one coordinate. -/
theorem pay_read (xk : Vec F S1x64x128 .f32) (h1 : S1x64x128.ShapeCasts S64x128) (h2 : S64x128.ShapeCasts S1x1x64x128)
    (x : S1x1x64x128.Idx) :
    shapeCast S1x1x64x128 (shapeCast S64x128 (View.ld xk rIn) h1) h2 x
      = xk (ValueIdx.ix3 (⟨0, Nat.one_pos⟩ : Fin 1) (⟨(x 2).val, (x 2).isLt⟩ : Fin 64) (⟨(x 3).val, (x 3).isLt⟩ : Fin 128)) := by
  have e : View.ld xk rIn = xk :=
    View.ld_unit_zero (funext fun a => match a with | ⟨0, _⟩ => rfl | ⟨1, _⟩ => rfl | ⟨2, _⟩ => rfl) inb_S1x64x128_S1x64x128_0_0_0 xk
  rw [e]
  have h0 : (x 0).val < 1 := (x 0).isLt
  have h1' : (x 1).val < 1 := (x 1).isLt
  have h2' : (x 2).val < 64 := (x 2).isLt
  have h3' : (x 3).val < 128 := (x 3).isLt
  refine (shapeCast_apply _ h2 x (ValueIdx.ix2 (⟨(x 2).val, h2'⟩ : Fin 64) (⟨(x 3).val, h3'⟩ : Fin 128)) ?_).trans
    (shapeCast_apply xk h1 _ (ValueIdx.ix3 (⟨0, Nat.one_pos⟩ : Fin 1) (⟨(x 2).val, h2'⟩ : Fin 64) (⟨(x 3).val, h3'⟩ : Fin 128)) ?_)
  · rw [Shape.rowMajor_val_two, Shape.rowMajor_val_four]
    show (x 2).val * 128 + (x 3).val = (((x 0).val * 1 + (x 1).val) * 64 + (x 2).val) * 128 + (x 3).val
    omega
  · rw [Shape.rowMajor_val_three, Shape.rowMajor_val_two]
    show (0 * 64 + (x 2).val) * 128 + (x 3).val = (x 2).val * 128 + (x 3).val
    omega

/-! ## The stacked block at the indices of one slot -/

theorem stack4_at0 (x0 x1 x2 x3 : Vec F S1x64x128 .f32) (u : Fin 1) (r : Fin 64) (l : Fin 128) :
    stack4 x0 x1 x2 x3 (ValueIdx.ix4 u (⟨0, by omega⟩ : Fin 4) r l) = x0 (ValueIdx.ix3 (⟨0, Nat.one_pos⟩ : Fin 1) r l) := rfl

/-- Slot 0's rectangle sends a local index to the block index with second coordinate 0 and the same row and column. -/
theorem emb_rS0 (x : S1x1x64x128.Idx) :
    rS0.emb x = ValueIdx.ix4 (⟨0, Nat.one_pos⟩ : Fin 1) (⟨0, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 0 + 1 * (x 1).val = 0; omega
  | ⟨2, _⟩ => show 0 + 1 * (x 2).val = (x 2).val; omega
  | ⟨3, _⟩ => show 0 + 1 * (x 3).val = (x 3).val; omega

theorem stack4_at1 (x0 x1 x2 x3 : Vec F S1x64x128 .f32) (u : Fin 1) (r : Fin 64) (l : Fin 128) :
    stack4 x0 x1 x2 x3 (ValueIdx.ix4 u (⟨1, by omega⟩ : Fin 4) r l) = x1 (ValueIdx.ix3 (⟨0, Nat.one_pos⟩ : Fin 1) r l) := rfl

/-- Slot 1's rectangle sends a local index to the block index with second coordinate 1 and the same row and column. -/
theorem emb_rS1 (x : S1x1x64x128.Idx) :
    rS1.emb x = ValueIdx.ix4 (⟨0, Nat.one_pos⟩ : Fin 1) (⟨1, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 1 + 1 * (x 1).val = 1; omega
  | ⟨2, _⟩ => show 0 + 1 * (x 2).val = (x 2).val; omega
  | ⟨3, _⟩ => show 0 + 1 * (x 3).val = (x 3).val; omega

theorem stack4_at2 (x0 x1 x2 x3 : Vec F S1x64x128 .f32) (u : Fin 1) (r : Fin 64) (l : Fin 128) :
    stack4 x0 x1 x2 x3 (ValueIdx.ix4 u (⟨2, by omega⟩ : Fin 4) r l) = x2 (ValueIdx.ix3 (⟨0, Nat.one_pos⟩ : Fin 1) r l) := rfl

/-- Slot 2's rectangle sends a local index to the block index with second coordinate 2 and the same row and column. -/
theorem emb_rS2 (x : S1x1x64x128.Idx) :
    rS2.emb x = ValueIdx.ix4 (⟨0, Nat.one_pos⟩ : Fin 1) (⟨2, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 2 + 1 * (x 1).val = 2; omega
  | ⟨2, _⟩ => show 0 + 1 * (x 2).val = (x 2).val; omega
  | ⟨3, _⟩ => show 0 + 1 * (x 3).val = (x 3).val; omega

theorem stack4_at3 (x0 x1 x2 x3 : Vec F S1x64x128 .f32) (u : Fin 1) (r : Fin 64) (l : Fin 128) :
    stack4 x0 x1 x2 x3 (ValueIdx.ix4 u (⟨3, by omega⟩ : Fin 4) r l) = x3 (ValueIdx.ix3 (⟨0, Nat.one_pos⟩ : Fin 1) r l) := rfl

/-- Slot 3's rectangle sends a local index to the block index with second coordinate 3 and the same row and column. -/
theorem emb_rS3 (x : S1x1x64x128.Idx) :
    rS3.emb x = ValueIdx.ix4 (⟨0, Nat.one_pos⟩ : Fin 1) (⟨3, by omega⟩ : Fin 4) (⟨(x 2).val, (x 2).isLt⟩ : Fin 64) (⟨(x 3).val, (x 3).isLt⟩ : Fin 128) := by
  have h0 : (x 0).val < 1 := (x 0).isLt
  have h1 : (x 1).val < 1 := (x 1).isLt
  funext a
  refine Fin.ext ?_
  rw [Rect.emb_apply]
  match a with
  | ⟨0, _⟩ => show 0 + 1 * (x 0).val = 0; omega
  | ⟨1, _⟩ => show 3 + 1 * (x 1).val = 3; omega
  | ⟨2, _⟩ => show 0 + 1 * (x 2).val = (x 2).val; omega
  | ⟨3, _⟩ => show 0 + 1 * (x 3).val = (x 3).val; omega

/-- Four stores through the four slots, slot `k`'s payload reading `xk` at the same row and column, leave the stacked block. -/
theorem stack4_of_pieces (x0 x1 x2 x3 : Vec F S1x64x128 .f32) (p0 p1 p2 p3 : Vec F S1x1x64x128 .f32)
    (e0 : ∀ x : S1x1x64x128.Idx, p0 x = x0 (ValueIdx.ix3 (⟨0, Nat.one_pos⟩ : Fin 1) (⟨(x 2).val, (x 2).isLt⟩ : Fin 64) (⟨(x 3).val, (x 3).isLt⟩ : Fin 128)))
    (e1 : ∀ x : S1x1x64x128.Idx, p1 x = x1 (ValueIdx.ix3 (⟨0, Nat.one_pos⟩ : Fin 1) (⟨(x 2).val, (x 2).isLt⟩ : Fin 64) (⟨(x 3).val, (x 3).isLt⟩ : Fin 128)))
    (e2 : ∀ x : S1x1x64x128.Idx, p2 x = x2 (ValueIdx.ix3 (⟨0, Nat.one_pos⟩ : Fin 1) (⟨(x 2).val, (x 2).isLt⟩ : Fin 64) (⟨(x 3).val, (x 3).isLt⟩ : Fin 128)))
    (e3 : ∀ x : S1x1x64x128.Idx, p3 x = x3 (ValueIdx.ix3 (⟨0, Nat.one_pos⟩ : Fin 1) (⟨(x 2).val, (x 2).isLt⟩ : Fin 64) (⟨(x 3).val, (x 3).isLt⟩ : Fin 128))) :
    View.canon [⟨rS3, p3⟩, ⟨rS2, p2⟩, ⟨rS1, p1⟩, ⟨rS0, p0⟩] = stack4 x0 x1 x2 x3 := by
  funext y
  refine View.canon_apply_of_pieces (stack4 x0 x1 x2 x3) _ ?_ y (cover4 p3 p2 p1 p0 y)
  intro p hp
  rcases List.mem_cons.mp hp with rfl | hp
  · intro x
    exact (e3 x).trans ((stack4_at3 x0 x1 x2 x3 _ _ _).symm.trans (congrArg (stack4 x0 x1 x2 x3) (emb_rS3 x).symm))
  rcases List.mem_cons.mp hp with rfl | hp
  · intro x
    exact (e2 x).trans ((stack4_at2 x0 x1 x2 x3 _ _ _).symm.trans (congrArg (stack4 x0 x1 x2 x3) (emb_rS2 x).symm))
  rcases List.mem_cons.mp hp with rfl | hp
  · intro x
    exact (e1 x).trans ((stack4_at1 x0 x1 x2 x3 _ _ _).symm.trans (congrArg (stack4 x0 x1 x2 x3) (emb_rS1 x).symm))
  rcases List.mem_cons.mp hp with rfl | hp
  · intro x
    exact (e0 x).trans ((stack4_at0 x0 x1 x2 x3 _ _ _).symm.trans (congrArg (stack4 x0 x1 x2 x3) (emb_rS0 x).symm))
  · exact absurd hp List.not_mem_nil

theorem out16_eq (x0 x1 x2 x3 : Vec F S1x64x128 .f32) : out16 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out17_eq (x0 x1 x2 x3 : Vec F S1x64x128 .f32) : out17 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out18_eq (x0 x1 x2 x3 : Vec F S1x64x128 .f32) : out18 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)
theorem out19_eq (x0 x1 x2 x3 : Vec F S1x64x128 .f32) : out19 x0 x1 x2 x3 = stack4 x0 x1 x2 x3 :=
  stack4_of_pieces x0 x1 x2 x3 _ _ _ _ (fun x => pay_read x0 _ _ x) (fun x => pay_read x1 _ _ x) (fun x => pay_read x2 _ _ x) (fun x => pay_read x3 _ _ x)

/-! ## The body's triple -/

set_option maxHeartbeats 1000000 in
/-- The kernel body on whole staging memrefs, the inputs' at read contents `x0 … x15` and the outputs' at anything, runs
    to the continuation holding the inputs' as they were and output `o`'s at inputs `4 o … 4 o + 3` stacked.  The
    index table's memref is never accessed. -/
theorem sound_kernel (c : Dev nD) (E : Set ℕ) (i : grid0.Coords) (arg1 : Memref sig .tc .smem S4096 .i32) (harg1 : arg1.IsWhole) (arg2 : Memref sig .tc .vmem S1x64x128 .f32) (harg2 : arg2.IsWhole) (arg3 : Memref sig .tc .vmem S1x64x128 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S1x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x64x128 .f32) (harg13 : arg13.IsWhole) (arg14 : Memref sig .tc .vmem S1x64x128 .f32) (harg14 : arg14.IsWhole) (arg15 : Memref sig .tc .vmem S1x64x128 .f32) (harg15 : arg15.IsWhole) (arg16 : Memref sig .tc .vmem S1x64x128 .f32) (harg16 : arg16.IsWhole) (arg17 : Memref sig .tc .vmem S1x64x128 .f32) (harg17 : arg17.IsWhole) (arg18 : Memref sig .tc .vmem S1x4x64x128 .f32) (harg18 : arg18.IsWhole) (arg19 : Memref sig .tc .vmem S1x4x64x128 .f32) (harg19 : arg19.IsWhole) (arg20 : Memref sig .tc .vmem S1x4x64x128 .f32) (harg20 : arg20.IsWhole) (arg21 : Memref sig .tc .vmem S1x4x64x128 .f32) (harg21 : arg21.IsWhole)
    (x0 x1 x2 x3 x4 x5 x6 x7 x8 x9 x10 x11 x12 x13 x14 x15 : Vec F S1x64x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15
            ∗ owns (c : Thread nD τ) arg18 fullShare (stack4 x0 x1 x2 x3) ∗ owns (c : Thread nD τ) arg19 fullShare (stack4 x4 x5 x6 x7) ∗ owns (c : Thread nD τ) arg20 fullShare (stack4 x8 x9 x10 x11) ∗ owns (c : Thread nD τ) arg21 fullShare (stack4 x12 x13 x14 x15)) -∗ K ⟨⟩))
      ⊢ wp frame (wpE (defs₀ (F := F)) Variants.none c none) E (cc0__gather_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__gather_kernel_eq_skeleton]; unfold cc0__gather_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro; exact (View.read_writes_eq_canon _ _ _ (cover4 _ _ _ _)).trans (out16_eq _ _ _ _)
  isplitl [H17]
  · iexists _; isplitr
    swap; · iexact H17
    ipureintro; exact (View.read_writes_eq_canon _ _ _ (cover4 _ _ _ _)).trans (out17_eq _ _ _ _)
  isplitl [H18]
  · iexists _; isplitr
    swap; · iexact H18
    ipureintro; exact (View.read_writes_eq_canon _ _ _ (cover4 _ _ _ _)).trans (out18_eq _ _ _ _)
  iexists _; isplitr
  swap; · iexact H19
  ipureintro; exact (View.read_writes_eq_canon _ _ _ (cover4 _ _ _ _)).trans (out19_eq _ _ _ _)

/-! ## The body obligation, at a generic point -/

/-- What the body is called with at point `t`: the invariant, what the core owes, and every window's current staging
    buffer at what it then holds. -/
def bodyPre (c : Dev nD) (t : Fin (cfg0 a).N) : sProp 𝕄 :=
  iprop((dat0 a V c).Φ t.castSucc ∗ (dat0 a V c).owesAt () t.castSucc
    ∗ (∃ d, owns (c : Thread nD τ) (ms0 a t) fullShare ((dat0 a V c).before 0 t d))
    ∗ (∃ d, owns (c : Thread nD τ) (ms1 a t) fullShare ((dat0 a V c).before 1 t d))
    ∗ (∃ d, owns (c : Thread nD τ) (ms2 a t) fullShare ((dat0 a V c).before 2 t d))
    ∗ (∃ d, owns (c : Thread nD τ) (ms3 a t) fullShare ((dat0 a V c).before 3 t d))
    ∗ (∃ d, owns (c : Thread nD τ) (ms4 a t) fullShare ((dat0 a V c).before 4 t d))
    ∗ (∃ d, owns (c : Thread nD τ) (ms5 a t) fullShare ((dat0 a V c).before 5 t d))
    ∗ (∃ d, owns (c : Thread nD τ) (ms6 a t) fullShare ((dat0 a V c).before 6 t d))
    ∗ (∃ d, owns (c : Thread nD τ) (ms7 a t) fullShare ((dat0 a V c).before 7 t d))
    ∗ (∃ d, owns (c : Thread nD τ) (ms8 a t) fullShare ((dat0 a V c).before 8 t d))
    ∗ (∃ d, owns (c : Thread nD τ) (ms9 a t) fullShare ((dat0 a V c).before 9 t d))
    ∗ (∃ d, owns (c : Thread nD τ) (ms10 a t) fullShare ((dat0 a V c).before 10 t d))
    ∗ (∃ d, owns (c : Thread nD τ) (ms11 a t) fullShare ((dat0 a V c).before 11 t d))
    ∗ (∃ d, owns (c : Thread nD τ) (ms12 a t) fullShare ((dat0 a V c).before 12 t d))
    ∗ (∃ d, owns (c : Thread nD τ) (ms13 a t) fullShare ((dat0 a V c).before 13 t d))
    ∗ (∃ d, owns (c : Thread nD τ) (ms14 a t) fullShare ((dat0 a V c).before 14 t d))
    ∗ (∃ d, owns (c : Thread nD τ) (ms15 a t) fullShare ((dat0 a V c).before 15 t d))
    ∗ (∃ d, owns (c : Thread nD τ) (ms16 a t) fullShare ((dat0 a V c).before 16 t d))
    ∗ (∃ d, owns (c : Thread nD τ) (ms17 a t) fullShare ((dat0 a V c).before 17 t d))
    ∗ (∃ d, owns (c : Thread nD τ) (ms18 a t) fullShare ((dat0 a V c).before 18 t d))
    ∗ (∃ d, owns (c : Thread nD τ) (ms19 a t) fullShare ((dat0 a V c).before 19 t d)))

/-- and what it returns. -/
def bodyPost (c : Dev nD) (t : Fin (cfg0 a).N) : sProp 𝕄 :=
  iprop((dat0 a V c).Φ t.succ ∗ (dat0 a V c).owesAt () t.succ
    ∗ owns (c : Thread nD τ) (ms0 a t) fullShare ((dat0 a V c).after 0 t)
    ∗ owns (c : Thread nD τ) (ms1 a t) fullShare ((dat0 a V c).after 1 t)
    ∗ owns (c : Thread nD τ) (ms2 a t) fullShare ((dat0 a V c).after 2 t)
    ∗ owns (c : Thread nD τ) (ms3 a t) fullShare ((dat0 a V c).after 3 t)
    ∗ owns (c : Thread nD τ) (ms4 a t) fullShare ((dat0 a V c).after 4 t)
    ∗ owns (c : Thread nD τ) (ms5 a t) fullShare ((dat0 a V c).after 5 t)
    ∗ owns (c : Thread nD τ) (ms6 a t) fullShare ((dat0 a V c).after 6 t)
    ∗ owns (c : Thread nD τ) (ms7 a t) fullShare ((dat0 a V c).after 7 t)
    ∗ owns (c : Thread nD τ) (ms8 a t) fullShare ((dat0 a V c).after 8 t)
    ∗ owns (c : Thread nD τ) (ms9 a t) fullShare ((dat0 a V c).after 9 t)
    ∗ owns (c : Thread nD τ) (ms10 a t) fullShare ((dat0 a V c).after 10 t)
    ∗ owns (c : Thread nD τ) (ms11 a t) fullShare ((dat0 a V c).after 11 t)
    ∗ owns (c : Thread nD τ) (ms12 a t) fullShare ((dat0 a V c).after 12 t)
    ∗ owns (c : Thread nD τ) (ms13 a t) fullShare ((dat0 a V c).after 13 t)
    ∗ owns (c : Thread nD τ) (ms14 a t) fullShare ((dat0 a V c).after 14 t)
    ∗ owns (c : Thread nD τ) (ms15 a t) fullShare ((dat0 a V c).after 15 t)
    ∗ owns (c : Thread nD τ) (ms16 a t) fullShare ((dat0 a V c).after 16 t)
    ∗ owns (c : Thread nD τ) (ms17 a t) fullShare ((dat0 a V c).after 17 t)
    ∗ owns (c : Thread nD τ) (ms18 a t) fullShare ((dat0 a V c).after 18 t)
    ∗ owns (c : Thread nD τ) (ms19 a t) fullShare ((dat0 a V c).after 19 t))

set_option maxHeartbeats 1000000 in
/-- The body at any point: the inputs' memrefs hold their blocks, so the body's triple applies at those blocks; the
    invariant and what the core owes pass through untouched. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before0, before1, before2, before3, before4, before5, before6, before7, before8, before9, before10, before11, before12, before13, before14, before15]
  rw [show (dat0 a V c).Φ t.succ = (dat0 a V c).Φ t.castSucc from rfl,
    show (dat0 a V c).owesAt () t.succ = (dat0 a V c).owesAt () t.castSucc from rfl,
    after0, after1, after2, after3, after4, after5, after6, after7, after8, after9, after10, after11, after12, after13, after14, after15, after16, after17, after18, after19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ _ _ (iblk a V c 0 t) (iblk a V c 1 t) (iblk a V c 2 t) (iblk a V c 3 t) (iblk a V c 4 t) (iblk a V c 5 t) (iblk a V c 6 t) (iblk a V c 7 t) (iblk a V c 8 t) (iblk a V c 9 t) (iblk a V c 10 t) (iblk a V c 11 t) (iblk a V c 12 t) (iblk a V c 13 t) (iblk a V c 14 t) (iblk a V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (a : (pcfg0 (F := F)).Adm) (V : (c : Dev nD) → (b : Ref sig .tc) → Buf (Elt F) ((c : Thread nD τ).loc b)) (c : Dev nD) :
    BodyObligation (dat0 (F := F) a V c) (defs₀ (F := F)) Variants.none () Set.univ := fun t => by
  rw [bigSep_W0, bigSep_W0]
  exact sound_body a V c t

end Cert.KernelIdeal.Hand

end
-- ==== Proof.KTail.lean ====
/-
  The host operations that follow the gather call, read as pure functions of what the device holds
  when they start.  Four of them re-index the call's four results into the shapes the program returns.
  The rest compute, from the four weight tables alone, the mean over the tables of the mean squared
  entry of W·Wᵀ − I (each table a stack of 2048 matrices with 32 rows or columns to pair): the
  identity of order 32 is built from two index grids compared entrywise, each table is contracted
  with itself, the identity is subtracted, the difference squared, all 2048·32·32 entries summed and
  divided by 2^21, the four quotients added to zero in order and the sum divided by four.
  No operation of this stretch writes an argument of the program.
-/
import proofs.«401394_j300647710818_2_alg».proof.Proof.Gen.KernelIdeal.Launch
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The orthogonality loss of the four weight tables: for each table the sum over all entries of
    (W·Wᵀ − I)², divided by 2^21; the four added up from zero, the total divided by 4. -/
def lossOf (a1 a2 a3 : FVec F S2048x256x32 .f32) (a4 : FVec F S2048x32x256 .f32) : FVec F S_ .f32 :=
  Host.divf (addf (addf (addf (addf (constant (F := F) S_ .f32 0x00000000#32) (Host.divf (Host.reduceAdd (mulf (subf (Host.dotGeneral dot_S2048x256x32_S2048x256x32_S2048x32x32_1_1_2_2_0_0 none a1 a1) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a1 a1) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x256x32_S2048x256x32_S2048x32x32_1_1_2_2_0_0 none a2 a2) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a2 a2) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x256x32_S2048x256x32_S2048x32x32_1_1_2_2_0_0 none a3 a3) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x256x32_S2048x256x32_S2048x32x32_1_1_2_2_0_0 none a3 a3) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (Host.divf (Host.reduceAdd (mulf (subf (Host.dotGeneral dot_S2048x32x256_S2048x32x256_S2048x32x32_2_2_1_1_0_0 none a4 a4) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1)))))) (subf (Host.dotGeneral dot_S2048x32x256_S2048x32x256_S2048x32x32_2_2_1_1_0_0 none a4 a4) (broadcastInDim S2048x32x32 ![0, 1, 2] bcast_S1x32x32_S2048x32x32_0_1_2 (broadcastInDim S1x32x32 ![1, 2] bcast_S32x32_S1x32x32_1_2 (uitofp .f32 (cmpi .eq (addi (iotaInDim S32x32 32 0) (broadcastInDim S32x32 ![] bcast_S_S32x32 (constantI S_ 32 0#32))) (iotaInDim S32x32 32 1))))))) (constant (F := F) S_ .f32 0x00000000#32) reducesTo_S2048x32x32_S_d0_1_2 h_S_) (constant (F := F) S_ .f32 0x4A000000#32))) (constant (F := F) S_ .f32 0x40800000#32)

/-- After the stretch, `main_v7` is the call's result `main_v6_0` re-indexed. -/
theorem tail_v7 (W : Valuation τ sig (Elt F)) :
    (StableHlo.after (hostOps1 (F := F)) W (Proc.devRef .tc main_v7) : S2x512x4x256x32.Idx → Elt F .f32)
      = shapeCast S2x512x4x256x32 (W (Proc.devRef .tc main_v6_0)) shapeCasts_S1024x4x64x128_S2x512x4x256x32 := by
  after_results_simp
  rfl

/-- After the stretch, `main_v8` is the call's result `main_v6_1` re-indexed. -/
theorem tail_v8 (W : Valuation τ sig (Elt F)) :
    (StableHlo.after (hostOps1 (F := F)) W (Proc.devRef .tc main_v8) : S2x512x4x256x32.Idx → Elt F .f32)
      = shapeCast S2x512x4x256x32 (W (Proc.devRef .tc main_v6_1)) shapeCasts_S1024x4x64x128_S2x512x4x256x32 := by
  after_results_simp
  rfl

/-- After the stretch, `main_v9` is the call's result `main_v6_2` re-indexed. -/
theorem tail_v9 (W : Valuation τ sig (Elt F)) :
    (StableHlo.after (hostOps1 (F := F)) W (Proc.devRef .tc main_v9) : S2x512x4x256x32.Idx → Elt F .f32)
      = shapeCast S2x512x4x256x32 (W (Proc.devRef .tc main_v6_2)) shapeCasts_S1024x4x64x128_S2x512x4x256x32 := by
  after_results_simp
  rfl

/-- After the stretch, `main_v10` is the call's result `main_v6_3` re-indexed. -/
theorem tail_v10 (W : Valuation τ sig (Elt F)) :
    (StableHlo.after (hostOps1 (F := F)) W (Proc.devRef .tc main_v10) : S2x512x4x32x256.Idx → Elt F .f32)
      = shapeCast S2x512x4x32x256 (W (Proc.devRef .tc main_v6_3)) shapeCasts_S1024x4x64x128_S2x512x4x32x256 := by
  after_results_simp
  rfl

/-- After the stretch, `main_v46` is the loss of the four weight tables as the stretch found them. -/
theorem tail_v46 (W : Valuation τ sig (Elt F)) :
    (StableHlo.after (hostOps1 (F := F)) W (Proc.devRef .tc main_v46) : S_.Idx → Elt F .f32)
      = lossOf (W (Proc.devRef .tc main_arg1)) (W (Proc.devRef .tc main_arg2)) (W (Proc.devRef .tc main_arg3)) (W (Proc.devRef .tc main_arg4)) := by
  after_results_simp
  unfold lossOf
  rfl

/-- No operation of the stretch writes `main_arg0`. -/
theorem tail_arg0 (W : Valuation τ sig (Elt F)) :
    StableHlo.after (hostOps1 (F := F)) W (Proc.devRef .tc main_arg0) = W (Proc.devRef .tc main_arg0) := by
  after_results_simp

/-- No operation of the stretch writes `main_arg1`. -/
theorem tail_arg1 (W : Valuation τ sig (Elt F)) :
    StableHlo.after (hostOps1 (F := F)) W (Proc.devRef .tc main_arg1) = W (Proc.devRef .tc main_arg1) := by
  after_results_simp

/-- No operation of the stretch writes `main_arg2`. -/
theorem tail_arg2 (W : Valuation τ sig (Elt F)) :
    StableHlo.after (hostOps1 (F := F)) W (Proc.devRef .tc main_arg2) = W (Proc.devRef .tc main_arg2) := by
  after_results_simp

/-- No operation of the stretch writes `main_arg3`. -/
theorem tail_arg3 (W : Valuation τ sig (Elt F)) :
    StableHlo.after (hostOps1 (F := F)) W (Proc.devRef .tc main_arg3) = W (Proc.devRef .tc main_arg3) := by
  after_results_simp

/-- No operation of the stretch writes `main_arg4`. -/
theorem tail_arg4 (W : Valuation τ sig (Elt F)) :
    StableHlo.after (hostOps1 (F := F)) W (Proc.devRef .tc main_arg4) = W (Proc.devRef .tc main_arg4) := by
  after_results_simp

end Cert.KernelIdeal.Hand

end
-- ==== Proof.KFrame.lean ====
/-
  The frame of the program from its run: no host operation and no window of the call writes an argument, so each
  argument's buffer, read in the final contents, walks back through the fold to what the launch memory held.
-/
import proofs.«401394_j300647710818_2_alg».proof.Proof.Gen.KernelIdeal.Launch
import proofs.«401394_j300647710818_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.KLaunch
import proofs.«401394_j300647710818_2_alg».proof.Proof.KBody
import proofs.«401394_j300647710818_2_alg».proof.Proof.KTail
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with the body obligation supplied. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  run_main m ρ (fun c => body_obligation (adm m ρ) (V3 m ρ) c)

/-- An argument's buffer in the final contents is the launch memory's. -/
theorem W5_arg0 (c : Dev nD) : W5 m ρ c (Proc.devRef .tc main_arg0) = m ((c : Thread nD τ).loc main_arg0) :=
  (tail_arg0 (W4 m ρ c)).trans ((W4_of_ne m ρ c main_arg0 (by decide)).trans (V3_main_arg0 m ρ c))
theorem W5_arg1 (c : Dev nD) : W5 m ρ c (Proc.devRef .tc main_arg1) = m ((c : Thread nD τ).loc main_arg1) :=
  (tail_arg1 (W4 m ρ c)).trans ((W4_of_ne m ρ c main_arg1 (by decide)).trans (V3_main_arg1 m ρ c))
theorem W5_arg2 (c : Dev nD) : W5 m ρ c (Proc.devRef .tc main_arg2) = m ((c : Thread nD τ).loc main_arg2) :=
  (tail_arg2 (W4 m ρ c)).trans ((W4_of_ne m ρ c main_arg2 (by decide)).trans (V3_main_arg2 m ρ c))
theorem W5_arg3 (c : Dev nD) : W5 m ρ c (Proc.devRef .tc main_arg3) = m ((c : Thread nD τ).loc main_arg3) :=
  (tail_arg3 (W4 m ρ c)).trans ((W4_of_ne m ρ c main_arg3 (by decide)).trans (V3_main_arg3 m ρ c))
theorem W5_arg4 (c : Dev nD) : W5 m ρ c (Proc.devRef .tc main_arg4) = m ((c : Thread nD τ).loc main_arg4) :=
  (tail_arg4 (W4 m ρ c)).trans ((W4_of_ne m ρ c main_arg4 (by decide)).trans (V3_main_arg4 m ρ c))

/-- THE FRAME: from any memory with zero counters every weakly fair execution of @main terminates, nothing faulting,
    with the five argument arrays as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c)⟩) (run_all m ρ)

end Cert.KernelIdeal.Hand

end
-- ==== Proof.KValue.lean ====
/-
  What the call's write-backs leave in each array, as one whole-array function.  The call walks a one-axis grid of
  1024 points.  At point `t` input window `4 o + k` stages row `tb[4 t + k]` of table `o` (its leading block index is
  that word of the prefetched index table `tb`, its other block indices are 0, and a block's coordinate in its array
  is always block index × block size + the coordinate inside the block), the body stacks the four rows of table `o`
  along the second axis of output `o`'s block, and the block is written back at row `t` of the output (the output's
  leading block index is `t`, so it changes at every point and every point writes back).  The side condition on the
  table's contents puts every staged block inside its table, so each word read is below 2048 and the cap at the
  last row in `gatherRows` is the identity on it.  Row `i` of an output is covered by point `i`, hence each output
  array ends holding `gatherRows` of its table; an input window's array is never written.
-/
import proofs.«401394_j300647710818_2_alg».proof.Proof.KDefs
import proofs.«401394_j300647710818_2_alg».proof.Proof.KSpec
import Idealize.ShloMosaic.Lib.Pipeline.Value
import Idealize.ShloMosaic.Lib.Pipeline.Cells

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (a : (pcfg0 (F := F)).Adm)
variable (V : (c : Dev nD) → (b : Ref sig .tc) → Buf (Elt F) ((c : Thread nD τ).loc b))

/-! ## The grid and the table words -/

/-- On the one-axis grid a point's coordinate is the point's number. -/
theorem coord0 (t : Fin grid0.N) : ((grid0.coords t) 0).val = t.val := by
  have hN : grid0.N = 1024 := N_0
  have ht := t.isLt
  have hs : grid0.stride 0 = 1 := by decide
  show t.val / grid0.stride 0 % 1024 = t.val
  rw [hs, Nat.div_one]; omega

/-- The grid has 1024 points. -/
theorem point_lt (t : Fin (cfg0 a).N) : t.val < 1024 := by
  have h := t.isLt
  have hN : (cfg0 a).N = 1024 := N_0
  omega

/-- The table entry an index map loads at grid coordinates `i` for slot `k` is entry `4 i + k`. -/
theorem word_at (pf : pre0.Contents (Elt F)) (i : grid0.Coords) (k : Fin 4) (n : Nat) (hn : n < 4096)
    (e : 4 * (i 0).val + k.val = n) :
    pf.at 0 (Rect.unit (s := S4096) (k0_off1 i (BitVec.ofNat 32 k.val)) S1.size (k0_off1_inb i k)) numel1_S1
      = (pf 0 : IVec S4096 32) (ValueIdx.ix1 (⟨n, hn⟩ : Fin 4096)) := by
  show pf 0 _ = pf 0 _
  refine congrArg (pf 0) ?_
  funext d
  apply Fin.ext
  match d with
  | ⟨0, _⟩ =>
    show k0_off1 i (BitVec.ofNat 32 k.val) 0 + 1 * 0 = n
    rw [k0_off1_eq i k]
    show 4 * (i 0).val + k.val + 1 * 0 = n
    omega

/-- Two spellings of one table position name one word. -/
theorem word_congr (tb : IVec S4096 32) (n n' : Nat) (h : n < 4096) (h' : n' < 4096) (e : n = n') :
    tb (ValueIdx.ix1 (⟨n, h⟩ : Fin 4096)) = tb (ValueIdx.ix1 (⟨n', h'⟩ : Fin 4096)) := by
  subst e; rfl

/-! ## Four stacked rows are the gathered rows -/

/-- If row `k` of the stack is row `tb[4 p + k]` of `W` (each such word naming a row of `W`), the stack is block `p`
    of `gatherRows W tb`: its entry at `j` is the gathered array's entry at `(p, j 1, j 2, j 3)`; the cap at the
    last row inside `gatherRows` leaves a word below 2048 as it is. -/
theorem stack4_rows (W : S2048x64x128.Idx → Elt F .f32) (tb : IVec S4096 32) (p : Fin 1024)
    (hb0 : (tb (ValueIdx.ix1 (⟨4 * p.val + 0, by omega⟩ : Fin 4096))).toNat < 2048)
    (hb1 : (tb (ValueIdx.ix1 (⟨4 * p.val + 1, by omega⟩ : Fin 4096))).toNat < 2048)
    (hb2 : (tb (ValueIdx.ix1 (⟨4 * p.val + 2, by omega⟩ : Fin 4096))).toNat < 2048)
    (hb3 : (tb (ValueIdx.ix1 (⟨4 * p.val + 3, by omega⟩ : Fin 4096))).toNat < 2048)
    (x0 x1 x2 x3 : Vec F S1x64x128 .f32)
    (h0 : ∀ y : S1x64x128.Idx, x0 y = W (ValueIdx.ix3 (⟨_, hb0⟩ : Fin 2048) (y 1) (y 2)))
    (h1 : ∀ y : S1x64x128.Idx, x1 y = W (ValueIdx.ix3 (⟨_, hb1⟩ : Fin 2048) (y 1) (y 2)))
    (h2 : ∀ y : S1x64x128.Idx, x2 y = W (ValueIdx.ix3 (⟨_, hb2⟩ : Fin 2048) (y 1) (y 2)))
    (h3 : ∀ y : S1x64x128.Idx, x3 y = W (ValueIdx.ix3 (⟨_, hb3⟩ : Fin 2048) (y 1) (y 2)))
    (j : S1x4x64x128.Idx) (i : S1024x4x64x128.Idx)
    (e0 : (i 0).val = p.val) (e1 : (i 1).val = (j 1).val) (e2 : (i 2).val = (j 2).val) (e3 : (i 3).val = (j 3).val) :
    stack4 x0 x1 x2 x3 j = gatherRows W tb i := by
  have hj1 : (j 1).val < 4 := (j 1).isLt
  have hp : p.val < 1024 := p.isLt
  unfold stack4 gatherRows
  dsimp only
  have hc : (j 1).val = 0 ∨ (j 1).val = 1 ∨ (j 1).val = 2 ∨ (j 1).val = 3 := by omega
  rcases hc with hc | hc | hc | hc
  · rw [hc, h0]
    refine congrArg W ?_
    funext d
    apply Fin.ext
    match d with
    | ⟨0, _⟩ =>
      show (tb (ValueIdx.ix1 (⟨4 * p.val + 0, _⟩ : Fin 4096))).toNat = min (tb (ValueIdx.ix1 (⟨4 * (i 0).val + (i 1).val, _⟩ : Fin 4096))).toNat 2047
      rw [word_congr tb (4 * (i 0).val + (i 1).val) (4 * p.val + 0) _ (by omega) (by omega)]
      omega
    | ⟨1, _⟩ => exact e2.symm
    | ⟨2, _⟩ => exact e3.symm
  · rw [hc, h1]
    refine congrArg W ?_
    funext d
    apply Fin.ext
    match d with
    | ⟨0, _⟩ =>
      show (tb (ValueIdx.ix1 (⟨4 * p.val + 1, _⟩ : Fin 4096))).toNat = min (tb (ValueIdx.ix1 (⟨4 * (i 0).val + (i 1).val, _⟩ : Fin 4096))).toNat 2047
      rw [word_congr tb (4 * (i 0).val + (i 1).val) (4 * p.val + 1) _ (by omega) (by omega)]
      omega
    | ⟨1, _⟩ => exact e2.symm
    | ⟨2, _⟩ => exact e3.symm
  · rw [hc, h2]
    refine congrArg W ?_
    funext d
    apply Fin.ext
    match d with
    | ⟨0, _⟩ =>
      show (tb (ValueIdx.ix1 (⟨4 * p.val + 2, _⟩ : Fin 4096))).toNat = min (tb (ValueIdx.ix1 (⟨4 * (i 0).val + (i 1).val, _⟩ : Fin 4096))).toNat 2047
      rw [word_congr tb (4 * (i 0).val + (i 1).val) (4 * p.val + 2) _ (by omega) (by omega)]
      omega
    | ⟨1, _⟩ => exact e2.symm
    | ⟨2, _⟩ => exact e3.symm
  · rw [hc, h3]
    refine congrArg W ?_
    funext d
    apply Fin.ext
    match d with
    | ⟨0, _⟩ =>
      show (tb (ValueIdx.ix1 (⟨4 * p.val + 3, _⟩ : Fin 4096))).toNat = min (tb (ValueIdx.ix1 (⟨4 * (i 0).val + (i 1).val, _⟩ : Fin 4096))).toNat 2047
      rw [word_congr tb (4 * (i 0).val + (i 1).val) (4 * p.val + 3) _ (by omega) (by omega)]
      omega
    | ⟨1, _⟩ => exact e2.symm
    | ⟨2, _⟩ => exact e3.symm

/-! ## The input windows -/

/-- Input window 0's leading block index at point `t` is the table's entry `4 t + 0`. -/
theorem index_0 (t : Fin (cfg0 a).N) :
    ((cfg0 a).win 0).index t (0 : Fin 3)
      = ((a.1 0 : IVec S4096 32) (ValueIdx.ix1 (⟨4 * t.val + 0, by have := point_lt a t; omega⟩ : Fin 4096))).toNat := by
  show (a.1.at 0 (Rect.unit (s := S4096) (k0_off1 (grid0.coords t) (BitVec.ofNat 32 (0 : Fin 4).val)) S1.size
    (k0_off1_inb (grid0.coords t) 0)) numel1_S1).toNat = _
  rw [word_at a.1 (grid0.coords t) 0 (4 * t.val + 0) _ (by rw [coord0]; rfl)]

/-- Input window 1's leading block index at point `t` is the table's entry `4 t + 1`. -/
theorem index_1 (t : Fin (cfg0 a).N) :
    ((cfg0 a).win 1).index t (0 : Fin 3)
      = ((a.1 0 : IVec S4096 32) (ValueIdx.ix1 (⟨4 * t.val + 1, by have := point_lt a t; omega⟩ : Fin 4096))).toNat := by
  show (a.1.at 0 (Rect.unit (s := S4096) (k0_off1 (grid0.coords t) (BitVec.ofNat 32 (1 : Fin 4).val)) S1.size
    (k0_off1_inb (grid0.coords t) 1)) numel1_S1).toNat = _
  rw [word_at a.1 (grid0.coords t) 1 (4 * t.val + 1) _ (by rw [coord0]; rfl)]

/-- Input window 2's leading block index at point `t` is the table's entry `4 t + 2`. -/
theorem index_2 (t : Fin (cfg0 a).N) :
    ((cfg0 a).win 2).index t (0 : Fin 3)
      = ((a.1 0 : IVec S4096 32) (ValueIdx.ix1 (⟨4 * t.val + 2, by have := point_lt a t; omega⟩ : Fin 4096))).toNat := by
  show (a.1.at 0 (Rect.unit (s := S4096) (k0_off1 (grid0.coords t) (BitVec.ofNat 32 (2 : Fin 4).val)) S1.size
    (k0_off1_inb (grid0.coords t) 2)) numel1_S1).toNat = _
  rw [word_at a.1 (grid0.coords t) 2 (4 * t.val + 2) _ (by rw [coord0]; rfl)]

/-- Input window 3's leading block index at point `t` is the table's entry `4 t + 3`. -/
theorem index_3 (t : Fin (cfg0 a).N) :
    ((cfg0 a).win 3).index t (0 : Fin 3)
      = ((a.1 0 : IVec S4096 32) (ValueIdx.ix1 (⟨4 * t.val + 3, by have := point_lt a t; omega⟩ : Fin 4096))).toNat := by
  show (a.1.at 0 (Rect.unit (s := S4096) (k0_off1 (grid0.coords t) (BitVec.ofNat 32 (3 : Fin 4).val)) S1.size
    (k0_off1_inb (grid0.coords t) 3)) numel1_S1).toNat = _
  rw [word_at a.1 (grid0.coords t) 3 (4 * t.val + 3) _ (by rw [coord0]; rfl)]

/-- The side condition puts window 0's block inside its table: the word `tb[4 t + 0]` names one of the 2048 rows. -/
theorem row_lt_0 (t : Fin (cfg0 a).N) :
    ((a.1 0 : IVec S4096 32) (ValueIdx.ix1 (⟨4 * t.val + 0, by have := point_lt a t; omega⟩ : Fin 4096))).toNat < 2048 := by
  have h : (((cfg0 a).win 0).index t (0 : Fin 3) + 1) * 1 ≤ 2048 := hinb0 a.1 a.2 0 (grid0.coords t) (0 : Fin 3)
  rw [index_0 a t] at h
  omega

/-- The side condition puts window 1's block inside its table: the word `tb[4 t + 1]` names one of the 2048 rows. -/
theorem row_lt_1 (t : Fin (cfg0 a).N) :
    ((a.1 0 : IVec S4096 32) (ValueIdx.ix1 (⟨4 * t.val + 1, by have := point_lt a t; omega⟩ : Fin 4096))).toNat < 2048 := by
  have h : (((cfg0 a).win 1).index t (0 : Fin 3) + 1) * 1 ≤ 2048 := hinb0 a.1 a.2 1 (grid0.coords t) (0 : Fin 3)
  rw [index_1 a t] at h
  omega

/-- The side condition puts window 2's block inside its table: the word `tb[4 t + 2]` names one of the 2048 rows. -/
theorem row_lt_2 (t : Fin (cfg0 a).N) :
    ((a.1 0 : IVec S4096 32) (ValueIdx.ix1 (⟨4 * t.val + 2, by have := point_lt a t; omega⟩ : Fin 4096))).toNat < 2048 := by
  have h : (((cfg0 a).win 2).index t (0 : Fin 3) + 1) * 1 ≤ 2048 := hinb0 a.1 a.2 2 (grid0.coords t) (0 : Fin 3)
  rw [index_2 a t] at h
  omega

/-- The side condition puts window 3's block inside its table: the word `tb[4 t + 3]` names one of the 2048 rows. -/
theorem row_lt_3 (t : Fin (cfg0 a).N) :
    ((a.1 0 : IVec S4096 32) (ValueIdx.ix1 (⟨4 * t.val + 3, by have := point_lt a t; omega⟩ : Fin 4096))).toNat < 2048 := by
  have h : (((cfg0 a).win 3).index t (0 : Fin 3) + 1) * 1 ≤ 2048 := hinb0 a.1 a.2 3 (grid0.coords t) (0 : Fin 3)
  rw [index_3 a t] at h
  omega

/-- Input window 4's leading block index at point `t` is the table's entry `4 t + 0`. -/
theorem index_4 (t : Fin (cfg0 a).N) :
    ((cfg0 a).win 4).index t (0 : Fin 3)
      = ((a.1 0 : IVec S4096 32) (ValueIdx.ix1 (⟨4 * t.val + 0, by have := point_lt a t; omega⟩ : Fin 4096))).toNat := by
  show (a.1.at 0 (Rect.unit (s := S4096) (k0_off1 (grid0.coords t) (BitVec.ofNat 32 (0 : Fin 4).val)) S1.size
    (k0_off1_inb (grid0.coords t) 0)) numel1_S1).toNat = _
  rw [word_at a.1 (grid0.coords t) 0 (4 * t.val + 0) _ (by rw [coord0]; rfl)]

/-- Input window 5's leading block index at point `t` is the table's entry `4 t + 1`. -/
theorem index_5 (t : Fin (cfg0 a).N) :
    ((cfg0 a).win 5).index t (0 : Fin 3)
      = ((a.1 0 : IVec S4096 32) (ValueIdx.ix1 (⟨4 * t.val + 1, by have := point_lt a t; omega⟩ : Fin 4096))).toNat := by
  show (a.1.at 0 (Rect.unit (s := S4096) (k0_off1 (grid0.coords t) (BitVec.ofNat 32 (1 : Fin 4).val)) S1.size
    (k0_off1_inb (grid0.coords t) 1)) numel1_S1).toNat = _
  rw [word_at a.1 (grid0.coords t) 1 (4 * t.val + 1) _ (by rw [coord0]; rfl)]

/-- Input window 6's leading block index at point `t` is the table's entry `4 t + 2`. -/
theorem index_6 (t : Fin (cfg0 a).N) :
    ((cfg0 a).win 6).index t (0 : Fin 3)
      = ((a.1 0 : IVec S4096 32) (ValueIdx.ix1 (⟨4 * t.val + 2, by have := point_lt a t; omega⟩ : Fin 4096))).toNat := by
  show (a.1.at 0 (Rect.unit (s := S4096) (k0_off1 (grid0.coords t) (BitVec.ofNat 32 (2 : Fin 4).val)) S1.size
    (k0_off1_inb (grid0.coords t) 2)) numel1_S1).toNat = _
  rw [word_at a.1 (grid0.coords t) 2 (4 * t.val + 2) _ (by rw [coord0]; rfl)]

/-- Input window 7's leading block index at point `t` is the table's entry `4 t + 3`. -/
theorem index_7 (t : Fin (cfg0 a).N) :
    ((cfg0 a).win 7).index t (0 : Fin 3)
      = ((a.1 0 : IVec S4096 32) (ValueIdx.ix1 (⟨4 * t.val + 3, by have := point_lt a t; omega⟩ : Fin 4096))).toNat := by
  show (a.1.at 0 (Rect.unit (s := S4096) (k0_off1 (grid0.coords t) (BitVec.ofNat 32 (3 : Fin 4).val)) S1.size
    (k0_off1_inb (grid0.coords t) 3)) numel1_S1).toNat = _
  rw [word_at a.1 (grid0.coords t) 3 (4 * t.val + 3) _ (by rw [coord0]; rfl)]

/-- Input window 8's leading block index at point `t` is the table's entry `4 t + 0`. -/
theorem index_8 (t : Fin (cfg0 a).N) :
    ((cfg0 a).win 8).index t (0 : Fin 3)
      = ((a.1 0 : IVec S4096 32) (ValueIdx.ix1 (⟨4 * t.val + 0, by have := point_lt a t; omega⟩ : Fin 4096))).toNat := by
  show (a.1.at 0 (Rect.unit (s := S4096) (k0_off1 (grid0.coords t) (BitVec.ofNat 32 (0 : Fin 4).val)) S1.size
    (k0_off1_inb (grid0.coords t) 0)) numel1_S1).toNat = _
  rw [word_at a.1 (grid0.coords t) 0 (4 * t.val + 0) _ (by rw [coord0]; rfl)]

/-- Input window 9's leading block index at point `t` is the table's entry `4 t + 1`. -/
theorem index_9 (t : Fin (cfg0 a).N) :
    ((cfg0 a).win 9).index t (0 : Fin 3)
      = ((a.1 0 : IVec S4096 32) (ValueIdx.ix1 (⟨4 * t.val + 1, by have := point_lt a t; omega⟩ : Fin 4096))).toNat := by
  show (a.1.at 0 (Rect.unit (s := S4096) (k0_off1 (grid0.coords t) (BitVec.ofNat 32 (1 : Fin 4).val)) S1.size
    (k0_off1_inb (grid0.coords t) 1)) numel1_S1).toNat = _
  rw [word_at a.1 (grid0.coords t) 1 (4 * t.val + 1) _ (by rw [coord0]; rfl)]

/-- Input window 10's leading block index at point `t` is the table's entry `4 t + 2`. -/
theorem index_10 (t : Fin (cfg0 a).N) :
    ((cfg0 a).win 10).index t (0 : Fin 3)
      = ((a.1 0 : IVec S4096 32) (ValueIdx.ix1 (⟨4 * t.val + 2, by have := point_lt a t; omega⟩ : Fin 4096))).toNat := by
  show (a.1.at 0 (Rect.unit (s := S4096) (k0_off1 (grid0.coords t) (BitVec.ofNat 32 (2 : Fin 4).val)) S1.size
    (k0_off1_inb (grid0.coords t) 2)) numel1_S1).toNat = _
  rw [word_at a.1 (grid0.coords t) 2 (4 * t.val + 2) _ (by rw [coord0]; rfl)]

/-- Input window 11's leading block index at point `t` is the table's entry `4 t + 3`. -/
theorem index_11 (t : Fin (cfg0 a).N) :
    ((cfg0 a).win 11).index t (0 : Fin 3)
      = ((a.1 0 : IVec S4096 32) (ValueIdx.ix1 (⟨4 * t.val + 3, by have := point_lt a t; omega⟩ : Fin 4096))).toNat := by
  show (a.1.at 0 (Rect.unit (s := S4096) (k0_off1 (grid0.coords t) (BitVec.ofNat 32 (3 : Fin 4).val)) S1.size
    (k0_off1_inb (grid0.coords t) 3)) numel1_S1).toNat = _
  rw [word_at a.1 (grid0.coords t) 3 (4 * t.val + 3) _ (by rw [coord0]; rfl)]

/-- Input window 12's leading block index at point `t` is the table's entry `4 t + 0`. -/
theorem index_12 (t : Fin (cfg0 a).N) :
    ((cfg0 a).win 12).index t (0 : Fin 3)
      = ((a.1 0 : IVec S4096 32) (ValueIdx.ix1 (⟨4 * t.val + 0, by have := point_lt a t; omega⟩ : Fin 4096))).toNat := by
  show (a.1.at 0 (Rect.unit (s := S4096) (k0_off1 (grid0.coords t) (BitVec.ofNat 32 (0 : Fin 4).val)) S1.size
    (k0_off1_inb (grid0.coords t) 0)) numel1_S1).toNat = _
  rw [word_at a.1 (grid0.coords t) 0 (4 * t.val + 0) _ (by rw [coord0]; rfl)]

/-- Input window 13's leading block index at point `t` is the table's entry `4 t + 1`. -/
theorem index_13 (t : Fin (cfg0 a).N) :
    ((cfg0 a).win 13).index t (0 : Fin 3)
      = ((a.1 0 : IVec S4096 32) (ValueIdx.ix1 (⟨4 * t.val + 1, by have := point_lt a t; omega⟩ : Fin 4096))).toNat := by
  show (a.1.at 0 (Rect.unit (s := S4096) (k0_off1 (grid0.coords t) (BitVec.ofNat 32 (1 : Fin 4).val)) S1.size
    (k0_off1_inb (grid0.coords t) 1)) numel1_S1).toNat = _
  rw [word_at a.1 (grid0.coords t) 1 (4 * t.val + 1) _ (by rw [coord0]; rfl)]

/-- Input window 14's leading block index at point `t` is the table's entry `4 t + 2`. -/
theorem index_14 (t : Fin (cfg0 a).N) :
    ((cfg0 a).win 14).index t (0 : Fin 3)
      = ((a.1 0 : IVec S4096 32) (ValueIdx.ix1 (⟨4 * t.val + 2, by have := point_lt a t; omega⟩ : Fin 4096))).toNat := by
  show (a.1.at 0 (Rect.unit (s := S4096) (k0_off1 (grid0.coords t) (BitVec.ofNat 32 (2 : Fin 4).val)) S1.size
    (k0_off1_inb (grid0.coords t) 2)) numel1_S1).toNat = _
  rw [word_at a.1 (grid0.coords t) 2 (4 * t.val + 2) _ (by rw [coord0]; rfl)]

/-- Input window 15's leading block index at point `t` is the table's entry `4 t + 3`. -/
theorem index_15 (t : Fin (cfg0 a).N) :
    ((cfg0 a).win 15).index t (0 : Fin 3)
      = ((a.1 0 : IVec S4096 32) (ValueIdx.ix1 (⟨4 * t.val + 3, by have := point_lt a t; omega⟩ : Fin 4096))).toNat := by
  show (a.1.at 0 (Rect.unit (s := S4096) (k0_off1 (grid0.coords t) (BitVec.ofNat 32 (3 : Fin 4).val)) S1.size
    (k0_off1_inb (grid0.coords t) 3)) numel1_S1).toNat = _
  rw [word_at a.1 (grid0.coords t) 3 (4 * t.val + 3) _ (by rw [coord0]; rfl)]

/-- Input window 0's block at point `t` is row `tb[4 t + 0]` of its table. -/
theorem iblk_0 (c : Dev nD) (t : Fin (cfg0 a).N) (y : S1x64x128.Idx) :
    (iblk a V c 0 t : Vec F S1x64x128 .f32) y
      = V c main_v2 (ValueIdx.ix3 (⟨_, row_lt_0 a t⟩ : Fin 2048) (y 1) (y 2)) := by
  have h0 := index_0 a t
  have h1 : ((cfg0 a).win 0).index t (1 : Fin 3) = 0 := rfl
  have h2 : ((cfg0 a).win 0).index t (2 : Fin 3) = 0 := rfl
  show V c main_v2 ((((cfg0 a).win 0).blk t).view.emb y) = V c main_v2 _
  refine congrArg (V c main_v2) ?_
  funext d
  apply Fin.ext
  match d with
  | ⟨0, _⟩ =>
    show ((cfg0 a).win 0).index t (0 : Fin 3) * 1 + 1 * (y 0).val
      = ((a.1 0 : IVec S4096 32) (ValueIdx.ix1 (⟨4 * t.val + 0, _⟩ : Fin 4096))).toNat
    have hy : (y 0).val < 1 := (y 0).isLt
    omega
  | ⟨1, _⟩ =>
    show ((cfg0 a).win 0).index t (1 : Fin 3) * 64 + 1 * (y 1).val = (y 1).val
    omega
  | ⟨2, _⟩ =>
    show ((cfg0 a).win 0).index t (2 : Fin 3) * 128 + 1 * (y 2).val = (y 2).val
    omega

/-- Input window 1's block at point `t` is row `tb[4 t + 1]` of its table. -/
theorem iblk_1 (c : Dev nD) (t : Fin (cfg0 a).N) (y : S1x64x128.Idx) :
    (iblk a V c 1 t : Vec F S1x64x128 .f32) y
      = V c main_v2 (ValueIdx.ix3 (⟨_, row_lt_1 a t⟩ : Fin 2048) (y 1) (y 2)) := by
  have h0 := index_1 a t
  have h1 : ((cfg0 a).win 1).index t (1 : Fin 3) = 0 := rfl
  have h2 : ((cfg0 a).win 1).index t (2 : Fin 3) = 0 := rfl
  show V c main_v2 ((((cfg0 a).win 1).blk t).view.emb y) = V c main_v2 _
  refine congrArg (V c main_v2) ?_
  funext d
  apply Fin.ext
  match d with
  | ⟨0, _⟩ =>
    show ((cfg0 a).win 1).index t (0 : Fin 3) * 1 + 1 * (y 0).val
      = ((a.1 0 : IVec S4096 32) (ValueIdx.ix1 (⟨4 * t.val + 1, _⟩ : Fin 4096))).toNat
    have hy : (y 0).val < 1 := (y 0).isLt
    omega
  | ⟨1, _⟩ =>
    show ((cfg0 a).win 1).index t (1 : Fin 3) * 64 + 1 * (y 1).val = (y 1).val
    omega
  | ⟨2, _⟩ =>
    show ((cfg0 a).win 1).index t (2 : Fin 3) * 128 + 1 * (y 2).val = (y 2).val
    omega

/-- Input window 2's block at point `t` is row `tb[4 t + 2]` of its table. -/
theorem iblk_2 (c : Dev nD) (t : Fin (cfg0 a).N) (y : S1x64x128.Idx) :
    (iblk a V c 2 t : Vec F S1x64x128 .f32) y
      = V c main_v2 (ValueIdx.ix3 (⟨_, row_lt_2 a t⟩ : Fin 2048) (y 1) (y 2)) := by
  have h0 := index_2 a t
  have h1 : ((cfg0 a).win 2).index t (1 : Fin 3) = 0 := rfl
  have h2 : ((cfg0 a).win 2).index t (2 : Fin 3) = 0 := rfl
  show V c main_v2 ((((cfg0 a).win 2).blk t).view.emb y) = V c main_v2 _
  refine congrArg (V c main_v2) ?_
  funext d
  apply Fin.ext
  match d with
  | ⟨0, _⟩ =>
    show ((cfg0 a).win 2).index t (0 : Fin 3) * 1 + 1 * (y 0).val
      = ((a.1 0 : IVec S4096 32) (ValueIdx.ix1 (⟨4 * t.val + 2, _⟩ : Fin 4096))).toNat
    have hy : (y 0).val < 1 := (y 0).isLt
    omega
  | ⟨1, _⟩ =>
    show ((cfg0 a).win 2).index t (1 : Fin 3) * 64 + 1 * (y 1).val = (y 1).val
    omega
  | ⟨2, _⟩ =>
    show ((cfg0 a).win 2).index t (2 : Fin 3) * 128 + 1 * (y 2).val = (y 2).val
    omega

/-- Input window 3's block at point `t` is row `tb[4 t + 3]` of its table. -/
theorem iblk_3 (c : Dev nD) (t : Fin (cfg0 a).N) (y : S1x64x128.Idx) :
    (iblk a V c 3 t : Vec F S1x64x128 .f32) y
      = V c main_v2 (ValueIdx.ix3 (⟨_, row_lt_3 a t⟩ : Fin 2048) (y 1) (y 2)) := by
  have h0 := index_3 a t
  have h1 : ((cfg0 a).win 3).index t (1 : Fin 3) = 0 := rfl
  have h2 : ((cfg0 a).win 3).index t (2 : Fin 3) = 0 := rfl
  show V c main_v2 ((((cfg0 a).win 3).blk t).view.emb y) = V c main_v2 _
  refine congrArg (V c main_v2) ?_
  funext d
  apply Fin.ext
  match d with
  | ⟨0, _⟩ =>
    show ((cfg0 a).win 3).index t (0 : Fin 3) * 1 + 1 * (y 0).val
      = ((a.1 0 : IVec S4096 32) (ValueIdx.ix1 (⟨4 * t.val + 3, _⟩ : Fin 4096))).toNat
    have hy : (y 0).val < 1 := (y 0).isLt
    omega
  | ⟨1, _⟩ =>
    show ((cfg0 a).win 3).index t (1 : Fin 3) * 64 + 1 * (y 1).val = (y 1).val
    omega
  | ⟨2, _⟩ =>
    show ((cfg0 a).win 3).index t (2 : Fin 3) * 128 + 1 * (y 2).val = (y 2).val
    omega

/-- Input window 4's block at point `t` is row `tb[4 t + 0]` of its table. -/
theorem iblk_4 (c : Dev nD) (t : Fin (cfg0 a).N) (y : S1x64x128.Idx) :
    (iblk a V c 4 t : Vec F S1x64x128 .f32) y
      = V c main_v3 (ValueIdx.ix3 (⟨_, row_lt_0 a t⟩ : Fin 2048) (y 1) (y 2)) := by
  have h0 := index_4 a t
  have h1 : ((cfg0 a).win 4).index t (1 : Fin 3) = 0 := rfl
  have h2 : ((cfg0 a).win 4).index t (2 : Fin 3) = 0 := rfl
  show V c main_v3 ((((cfg0 a).win 4).blk t).view.emb y) = V c main_v3 _
  refine congrArg (V c main_v3) ?_
  funext d
  apply Fin.ext
  match d with
  | ⟨0, _⟩ =>
    show ((cfg0 a).win 4).index t (0 : Fin 3) * 1 + 1 * (y 0).val
      = ((a.1 0 : IVec S4096 32) (ValueIdx.ix1 (⟨4 * t.val + 0, _⟩ : Fin 4096))).toNat
    have hy : (y 0).val < 1 := (y 0).isLt
    omega
  | ⟨1, _⟩ =>
    show ((cfg0 a).win 4).index t (1 : Fin 3) * 64 + 1 * (y 1).val = (y 1).val
    omega
  | ⟨2, _⟩ =>
    show ((cfg0 a).win 4).index t (2 : Fin 3) * 128 + 1 * (y 2).val = (y 2).val
    omega

/-- Input window 5's block at point `t` is row `tb[4 t + 1]` of its table. -/
theorem iblk_5 (c : Dev nD) (t : Fin (cfg0 a).N) (y : S1x64x128.Idx) :
    (iblk a V c 5 t : Vec F S1x64x128 .f32) y
      = V c main_v3 (ValueIdx.ix3 (⟨_, row_lt_1 a t⟩ : Fin 2048) (y 1) (y 2)) := by
  have h0 := index_5 a t
  have h1 : ((cfg0 a).win 5).index t (1 : Fin 3) = 0 := rfl
  have h2 : ((cfg0 a).win 5).index t (2 : Fin 3) = 0 := rfl
  show V c main_v3 ((((cfg0 a).win 5).blk t).view.emb y) = V c main_v3 _
  refine congrArg (V c main_v3) ?_
  funext d
  apply Fin.ext
  match d with
  | ⟨0, _⟩ =>
    show ((cfg0 a).win 5).index t (0 : Fin 3) * 1 + 1 * (y 0).val
      = ((a.1 0 : IVec S4096 32) (ValueIdx.ix1 (⟨4 * t.val + 1, _⟩ : Fin 4096))).toNat
    have hy : (y 0).val < 1 := (y 0).isLt
    omega
  | ⟨1, _⟩ =>
    show ((cfg0 a).win 5).index t (1 : Fin 3) * 64 + 1 * (y 1).val = (y 1).val
    omega
  | ⟨2, _⟩ =>
    show ((cfg0 a).win 5).index t (2 : Fin 3) * 128 + 1 * (y 2).val = (y 2).val
    omega

/-- Input window 6's block at point `t` is row `tb[4 t + 2]` of its table. -/
theorem iblk_6 (c : Dev nD) (t : Fin (cfg0 a).N) (y : S1x64x128.Idx) :
    (iblk a V c 6 t : Vec F S1x64x128 .f32) y
      = V c main_v3 (ValueIdx.ix3 (⟨_, row_lt_2 a t⟩ : Fin 2048) (y 1) (y 2)) := by
  have h0 := index_6 a t
  have h1 : ((cfg0 a).win 6).index t (1 : Fin 3) = 0 := rfl
  have h2 : ((cfg0 a).win 6).index t (2 : Fin 3) = 0 := rfl
  show V c main_v3 ((((cfg0 a).win 6).blk t).view.emb y) = V c main_v3 _
  refine congrArg (V c main_v3) ?_
  funext d
  apply Fin.ext
  match d with
  | ⟨0, _⟩ =>
    show ((cfg0 a).win 6).index t (0 : Fin 3) * 1 + 1 * (y 0).val
      = ((a.1 0 : IVec S4096 32) (ValueIdx.ix1 (⟨4 * t.val + 2, _⟩ : Fin 4096))).toNat
    have hy : (y 0).val < 1 := (y 0).isLt
    omega
  | ⟨1, _⟩ =>
    show ((cfg0 a).win 6).index t (1 : Fin 3) * 64 + 1 * (y 1).val = (y 1).val
    omega
  | ⟨2, _⟩ =>
    show ((cfg0 a).win 6).index t (2 : Fin 3) * 128 + 1 * (y 2).val = (y 2).val
    omega

/-- Input window 7's block at point `t` is row `tb[4 t + 3]` of its table. -/
theorem iblk_7 (c : Dev nD) (t : Fin (cfg0 a).N) (y : S1x64x128.Idx) :
    (iblk a V c 7 t : Vec F S1x64x128 .f32) y
      = V c main_v3 (ValueIdx.ix3 (⟨_, row_lt_3 a t⟩ : Fin 2048) (y 1) (y 2)) := by
  have h0 := index_7 a t
  have h1 : ((cfg0 a).win 7).index t (1 : Fin 3) = 0 := rfl
  have h2 : ((cfg0 a).win 7).index t (2 : Fin 3) = 0 := rfl
  show V c main_v3 ((((cfg0 a).win 7).blk t).view.emb y) = V c main_v3 _
  refine congrArg (V c main_v3) ?_
  funext d
  apply Fin.ext
  match d with
  | ⟨0, _⟩ =>
    show ((cfg0 a).win 7).index t (0 : Fin 3) * 1 + 1 * (y 0).val
      = ((a.1 0 : IVec S4096 32) (ValueIdx.ix1 (⟨4 * t.val + 3, _⟩ : Fin 4096))).toNat
    have hy : (y 0).val < 1 := (y 0).isLt
    omega
  | ⟨1, _⟩ =>
    show ((cfg0 a).win 7).index t (1 : Fin 3) * 64 + 1 * (y 1).val = (y 1).val
    omega
  | ⟨2, _⟩ =>
    show ((cfg0 a).win 7).index t (2 : Fin 3) * 128 + 1 * (y 2).val = (y 2).val
    omega

/-- Input window 8's block at point `t` is row `tb[4 t + 0]` of its table. -/
theorem iblk_8 (c : Dev nD) (t : Fin (cfg0 a).N) (y : S1x64x128.Idx) :
    (iblk a V c 8 t : Vec F S1x64x128 .f32) y
      = V c main_v4 (ValueIdx.ix3 (⟨_, row_lt_0 a t⟩ : Fin 2048) (y 1) (y 2)) := by
  have h0 := index_8 a t
  have h1 : ((cfg0 a).win 8).index t (1 : Fin 3) = 0 := rfl
  have h2 : ((cfg0 a).win 8).index t (2 : Fin 3) = 0 := rfl
  show V c main_v4 ((((cfg0 a).win 8).blk t).view.emb y) = V c main_v4 _
  refine congrArg (V c main_v4) ?_
  funext d
  apply Fin.ext
  match d with
  | ⟨0, _⟩ =>
    show ((cfg0 a).win 8).index t (0 : Fin 3) * 1 + 1 * (y 0).val
      = ((a.1 0 : IVec S4096 32) (ValueIdx.ix1 (⟨4 * t.val + 0, _⟩ : Fin 4096))).toNat
    have hy : (y 0).val < 1 := (y 0).isLt
    omega
  | ⟨1, _⟩ =>
    show ((cfg0 a).win 8).index t (1 : Fin 3) * 64 + 1 * (y 1).val = (y 1).val
    omega
  | ⟨2, _⟩ =>
    show ((cfg0 a).win 8).index t (2 : Fin 3) * 128 + 1 * (y 2).val = (y 2).val
    omega

/-- Input window 9's block at point `t` is row `tb[4 t + 1]` of its table. -/
theorem iblk_9 (c : Dev nD) (t : Fin (cfg0 a).N) (y : S1x64x128.Idx) :
    (iblk a V c 9 t : Vec F S1x64x128 .f32) y
      = V c main_v4 (ValueIdx.ix3 (⟨_, row_lt_1 a t⟩ : Fin 2048) (y 1) (y 2)) := by
  have h0 := index_9 a t
  have h1 : ((cfg0 a).win 9).index t (1 : Fin 3) = 0 := rfl
  have h2 : ((cfg0 a).win 9).index t (2 : Fin 3) = 0 := rfl
  show V c main_v4 ((((cfg0 a).win 9).blk t).view.emb y) = V c main_v4 _
  refine congrArg (V c main_v4) ?_
  funext d
  apply Fin.ext
  match d with
  | ⟨0, _⟩ =>
    show ((cfg0 a).win 9).index t (0 : Fin 3) * 1 + 1 * (y 0).val
      = ((a.1 0 : IVec S4096 32) (ValueIdx.ix1 (⟨4 * t.val + 1, _⟩ : Fin 4096))).toNat
    have hy : (y 0).val < 1 := (y 0).isLt
    omega
  | ⟨1, _⟩ =>
    show ((cfg0 a).win 9).index t (1 : Fin 3) * 64 + 1 * (y 1).val = (y 1).val
    omega
  | ⟨2, _⟩ =>
    show ((cfg0 a).win 9).index t (2 : Fin 3) * 128 + 1 * (y 2).val = (y 2).val
    omega

/-- Input window 10's block at point `t` is row `tb[4 t + 2]` of its table. -/
theorem iblk_10 (c : Dev nD) (t : Fin (cfg0 a).N) (y : S1x64x128.Idx) :
    (iblk a V c 10 t : Vec F S1x64x128 .f32) y
      = V c main_v4 (ValueIdx.ix3 (⟨_, row_lt_2 a t⟩ : Fin 2048) (y 1) (y 2)) := by
  have h0 := index_10 a t
  have h1 : ((cfg0 a).win 10).index t (1 : Fin 3) = 0 := rfl
  have h2 : ((cfg0 a).win 10).index t (2 : Fin 3) = 0 := rfl
  show V c main_v4 ((((cfg0 a).win 10).blk t).view.emb y) = V c main_v4 _
  refine congrArg (V c main_v4) ?_
  funext d
  apply Fin.ext
  match d with
  | ⟨0, _⟩ =>
    show ((cfg0 a).win 10).index t (0 : Fin 3) * 1 + 1 * (y 0).val
      = ((a.1 0 : IVec S4096 32) (ValueIdx.ix1 (⟨4 * t.val + 2, _⟩ : Fin 4096))).toNat
    have hy : (y 0).val < 1 := (y 0).isLt
    omega
  | ⟨1, _⟩ =>
    show ((cfg0 a).win 10).index t (1 : Fin 3) * 64 + 1 * (y 1).val = (y 1).val
    omega
  | ⟨2, _⟩ =>
    show ((cfg0 a).win 10).index t (2 : Fin 3) * 128 + 1 * (y 2).val = (y 2).val
    omega

/-- Input window 11's block at point `t` is row `tb[4 t + 3]` of its table. -/
theorem iblk_11 (c : Dev nD) (t : Fin (cfg0 a).N) (y : S1x64x128.Idx) :
    (iblk a V c 11 t : Vec F S1x64x128 .f32) y
      = V c main_v4 (ValueIdx.ix3 (⟨_, row_lt_3 a t⟩ : Fin 2048) (y 1) (y 2)) := by
  have h0 := index_11 a t
  have h1 : ((cfg0 a).win 11).index t (1 : Fin 3) = 0 := rfl
  have h2 : ((cfg0 a).win 11).index t (2 : Fin 3) = 0 := rfl
  show V c main_v4 ((((cfg0 a).win 11).blk t).view.emb y) = V c main_v4 _
  refine congrArg (V c main_v4) ?_
  funext d
  apply Fin.ext
  match d with
  | ⟨0, _⟩ =>
    show ((cfg0 a).win 11).index t (0 : Fin 3) * 1 + 1 * (y 0).val
      = ((a.1 0 : IVec S4096 32) (ValueIdx.ix1 (⟨4 * t.val + 3, _⟩ : Fin 4096))).toNat
    have hy : (y 0).val < 1 := (y 0).isLt
    omega
  | ⟨1, _⟩ =>
    show ((cfg0 a).win 11).index t (1 : Fin 3) * 64 + 1 * (y 1).val = (y 1).val
    omega
  | ⟨2, _⟩ =>
    show ((cfg0 a).win 11).index t (2 : Fin 3) * 128 + 1 * (y 2).val = (y 2).val
    omega

/-- Input window 12's block at point `t` is row `tb[4 t + 0]` of its table. -/
theorem iblk_12 (c : Dev nD) (t : Fin (cfg0 a).N) (y : S1x64x128.Idx) :
    (iblk a V c 12 t : Vec F S1x64x128 .f32) y
      = V c main_v5 (ValueIdx.ix3 (⟨_, row_lt_0 a t⟩ : Fin 2048) (y 1) (y 2)) := by
  have h0 := index_12 a t
  have h1 : ((cfg0 a).win 12).index t (1 : Fin 3) = 0 := rfl
  have h2 : ((cfg0 a).win 12).index t (2 : Fin 3) = 0 := rfl
  show V c main_v5 ((((cfg0 a).win 12).blk t).view.emb y) = V c main_v5 _
  refine congrArg (V c main_v5) ?_
  funext d
  apply Fin.ext
  match d with
  | ⟨0, _⟩ =>
    show ((cfg0 a).win 12).index t (0 : Fin 3) * 1 + 1 * (y 0).val
      = ((a.1 0 : IVec S4096 32) (ValueIdx.ix1 (⟨4 * t.val + 0, _⟩ : Fin 4096))).toNat
    have hy : (y 0).val < 1 := (y 0).isLt
    omega
  | ⟨1, _⟩ =>
    show ((cfg0 a).win 12).index t (1 : Fin 3) * 64 + 1 * (y 1).val = (y 1).val
    omega
  | ⟨2, _⟩ =>
    show ((cfg0 a).win 12).index t (2 : Fin 3) * 128 + 1 * (y 2).val = (y 2).val
    omega

/-- Input window 13's block at point `t` is row `tb[4 t + 1]` of its table. -/
theorem iblk_13 (c : Dev nD) (t : Fin (cfg0 a).N) (y : S1x64x128.Idx) :
    (iblk a V c 13 t : Vec F S1x64x128 .f32) y
      = V c main_v5 (ValueIdx.ix3 (⟨_, row_lt_1 a t⟩ : Fin 2048) (y 1) (y 2)) := by
  have h0 := index_13 a t
  have h1 : ((cfg0 a).win 13).index t (1 : Fin 3) = 0 := rfl
  have h2 : ((cfg0 a).win 13).index t (2 : Fin 3) = 0 := rfl
  show V c main_v5 ((((cfg0 a).win 13).blk t).view.emb y) = V c main_v5 _
  refine congrArg (V c main_v5) ?_
  funext d
  apply Fin.ext
  match d with
  | ⟨0, _⟩ =>
    show ((cfg0 a).win 13).index t (0 : Fin 3) * 1 + 1 * (y 0).val
      = ((a.1 0 : IVec S4096 32) (ValueIdx.ix1 (⟨4 * t.val + 1, _⟩ : Fin 4096))).toNat
    have hy : (y 0).val < 1 := (y 0).isLt
    omega
  | ⟨1, _⟩ =>
    show ((cfg0 a).win 13).index t (1 : Fin 3) * 64 + 1 * (y 1).val = (y 1).val
    omega
  | ⟨2, _⟩ =>
    show ((cfg0 a).win 13).index t (2 : Fin 3) * 128 + 1 * (y 2).val = (y 2).val
    omega

/-- Input window 14's block at point `t` is row `tb[4 t + 2]` of its table. -/
theorem iblk_14 (c : Dev nD) (t : Fin (cfg0 a).N) (y : S1x64x128.Idx) :
    (iblk a V c 14 t : Vec F S1x64x128 .f32) y
      = V c main_v5 (ValueIdx.ix3 (⟨_, row_lt_2 a t⟩ : Fin 2048) (y 1) (y 2)) := by
  have h0 := index_14 a t
  have h1 : ((cfg0 a).win 14).index t (1 : Fin 3) = 0 := rfl
  have h2 : ((cfg0 a).win 14).index t (2 : Fin 3) = 0 := rfl
  show V c main_v5 ((((cfg0 a).win 14).blk t).view.emb y) = V c main_v5 _
  refine congrArg (V c main_v5) ?_
  funext d
  apply Fin.ext
  match d with
  | ⟨0, _⟩ =>
    show ((cfg0 a).win 14).index t (0 : Fin 3) * 1 + 1 * (y 0).val
      = ((a.1 0 : IVec S4096 32) (ValueIdx.ix1 (⟨4 * t.val + 2, _⟩ : Fin 4096))).toNat
    have hy : (y 0).val < 1 := (y 0).isLt
    omega
  | ⟨1, _⟩ =>
    show ((cfg0 a).win 14).index t (1 : Fin 3) * 64 + 1 * (y 1).val = (y 1).val
    omega
  | ⟨2, _⟩ =>
    show ((cfg0 a).win 14).index t (2 : Fin 3) * 128 + 1 * (y 2).val = (y 2).val
    omega

/-- Input window 15's block at point `t` is row `tb[4 t + 3]` of its table. -/
theorem iblk_15 (c : Dev nD) (t : Fin (cfg0 a).N) (y : S1x64x128.Idx) :
    (iblk a V c 15 t : Vec F S1x64x128 .f32) y
      = V c main_v5 (ValueIdx.ix3 (⟨_, row_lt_3 a t⟩ : Fin 2048) (y 1) (y 2)) := by
  have h0 := index_15 a t
  have h1 : ((cfg0 a).win 15).index t (1 : Fin 3) = 0 := rfl
  have h2 : ((cfg0 a).win 15).index t (2 : Fin 3) = 0 := rfl
  show V c main_v5 ((((cfg0 a).win 15).blk t).view.emb y) = V c main_v5 _
  refine congrArg (V c main_v5) ?_
  funext d
  apply Fin.ext
  match d with
  | ⟨0, _⟩ =>
    show ((cfg0 a).win 15).index t (0 : Fin 3) * 1 + 1 * (y 0).val
      = ((a.1 0 : IVec S4096 32) (ValueIdx.ix1 (⟨4 * t.val + 3, _⟩ : Fin 4096))).toNat
    have hy : (y 0).val < 1 := (y 0).isLt
    omega
  | ⟨1, _⟩ =>
    show ((cfg0 a).win 15).index t (1 : Fin 3) * 64 + 1 * (y 1).val = (y 1).val
    omega
  | ⟨2, _⟩ =>
    show ((cfg0 a).win 15).index t (2 : Fin 3) * 128 + 1 * (y 2).val = (y 2).val
    omega

/-! ## Output window 16 -/

/-- Output window 16's leading block index at point `t` is `t`. -/
theorem index_16 (t : Fin (cfg0 a).N) : ((cfg0 a).win 16).index t (0 : Fin 4) = t.val := by
  show (BitVec.ofNat 32 ((grid0.coords t) 0).val).toNat = t.val
  have h := point_lt a t
  rw [BitVec.toNat_ofNat, coord0, Nat.mod_eq_of_lt (by omega)]

/-- After the body the output's staging buffer holds its four input blocks stacked. -/
theorem after_16 (c : Dev nD) (t : Fin (cfg0 a).N) :
    (dat0 a V c).after 16 t = stack4 (iblk a V c 0 t) (iblk a V c 1 t) (iblk a V c 2 t) (iblk a V c 3 t) := rfl

/-- What point `t` writes back is block `t` of the gathered array. -/
theorem flushed_16 (c : Dev nD) (t : Fin (cfg0 a).N) :
    (dat0 a V c).flushed 16 t = (((cfg0 a).win 16).blk t).view.read (Elt F) (gatherRows (V c main_v2) (a.1 0)) := by
  show ((cfg0 a).win 16).cut ((cfg0 a).grid.coords t) ((dat0 a V c).after 16 t) = _
  rw [after_16]
  have h0 := index_16 a t
  have h1 : ((cfg0 a).win 16).index t (1 : Fin 4) = 0 := rfl
  have h2 : ((cfg0 a).win 16).index t (2 : Fin 4) = 0 := rfl
  have h3 : ((cfg0 a).win 16).index t (3 : Fin 4) = 0 := rfl
  refine funext fun (j : S1x4x64x128.Idx) => ?_
  show stack4 (iblk a V c 0 t) (iblk a V c 1 t) (iblk a V c 2 t) (iblk a V c 3 t) j
    = gatherRows (V c main_v2) (a.1 0) ((((cfg0 a).win 16).blk t).view.emb j)
  refine stack4_rows (V c main_v2) (a.1 0) ⟨t.val, point_lt a t⟩ (row_lt_0 a t) (row_lt_1 a t) (row_lt_2 a t) (row_lt_3 a t)
    (iblk a V c 0 t) (iblk a V c 1 t) (iblk a V c 2 t) (iblk a V c 3 t)
    (iblk_0 a V c t) (iblk_1 a V c t) (iblk_2 a V c t) (iblk_3 a V c t) j _ ?_ ?_ ?_ ?_
  · show ((cfg0 a).win 16).index t (0 : Fin 4) * 1 + 1 * (j 0).val = t.val
    have hj : (j 0).val < 1 := (j 0).isLt
    omega
  · show ((cfg0 a).win 16).index t (1 : Fin 4) * 4 + 1 * (j 1).val = (j 1).val
    omega
  · show ((cfg0 a).win 16).index t (2 : Fin 4) * 64 + 1 * (j 2).val = (j 2).val
    omega
  · show ((cfg0 a).win 16).index t (3 : Fin 4) * 128 + 1 * (j 3).val = (j 3).val
    omega

/-- The output's block index changes at every point, so every point writes its block back. -/
theorem flush_16 (t : Fin (cfg0 a).N) : ((cfg0 a).win 16).flush t = true := by
  unfold Pipeline.Window.flush
  have ho : ((cfg0 a).win 16).isOut = true := rfl
  rw [ho, Bool.true_and, Bool.or_eq_true, decide_eq_true_eq, decide_eq_true_eq]
  by_cases h : t.val + 1 = (cfg0 a).grid.N
  · exact .inl h
  · have ht : t.val < (cfg0 a).grid.N := t.isLt
    refine .inr ⟨by omega, fun e => ?_⟩
    have e0 := congrFun e (0 : Fin 4)
    rw [index_16, index_16] at e0
    exact absurd e0 (by show t.val + 1 ≠ t.val; omega)

/-- An index of the output array is in point `t`'s block iff each coordinate is in the block's range on its axis. -/
theorem mem_blk_16 (t : Fin (cfg0 a).N) (i : S1024x4x64x128.Idx) :
    i ∈ (((cfg0 a).win 16).blk t).view.set
      ↔ ∀ d : Fin 4, ((cfg0 a).win 16).index t d * S1x4x64x128.size d ≤ (i d).val
          ∧ (i d).val < ((cfg0 a).win 16).index t d * S1x4x64x128.size d + S1x4x64x128.size d := by
  have e : (((cfg0 a).win 16).blk t).view.set = (((cfg0 a).win 16).rect t).set := View.set_slice_whole main_v6_0 _
  rw [e]
  exact Rect.mem_set_unit

/-- Row `i 0` of the output array is covered by the point of that number. -/
theorem cover_16 (i : S1024x4x64x128.Idx) :
    ∃ t : Fin (cfg0 a).N, ((cfg0 a).win 16).flush t = true ∧ i ∈ (((cfg0 a).win 16).blk t).view.set := by
  have hi0 : (i 0).val < 1024 := (i 0).isLt
  have hi1 : (i 1).val < 4 := (i 1).isLt
  have hi2 : (i 2).val < 64 := (i 2).isLt
  have hi3 : (i 3).val < 128 := (i 3).isLt
  have hN : (cfg0 a).N = 1024 := N_0
  refine ⟨⟨(i 0).val, by omega⟩, flush_16 a _, ?_⟩
  rw [mem_blk_16]
  intro d
  match d with
  | ⟨0, _⟩ =>
    show ((cfg0 a).win 16).index ⟨(i 0).val, _⟩ (0 : Fin 4) * 1 ≤ (i 0).val
      ∧ (i 0).val < ((cfg0 a).win 16).index ⟨(i 0).val, _⟩ (0 : Fin 4) * 1 + 1
    rw [index_16]
    show (i 0).val * 1 ≤ (i 0).val ∧ (i 0).val < (i 0).val * 1 + 1
    omega
  | ⟨1, _⟩ =>
    show 0 * 4 ≤ (i 1).val ∧ (i 1).val < 0 * 4 + 4
    omega
  | ⟨2, _⟩ =>
    show 0 * 64 ≤ (i 2).val ∧ (i 2).val < 0 * 64 + 64
    omega
  | ⟨3, _⟩ =>
    show 0 * 128 ≤ (i 3).val ∧ (i 3).val < 0 * 128 + 128
    omega

/-- THE ARRAY the write-backs leave: row `tb[4 i + k]` of the table at position `(i, k)`. -/
theorem arrAt_out0 (c : Dev nD) :
    ((dat0 a V c).arrAt 16 (cfg0 a).N : S1024x4x64x128.Idx → Elt F .f32) = gatherRows (V c main_v2) (a.1 0) :=
  (dat0 a V c).arrAt_eq_of_cover 16 (gatherRows (V c main_v2) (a.1 0)) (fun t _ => flushed_16 a V c t) (cover_16 a)

/-! ## Output window 17 -/

/-- Output window 17's leading block index at point `t` is `t`. -/
theorem index_17 (t : Fin (cfg0 a).N) : ((cfg0 a).win 17).index t (0 : Fin 4) = t.val := by
  show (BitVec.ofNat 32 ((grid0.coords t) 0).val).toNat = t.val
  have h := point_lt a t
  rw [BitVec.toNat_ofNat, coord0, Nat.mod_eq_of_lt (by omega)]

/-- After the body the output's staging buffer holds its four input blocks stacked. -/
theorem after_17 (c : Dev nD) (t : Fin (cfg0 a).N) :
    (dat0 a V c).after 17 t = stack4 (iblk a V c 4 t) (iblk a V c 5 t) (iblk a V c 6 t) (iblk a V c 7 t) := rfl

/-- What point `t` writes back is block `t` of the gathered array. -/
theorem flushed_17 (c : Dev nD) (t : Fin (cfg0 a).N) :
    (dat0 a V c).flushed 17 t = (((cfg0 a).win 17).blk t).view.read (Elt F) (gatherRows (V c main_v3) (a.1 0)) := by
  show ((cfg0 a).win 17).cut ((cfg0 a).grid.coords t) ((dat0 a V c).after 17 t) = _
  rw [after_17]
  have h0 := index_17 a t
  have h1 : ((cfg0 a).win 17).index t (1 : Fin 4) = 0 := rfl
  have h2 : ((cfg0 a).win 17).index t (2 : Fin 4) = 0 := rfl
  have h3 : ((cfg0 a).win 17).index t (3 : Fin 4) = 0 := rfl
  refine funext fun (j : S1x4x64x128.Idx) => ?_
  show stack4 (iblk a V c 4 t) (iblk a V c 5 t) (iblk a V c 6 t) (iblk a V c 7 t) j
    = gatherRows (V c main_v3) (a.1 0) ((((cfg0 a).win 17).blk t).view.emb j)
  refine stack4_rows (V c main_v3) (a.1 0) ⟨t.val, point_lt a t⟩ (row_lt_0 a t) (row_lt_1 a t) (row_lt_2 a t) (row_lt_3 a t)
    (iblk a V c 4 t) (iblk a V c 5 t) (iblk a V c 6 t) (iblk a V c 7 t)
    (iblk_4 a V c t) (iblk_5 a V c t) (iblk_6 a V c t) (iblk_7 a V c t) j _ ?_ ?_ ?_ ?_
  · show ((cfg0 a).win 17).index t (0 : Fin 4) * 1 + 1 * (j 0).val = t.val
    have hj : (j 0).val < 1 := (j 0).isLt
    omega
  · show ((cfg0 a).win 17).index t (1 : Fin 4) * 4 + 1 * (j 1).val = (j 1).val
    omega
  · show ((cfg0 a).win 17).index t (2 : Fin 4) * 64 + 1 * (j 2).val = (j 2).val
    omega
  · show ((cfg0 a).win 17).index t (3 : Fin 4) * 128 + 1 * (j 3).val = (j 3).val
    omega

/-- The output's block index changes at every point, so every point writes its block back. -/
theorem flush_17 (t : Fin (cfg0 a).N) : ((cfg0 a).win 17).flush t = true := by
  unfold Pipeline.Window.flush
  have ho : ((cfg0 a).win 17).isOut = true := rfl
  rw [ho, Bool.true_and, Bool.or_eq_true, decide_eq_true_eq, decide_eq_true_eq]
  by_cases h : t.val + 1 = (cfg0 a).grid.N
  · exact .inl h
  · have ht : t.val < (cfg0 a).grid.N := t.isLt
    refine .inr ⟨by omega, fun e => ?_⟩
    have e0 := congrFun e (0 : Fin 4)
    rw [index_17, index_17] at e0
    exact absurd e0 (by show t.val + 1 ≠ t.val; omega)

/-- An index of the output array is in point `t`'s block iff each coordinate is in the block's range on its axis. -/
theorem mem_blk_17 (t : Fin (cfg0 a).N) (i : S1024x4x64x128.Idx) :
    i ∈ (((cfg0 a).win 17).blk t).view.set
      ↔ ∀ d : Fin 4, ((cfg0 a).win 17).index t d * S1x4x64x128.size d ≤ (i d).val
          ∧ (i d).val < ((cfg0 a).win 17).index t d * S1x4x64x128.size d + S1x4x64x128.size d := by
  have e : (((cfg0 a).win 17).blk t).view.set = (((cfg0 a).win 17).rect t).set := View.set_slice_whole main_v6_1 _
  rw [e]
  exact Rect.mem_set_unit

/-- Row `i 0` of the output array is covered by the point of that number. -/
theorem cover_17 (i : S1024x4x64x128.Idx) :
    ∃ t : Fin (cfg0 a).N, ((cfg0 a).win 17).flush t = true ∧ i ∈ (((cfg0 a).win 17).blk t).view.set := by
  have hi0 : (i 0).val < 1024 := (i 0).isLt
  have hi1 : (i 1).val < 4 := (i 1).isLt
  have hi2 : (i 2).val < 64 := (i 2).isLt
  have hi3 : (i 3).val < 128 := (i 3).isLt
  have hN : (cfg0 a).N = 1024 := N_0
  refine ⟨⟨(i 0).val, by omega⟩, flush_17 a _, ?_⟩
  rw [mem_blk_17]
  intro d
  match d with
  | ⟨0, _⟩ =>
    show ((cfg0 a).win 17).index ⟨(i 0).val, _⟩ (0 : Fin 4) * 1 ≤ (i 0).val
      ∧ (i 0).val < ((cfg0 a).win 17).index ⟨(i 0).val, _⟩ (0 : Fin 4) * 1 + 1
    rw [index_17]
    show (i 0).val * 1 ≤ (i 0).val ∧ (i 0).val < (i 0).val * 1 + 1
    omega
  | ⟨1, _⟩ =>
    show 0 * 4 ≤ (i 1).val ∧ (i 1).val < 0 * 4 + 4
    omega
  | ⟨2, _⟩ =>
    show 0 * 64 ≤ (i 2).val ∧ (i 2).val < 0 * 64 + 64
    omega
  | ⟨3, _⟩ =>
    show 0 * 128 ≤ (i 3).val ∧ (i 3).val < 0 * 128 + 128
    omega

/-- THE ARRAY the write-backs leave: row `tb[4 i + k]` of the table at position `(i, k)`. -/
theorem arrAt_out1 (c : Dev nD) :
    ((dat0 a V c).arrAt 17 (cfg0 a).N : S1024x4x64x128.Idx → Elt F .f32) = gatherRows (V c main_v3) (a.1 0) :=
  (dat0 a V c).arrAt_eq_of_cover 17 (gatherRows (V c main_v3) (a.1 0)) (fun t _ => flushed_17 a V c t) (cover_17 a)

/-! ## Output window 18 -/

/-- Output window 18's leading block index at point `t` is `t`. -/
theorem index_18 (t : Fin (cfg0 a).N) : ((cfg0 a).win 18).index t (0 : Fin 4) = t.val := by
  show (BitVec.ofNat 32 ((grid0.coords t) 0).val).toNat = t.val
  have h := point_lt a t
  rw [BitVec.toNat_ofNat, coord0, Nat.mod_eq_of_lt (by omega)]

/-- After the body the output's staging buffer holds its four input blocks stacked. -/
theorem after_18 (c : Dev nD) (t : Fin (cfg0 a).N) :
    (dat0 a V c).after 18 t = stack4 (iblk a V c 8 t) (iblk a V c 9 t) (iblk a V c 10 t) (iblk a V c 11 t) := rfl

/-- What point `t` writes back is block `t` of the gathered array. -/
theorem flushed_18 (c : Dev nD) (t : Fin (cfg0 a).N) :
    (dat0 a V c).flushed 18 t = (((cfg0 a).win 18).blk t).view.read (Elt F) (gatherRows (V c main_v4) (a.1 0)) := by
  show ((cfg0 a).win 18).cut ((cfg0 a).grid.coords t) ((dat0 a V c).after 18 t) = _
  rw [after_18]
  have h0 := index_18 a t
  have h1 : ((cfg0 a).win 18).index t (1 : Fin 4) = 0 := rfl
  have h2 : ((cfg0 a).win 18).index t (2 : Fin 4) = 0 := rfl
  have h3 : ((cfg0 a).win 18).index t (3 : Fin 4) = 0 := rfl
  refine funext fun (j : S1x4x64x128.Idx) => ?_
  show stack4 (iblk a V c 8 t) (iblk a V c 9 t) (iblk a V c 10 t) (iblk a V c 11 t) j
    = gatherRows (V c main_v4) (a.1 0) ((((cfg0 a).win 18).blk t).view.emb j)
  refine stack4_rows (V c main_v4) (a.1 0) ⟨t.val, point_lt a t⟩ (row_lt_0 a t) (row_lt_1 a t) (row_lt_2 a t) (row_lt_3 a t)
    (iblk a V c 8 t) (iblk a V c 9 t) (iblk a V c 10 t) (iblk a V c 11 t)
    (iblk_8 a V c t) (iblk_9 a V c t) (iblk_10 a V c t) (iblk_11 a V c t) j _ ?_ ?_ ?_ ?_
  · show ((cfg0 a).win 18).index t (0 : Fin 4) * 1 + 1 * (j 0).val = t.val
    have hj : (j 0).val < 1 := (j 0).isLt
    omega
  · show ((cfg0 a).win 18).index t (1 : Fin 4) * 4 + 1 * (j 1).val = (j 1).val
    omega
  · show ((cfg0 a).win 18).index t (2 : Fin 4) * 64 + 1 * (j 2).val = (j 2).val
    omega
  · show ((cfg0 a).win 18).index t (3 : Fin 4) * 128 + 1 * (j 3).val = (j 3).val
    omega

/-- The output's block index changes at every point, so every point writes its block back. -/
theorem flush_18 (t : Fin (cfg0 a).N) : ((cfg0 a).win 18).flush t = true := by
  unfold Pipeline.Window.flush
  have ho : ((cfg0 a).win 18).isOut = true := rfl
  rw [ho, Bool.true_and, Bool.or_eq_true, decide_eq_true_eq, decide_eq_true_eq]
  by_cases h : t.val + 1 = (cfg0 a).grid.N
  · exact .inl h
  · have ht : t.val < (cfg0 a).grid.N := t.isLt
    refine .inr ⟨by omega, fun e => ?_⟩
    have e0 := congrFun e (0 : Fin 4)
    rw [index_18, index_18] at e0
    exact absurd e0 (by show t.val + 1 ≠ t.val; omega)

/-- An index of the output array is in point `t`'s block iff each coordinate is in the block's range on its axis. -/
theorem mem_blk_18 (t : Fin (cfg0 a).N) (i : S1024x4x64x128.Idx) :
    i ∈ (((cfg0 a).win 18).blk t).view.set
      ↔ ∀ d : Fin 4, ((cfg0 a).win 18).index t d * S1x4x64x128.size d ≤ (i d).val
          ∧ (i d).val < ((cfg0 a).win 18).index t d * S1x4x64x128.size d + S1x4x64x128.size d := by
  have e : (((cfg0 a).win 18).blk t).view.set = (((cfg0 a).win 18).rect t).set := View.set_slice_whole main_v6_2 _
  rw [e]
  exact Rect.mem_set_unit

/-- Row `i 0` of the output array is covered by the point of that number. -/
theorem cover_18 (i : S1024x4x64x128.Idx) :
    ∃ t : Fin (cfg0 a).N, ((cfg0 a).win 18).flush t = true ∧ i ∈ (((cfg0 a).win 18).blk t).view.set := by
  have hi0 : (i 0).val < 1024 := (i 0).isLt
  have hi1 : (i 1).val < 4 := (i 1).isLt
  have hi2 : (i 2).val < 64 := (i 2).isLt
  have hi3 : (i 3).val < 128 := (i 3).isLt
  have hN : (cfg0 a).N = 1024 := N_0
  refine ⟨⟨(i 0).val, by omega⟩, flush_18 a _, ?_⟩
  rw [mem_blk_18]
  intro d
  match d with
  | ⟨0, _⟩ =>
    show ((cfg0 a).win 18).index ⟨(i 0).val, _⟩ (0 : Fin 4) * 1 ≤ (i 0).val
      ∧ (i 0).val < ((cfg0 a).win 18).index ⟨(i 0).val, _⟩ (0 : Fin 4) * 1 + 1
    rw [index_18]
    show (i 0).val * 1 ≤ (i 0).val ∧ (i 0).val < (i 0).val * 1 + 1
    omega
  | ⟨1, _⟩ =>
    show 0 * 4 ≤ (i 1).val ∧ (i 1).val < 0 * 4 + 4
    omega
  | ⟨2, _⟩ =>
    show 0 * 64 ≤ (i 2).val ∧ (i 2).val < 0 * 64 + 64
    omega
  | ⟨3, _⟩ =>
    show 0 * 128 ≤ (i 3).val ∧ (i 3).val < 0 * 128 + 128
    omega

/-- THE ARRAY the write-backs leave: row `tb[4 i + k]` of the table at position `(i, k)`. -/
theorem arrAt_out2 (c : Dev nD) :
    ((dat0 a V c).arrAt 18 (cfg0 a).N : S1024x4x64x128.Idx → Elt F .f32) = gatherRows (V c main_v4) (a.1 0) :=
  (dat0 a V c).arrAt_eq_of_cover 18 (gatherRows (V c main_v4) (a.1 0)) (fun t _ => flushed_18 a V c t) (cover_18 a)

/-! ## Output window 19 -/

/-- Output window 19's leading block index at point `t` is `t`. -/
theorem index_19 (t : Fin (cfg0 a).N) : ((cfg0 a).win 19).index t (0 : Fin 4) = t.val := by
  show (BitVec.ofNat 32 ((grid0.coords t) 0).val).toNat = t.val
  have h := point_lt a t
  rw [BitVec.toNat_ofNat, coord0, Nat.mod_eq_of_lt (by omega)]

/-- After the body the output's staging buffer holds its four input blocks stacked. -/
theorem after_19 (c : Dev nD) (t : Fin (cfg0 a).N) :
    (dat0 a V c).after 19 t = stack4 (iblk a V c 12 t) (iblk a V c 13 t) (iblk a V c 14 t) (iblk a V c 15 t) := rfl

/-- What point `t` writes back is block `t` of the gathered array. -/
theorem flushed_19 (c : Dev nD) (t : Fin (cfg0 a).N) :
    (dat0 a V c).flushed 19 t = (((cfg0 a).win 19).blk t).view.read (Elt F) (gatherRows (V c main_v5) (a.1 0)) := by
  show ((cfg0 a).win 19).cut ((cfg0 a).grid.coords t) ((dat0 a V c).after 19 t) = _
  rw [after_19]
  have h0 := index_19 a t
  have h1 : ((cfg0 a).win 19).index t (1 : Fin 4) = 0 := rfl
  have h2 : ((cfg0 a).win 19).index t (2 : Fin 4) = 0 := rfl
  have h3 : ((cfg0 a).win 19).index t (3 : Fin 4) = 0 := rfl
  refine funext fun (j : S1x4x64x128.Idx) => ?_
  show stack4 (iblk a V c 12 t) (iblk a V c 13 t) (iblk a V c 14 t) (iblk a V c 15 t) j
    = gatherRows (V c main_v5) (a.1 0) ((((cfg0 a).win 19).blk t).view.emb j)
  refine stack4_rows (V c main_v5) (a.1 0) ⟨t.val, point_lt a t⟩ (row_lt_0 a t) (row_lt_1 a t) (row_lt_2 a t) (row_lt_3 a t)
    (iblk a V c 12 t) (iblk a V c 13 t) (iblk a V c 14 t) (iblk a V c 15 t)
    (iblk_12 a V c t) (iblk_13 a V c t) (iblk_14 a V c t) (iblk_15 a V c t) j _ ?_ ?_ ?_ ?_
  · show ((cfg0 a).win 19).index t (0 : Fin 4) * 1 + 1 * (j 0).val = t.val
    have hj : (j 0).val < 1 := (j 0).isLt
    omega
  · show ((cfg0 a).win 19).index t (1 : Fin 4) * 4 + 1 * (j 1).val = (j 1).val
    omega
  · show ((cfg0 a).win 19).index t (2 : Fin 4) * 64 + 1 * (j 2).val = (j 2).val
    omega
  · show ((cfg0 a).win 19).index t (3 : Fin 4) * 128 + 1 * (j 3).val = (j 3).val
    omega

/-- The output's block index changes at every point, so every point writes its block back. -/
theorem flush_19 (t : Fin (cfg0 a).N) : ((cfg0 a).win 19).flush t = true := by
  unfold Pipeline.Window.flush
  have ho : ((cfg0 a).win 19).isOut = true := rfl
  rw [ho, Bool.true_and, Bool.or_eq_true, decide_eq_true_eq, decide_eq_true_eq]
  by_cases h : t.val + 1 = (cfg0 a).grid.N
  · exact .inl h
  · have ht : t.val < (cfg0 a).grid.N := t.isLt
    refine .inr ⟨by omega, fun e => ?_⟩
    have e0 := congrFun e (0 : Fin 4)
    rw [index_19, index_19] at e0
    exact absurd e0 (by show t.val + 1 ≠ t.val; omega)

/-- An index of the output array is in point `t`'s block iff each coordinate is in the block's range on its axis. -/
theorem mem_blk_19 (t : Fin (cfg0 a).N) (i : S1024x4x64x128.Idx) :
    i ∈ (((cfg0 a).win 19).blk t).view.set
      ↔ ∀ d : Fin 4, ((cfg0 a).win 19).index t d * S1x4x64x128.size d ≤ (i d).val
          ∧ (i d).val < ((cfg0 a).win 19).index t d * S1x4x64x128.size d + S1x4x64x128.size d := by
  have e : (((cfg0 a).win 19).blk t).view.set = (((cfg0 a).win 19).rect t).set := View.set_slice_whole main_v6_3 _
  rw [e]
  exact Rect.mem_set_unit

/-- Row `i 0` of the output array is covered by the point of that number. -/
theorem cover_19 (i : S1024x4x64x128.Idx) :
    ∃ t : Fin (cfg0 a).N, ((cfg0 a).win 19).flush t = true ∧ i ∈ (((cfg0 a).win 19).blk t).view.set := by
  have hi0 : (i 0).val < 1024 := (i 0).isLt
  have hi1 : (i 1).val < 4 := (i 1).isLt
  have hi2 : (i 2).val < 64 := (i 2).isLt
  have hi3 : (i 3).val < 128 := (i 3).isLt
  have hN : (cfg0 a).N = 1024 := N_0
  refine ⟨⟨(i 0).val, by omega⟩, flush_19 a _, ?_⟩
  rw [mem_blk_19]
  intro d
  match d with
  | ⟨0, _⟩ =>
    show ((cfg0 a).win 19).index ⟨(i 0).val, _⟩ (0 : Fin 4) * 1 ≤ (i 0).val
      ∧ (i 0).val < ((cfg0 a).win 19).index ⟨(i 0).val, _⟩ (0 : Fin 4) * 1 + 1
    rw [index_19]
    show (i 0).val * 1 ≤ (i 0).val ∧ (i 0).val < (i 0).val * 1 + 1
    omega
  | ⟨1, _⟩ =>
    show 0 * 4 ≤ (i 1).val ∧ (i 1).val < 0 * 4 + 4
    omega
  | ⟨2, _⟩ =>
    show 0 * 64 ≤ (i 2).val ∧ (i 2).val < 0 * 64 + 64
    omega
  | ⟨3, _⟩ =>
    show 0 * 128 ≤ (i 3).val ∧ (i 3).val < 0 * 128 + 128
    omega

/-- THE ARRAY the write-backs leave: row `tb[4 i + k]` of the table at position `(i, k)`. -/
theorem arrAt_out3 (c : Dev nD) :
    ((dat0 a V c).arrAt 19 (cfg0 a).N : S1024x4x64x128.Idx → Elt F .f32) = gatherRows (V c main_v5) (a.1 0) :=
  (dat0 a V c).arrAt_eq_of_cover 19 (gatherRows (V c main_v5) (a.1 0)) (fun t _ => flushed_19 a V c t) (cover_19 a)

/-! ## The input windows' arrays -/

/-- The first sixteen windows are inputs. -/
theorem isOut_in (w : Fin (cfg0 a).W) (hw : w.val < 16) : ((cfg0 a).win w).isOut = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨n + 16, _⟩, h' => exact absurd h' (by show ¬ n + 16 < 16; omega)

/-- An input window's array is never written: it ends as the region found it. -/
theorem arrAt_in (c : Dev nD) (w : Fin (cfg0 a).W) (hw : w.val < 16) :
    (dat0 a V c).arrAt w (cfg0 a).N = V c (Pipeline.arrRef spec0 w) := by
  rw [(dat0 a V c).arrAt_in w (isOut_in a w hw), A_eq]

end Cert.KernelIdeal.Hand

end
-- ==== Proof.KValueMain.lean ====
/-
  What the program returns, as functions of its arguments: each of the four gathered results is the relayout of the
  rows `tb[4 i + k]` of the relaid-out weight table, `tb` the indices clamped into range and laid out flat; the loss is
  the one function of the four weight tables that the host operations after the call compute.
-/
import proofs.«401394_j300647710818_2_alg».proof.Proof.Gen.KernelIdeal.Launch
import proofs.«401394_j300647710818_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«401394_j300647710818_2_alg».proof.Proof.KFrame
import proofs.«401394_j300647710818_2_alg».proof.Proof.KValue
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The admissible contents are the table read at the call's entry. -/
theorem adm_val : (adm m ρ).1 = tbl m ρ := rfl

/-- The index table the call runs at: the indices clamped and laid out flat. -/
theorem adm_tbl0 (c : Dev nD) : ((adm m ρ).1 0 : S4096.Idx → BitVec 32) = clampFlat (m ((c : Thread nD τ).loc main_arg0)) := by
  obtain rfl : c = 0 := Subsingleton.elim _ _
  rw [adm_val]
  exact tbl_eq m ρ

theorem W4_v6_0 (c : Dev nD) : (W4 m ρ c (Proc.devRef .tc main_v6_0) : S1024x4x64x128.Idx → Elt F .f32) = (datM m ρ c).arrAt 16 (cfg0 (adm m ρ)).N :=
  W4_out m ρ c 0

theorem arr16_rows (c : Dev nD) : ((datM m ρ c).arrAt 16 (cfg0 (adm m ρ)).N : S1024x4x64x128.Idx → Elt F .f32)
    = gatherRows (V3 m ρ c main_v2) ((adm m ρ).1 0) :=
  arrAt_out0 (adm m ρ) (V3 m ρ) c

/-- Result 0 in the final contents: the rows of the relaid-out table at the clamped indices, relaid out. -/
theorem W5_main_v7 (c : Dev nD) : (W5 m ρ c (Proc.devRef .tc main_v7) : S2x512x4x256x32.Idx → Elt F .f32)
    = shapeCast S2x512x4x256x32 (gatherRows (shapeCast S2048x64x128 (m ((c : Thread nD τ).loc main_arg1)) shapeCasts_S2048x256x32_S2048x64x128) (clampFlat (m ((c : Thread nD τ).loc main_arg0)))) shapeCasts_S1024x4x64x128_S2x512x4x256x32 := by
  refine (tail_v7 (W4 m ρ c)).trans ?_
  refine congrArg (fun x => shapeCast S2x512x4x256x32 x shapeCasts_S1024x4x64x128_S2x512x4x256x32) ?_
  refine (W4_v6_0 m ρ c).trans ((arr16_rows m ρ c).trans ?_)
  rw [V3_main_v2 m ρ c, adm_tbl0 m ρ c]

theorem W4_v6_1 (c : Dev nD) : (W4 m ρ c (Proc.devRef .tc main_v6_1) : S1024x4x64x128.Idx → Elt F .f32) = (datM m ρ c).arrAt 17 (cfg0 (adm m ρ)).N :=
  W4_out m ρ c 1

theorem arr17_rows (c : Dev nD) : ((datM m ρ c).arrAt 17 (cfg0 (adm m ρ)).N : S1024x4x64x128.Idx → Elt F .f32)
    = gatherRows (V3 m ρ c main_v3) ((adm m ρ).1 0) :=
  arrAt_out1 (adm m ρ) (V3 m ρ) c

/-- Result 1 in the final contents: the rows of the relaid-out table at the clamped indices, relaid out. -/
theorem W5_main_v8 (c : Dev nD) : (W5 m ρ c (Proc.devRef .tc main_v8) : S2x512x4x256x32.Idx → Elt F .f32)
    = shapeCast S2x512x4x256x32 (gatherRows (shapeCast S2048x64x128 (m ((c : Thread nD τ).loc main_arg2)) shapeCasts_S2048x256x32_S2048x64x128) (clampFlat (m ((c : Thread nD τ).loc main_arg0)))) shapeCasts_S1024x4x64x128_S2x512x4x256x32 := by
  refine (tail_v8 (W4 m ρ c)).trans ?_
  refine congrArg (fun x => shapeCast S2x512x4x256x32 x shapeCasts_S1024x4x64x128_S2x512x4x256x32) ?_
  refine (W4_v6_1 m ρ c).trans ((arr17_rows m ρ c).trans ?_)
  rw [V3_main_v3 m ρ c, adm_tbl0 m ρ c]

theorem W4_v6_2 (c : Dev nD) : (W4 m ρ c (Proc.devRef .tc main_v6_2) : S1024x4x64x128.Idx → Elt F .f32) = (datM m ρ c).arrAt 18 (cfg0 (adm m ρ)).N :=
  W4_out m ρ c 2

theorem arr18_rows (c : Dev nD) : ((datM m ρ c).arrAt 18 (cfg0 (adm m ρ)).N : S1024x4x64x128.Idx → Elt F .f32)
    = gatherRows (V3 m ρ c main_v4) ((adm m ρ).1 0) :=
  arrAt_out2 (adm m ρ) (V3 m ρ) c

/-- Result 2 in the final contents: the rows of the relaid-out table at the clamped indices, relaid out. -/
theorem W5_main_v9 (c : Dev nD) : (W5 m ρ c (Proc.devRef .tc main_v9) : S2x512x4x256x32.Idx → Elt F .f32)
    = shapeCast S2x512x4x256x32 (gatherRows (shapeCast S2048x64x128 (m ((c : Thread nD τ).loc main_arg3)) shapeCasts_S2048x256x32_S2048x64x128) (clampFlat (m ((c : Thread nD τ).loc main_arg0)))) shapeCasts_S1024x4x64x128_S2x512x4x256x32 := by
  refine (tail_v9 (W4 m ρ c)).trans ?_
  refine congrArg (fun x => shapeCast S2x512x4x256x32 x shapeCasts_S1024x4x64x128_S2x512x4x256x32) ?_
  refine (W4_v6_2 m ρ c).trans ((arr18_rows m ρ c).trans ?_)
  rw [V3_main_v4 m ρ c, adm_tbl0 m ρ c]

theorem W4_v6_3 (c : Dev nD) : (W4 m ρ c (Proc.devRef .tc main_v6_3) : S1024x4x64x128.Idx → Elt F .f32) = (datM m ρ c).arrAt 19 (cfg0 (adm m ρ)).N :=
  W4_out m ρ c 3

theorem arr19_rows (c : Dev nD) : ((datM m ρ c).arrAt 19 (cfg0 (adm m ρ)).N : S1024x4x64x128.Idx → Elt F .f32)
    = gatherRows (V3 m ρ c main_v5) ((adm m ρ).1 0) :=
  arrAt_out3 (adm m ρ) (V3 m ρ) c

/-- Result 3 in the final contents: the rows of the relaid-out table at the clamped indices, relaid out. -/
theorem W5_main_v10 (c : Dev nD) : (W5 m ρ c (Proc.devRef .tc main_v10) : S2x512x4x32x256.Idx → Elt F .f32)
    = shapeCast S2x512x4x32x256 (gatherRows (shapeCast S2048x64x128 (m ((c : Thread nD τ).loc main_arg4)) shapeCasts_S2048x32x256_S2048x64x128) (clampFlat (m ((c : Thread nD τ).loc main_arg0)))) shapeCasts_S1024x4x64x128_S2x512x4x32x256 := by
  refine (tail_v10 (W4 m ρ c)).trans ?_
  refine congrArg (fun x => shapeCast S2x512x4x32x256 x shapeCasts_S1024x4x64x128_S2x512x4x32x256) ?_
  refine (W4_v6_3 m ρ c).trans ((arr19_rows m ρ c).trans ?_)
  rw [V3_main_v5 m ρ c, adm_tbl0 m ρ c]

/-- The loss in the final contents. -/
theorem W5_main_v46 (c : Dev nD) : (W5 m ρ c (Proc.devRef .tc main_v46) : S_.Idx → Elt F .f32)
    = lossOf (m ((c : Thread nD τ).loc main_arg1)) (m ((c : Thread nD τ).loc main_arg2)) (m ((c : Thread nD τ).loc main_arg3)) (m ((c : Thread nD τ).loc main_arg4)) := by
  refine (tail_v46 (W4 m ρ c)).trans ?_
  have e1 : W4 m ρ c (Proc.devRef .tc main_arg1) = m ((c : Thread nD τ).loc main_arg1) := (W4_of_ne m ρ c main_arg1 (by decide)).trans (V3_main_arg1 m ρ c)
  have e2 : W4 m ρ c (Proc.devRef .tc main_arg2) = m ((c : Thread nD τ).loc main_arg2) := (W4_of_ne m ρ c main_arg2 (by decide)).trans (V3_main_arg2 m ρ c)
  have e3 : W4 m ρ c (Proc.devRef .tc main_arg3) = m ((c : Thread nD τ).loc main_arg3) := (W4_of_ne m ρ c main_arg3 (by decide)).trans (V3_main_arg3 m ρ c)
  have e4 : W4 m ρ c (Proc.devRef .tc main_arg4) = m ((c : Thread nD τ).loc main_arg4) := (W4_of_ne m ρ c main_arg4 (by decide)).trans (V3_main_arg4 m ρ c)
  rw [e1, e2, e3, e4]

/-- The five results as the final contents hold them. -/
abbrev res7 (c : Dev nD) : Buf (Elt F) ((c.tc : Thread nD τ).loc main_v7) := W5 m ρ c (Proc.devRef .tc main_v7)
abbrev res8 (c : Dev nD) : Buf (Elt F) ((c.tc : Thread nD τ).loc main_v8) := W5 m ρ c (Proc.devRef .tc main_v8)
abbrev res9 (c : Dev nD) : Buf (Elt F) ((c.tc : Thread nD τ).loc main_v9) := W5 m ρ c (Proc.devRef .tc main_v9)
abbrev res10 (c : Dev nD) : Buf (Elt F) ((c.tc : Thread nD τ).loc main_v10) := W5 m ρ c (Proc.devRef .tc main_v10)
abbrev res46 (c : Dev nD) : Buf (Elt F) ((c.tc : Thread nD τ).loc main_v46) := W5 m ρ c (Proc.devRef .tc main_v46)

/-- THE RUN WITH ITS RESULTS NAMED: every weakly fair execution of @main terminates, nothing faulting, each result at
    the final contents' and the arguments as launched. -/
theorem value_main : θ_run defs (onTc (τ := τ) (main (F := F))) ⟨m, fun _ => 0, ρ⟩ (fun r => ∀ c : Dev nD,
      r.2.mem ((c.tc : Thread nD τ).loc main_v7) = res7 m ρ c
      ∧ r.2.mem ((c.tc : Thread nD τ).loc main_v8) = res8 m ρ c
      ∧ r.2.mem ((c.tc : Thread nD τ).loc main_v9) = res9 m ρ c
      ∧ r.2.mem ((c.tc : Thread nD τ).loc main_v10) = res10 m ρ c
      ∧ r.2.mem ((c.tc : Thread nD τ).loc main_v46) = res46 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v7 (by decide)), h c _ (mem_uc main_v8 (by decide)), h c _ (mem_uc main_v9 (by decide)),
     h c _ (mem_uc main_v10 (by decide)), h c _ (mem_uc main_v46 (by decide)),
     (h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c)⟩) (run_all m ρ)

end Cert.KernelIdeal.Hand

end
-- ==== Proof.RefSide.lean ====
/-
  The reference side of the equivalence: the reference program's run read back operation by operation.
-/
import proofs.«401394_j300647710818_2_alg».proof.Defs
import proofs.«401394_j300647710818_2_alg».proof.Proof.Gen.ReferenceIdeal
import proofs.«401394_j300647710818_2_alg».proof.Proof.Gen.ReferenceIdeal.Run
import proofs.«401394_j300647710818_2_alg».proof.Proof.Gen.ReferenceIdeal.Read
-- ==== Proof.RefGather.lean ====
/-
  Two readings of the reference program. (1) Its gathers at an index: a `stablehlo.gather` of a rank-3 operand
  `[N, D, R]` at start indices `[B, S, K, 1]`, axis 0 collapsed and named by the start index, axes 1 and 2 copied
  whole onto result axes 3 and 4, is at `(b, s, k, d, r)` the operand's entry `(i, d, r)` where `i` is the start
  index `idx[b, s, k, 0]` read signed and clamped into `[0, N − 1]`. (2) The precondition's last conjunct,
  `all (indices ≥ 0)`, decoded: every index word is nonnegative read signed.
-/
import proofs.«401394_j300647710818_2_alg».proof.ReferenceIdeal
import proofs.«401394_j300647710818_2_alg».proof.Proof.Gen.ReferenceIdeal
import proofs.«401394_j300647710818_2_alg».proof.Pre_finite_inputs
import proofs.«401394_j300647710818_2_alg».proof.Proof.Gen.Pre_finite_inputs
import Idealize.ShloMosaic.Lib.ValueIdx
import Idealize.ShloMosaic.Lib.ReduceAll

noncomputable section

namespace Cert.ReferenceIdeal.Hand

open Idealize.ShloMosaic Idealize.ShloMosaic.ValueIdx
open Cert.ReferenceIdeal

section Rows
variable {α : Type}

/-- The dimension numbers of a row gather: operand `[N, D, R]`, start indices `[B, S, K, 1]`, result
    `[B, S, K, D, R]`; axis 0 of the operand is collapsed and indexed, axes 1 and 2 are copied whole. -/
abbrev rowDims (N D R B S K : Nat)
    (wf : GatherDims.WF ⟨3, ![N, D, R]⟩ ⟨4, ![B, S, K, 1]⟩ ⟨5, ![B, S, K, D, R]⟩ [3, 4] [0] [] [0] [] 3 ![1, D, R]) :
    GatherDims ⟨3, ![N, D, R]⟩ ⟨4, ![B, S, K, 1]⟩ ⟨5, ![B, S, K, D, R]⟩ where
  offsetDims := [3, 4]
  collapsedSliceDims := [0]
  operandBatchingDims := []
  startIndicesBatchingDims := []
  startIndexMap := [0]
  indexVectorDim := 3
  sliceSizes := ![1, D, R]
  wf := wf

theorem rowDims_apply {N D R B S K w : Nat} (hN : 0 < N)
    (wf : GatherDims.WF ⟨3, ![N, D, R]⟩ ⟨4, ![B, S, K, 1]⟩ ⟨5, ![B, S, K, D, R]⟩ [3, 4] [0] [] [0] [] 3 ![1, D, R])
    (x : (⟨3, ![N, D, R]⟩ : Shape).Idx → α) (idx : IVec ⟨4, ![B, S, K, 1]⟩ w)
    (b : Fin B) (s : Fin S) (k : Fin K) (d : Fin D) (r : Fin R) :
    Host.gather (rowDims N D R B S K wf) x idx (ix5 b s k d r)
      = x (ix3 (⟨min (idx (ix4 b s k (0 : Fin 1))).toInt.toNat (N - 1), by omega⟩ : Fin N) d r) := by
  unfold Host.gather
  congr 1
  funext a
  refine Fin.ext ?_
  match a with
  | ⟨0, _⟩ =>
    show (rowDims N D R B S K wf).start (ix5 b s k d r) idx (0 : Fin 3)
        + (rowDims N D R B S K wf).batchCoord (ix5 b s k d r) (0 : Fin 3)
        + (rowDims N D R B S K wf).offCoord (ix5 b s k d r) (0 : Fin 3) = _
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 3) ∈ (rowDims N D R B S K wf).startIndexMap from List.mem_singleton.mpr rfl)]
    have hsi : (rowDims N D R B S K wf).siIdx (ix5 b s k d r)
        ⟨List.idxOf (0 : Fin 3) (rowDims N D R B S K wf).startIndexMap,
          List.idxOf_lt_length_iff.2 (List.mem_singleton.mpr rfl)⟩ = ix4 b s k (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show (rowDims N D R B S K wf).start (ix5 b s k d r) idx (1 : Fin 3)
        + (rowDims N D R B S K wf).batchCoord (ix5 b s k d r) (1 : Fin 3)
        + (rowDims N D R B S K wf).offCoord (ix5 b s k d r) (1 : Fin 3) = _
    have h0 : (rowDims N D R B S K wf).start (ix5 b s k d r) idx (1 : Fin 3) = 0 := by
      unfold GatherDims.start
      rw [dif_neg (show (1 : Fin 3) ∉ ([0] : List (Fin 3)) by decide)]
    rw [GatherDims.batchCoord_eq_zero _ _ _ List.not_mem_nil, Nat.add_zero, h0, Nat.zero_add]
    rfl
  | ⟨2, _⟩ =>
    show (rowDims N D R B S K wf).start (ix5 b s k d r) idx (2 : Fin 3)
        + (rowDims N D R B S K wf).batchCoord (ix5 b s k d r) (2 : Fin 3)
        + (rowDims N D R B S K wf).offCoord (ix5 b s k d r) (2 : Fin 3) = _
    have h0 : (rowDims N D R B S K wf).start (ix5 b s k d r) idx (2 : Fin 3) = 0 := by
      unfold GatherDims.start
      rw [dif_neg (show (2 : Fin 3) ∉ ([0] : List (Fin 3)) by decide)]
    rw [GatherDims.batchCoord_eq_zero _ _ _ List.not_mem_nil, Nat.add_zero, h0, Nat.zero_add]
    rfl

end Rows

/-- The first printed gather (operand `[2048, 256, 32]`) read at a result index: the operand's row at the start index
    `idx[b, s, k, 0]`, read signed and clamped into `[0, 2047]`, at the same two trailing coordinates. -/
theorem gather_rows_apply {α : Type} (x : S2048x256x32.Idx → α) (idx : IVec S2x512x4x1 32)
    (b : Fin 2) (s : Fin 512) (k : Fin 4) (d : Fin 256) (r : Fin 32) :
    Host.gather gather_S2048x256x32_S2x512x4x1_S2x512x4x256x32_34_0_n_n_0_3_125632 x idx (ValueIdx.ix5 b s k d r)
      = x (ValueIdx.ix3 (⟨min (idx (ValueIdx.ix4 b s k (0 : Fin 1))).toInt.toNat 2047, by omega⟩ : Fin 2048) d r) :=
  rowDims_apply (N := 2048) (by decide) gather_S2048x256x32_S2x512x4x1_S2x512x4x256x32_34_0_n_n_0_3_125632.wf x idx b s k d r

/-- The second printed gather (operand `[2048, 32, 256]`) read at a result index, likewise. -/
theorem gather_rows_apply' {α : Type} (x : S2048x32x256.Idx → α) (idx : IVec S2x512x4x1 32)
    (b : Fin 2) (s : Fin 512) (k : Fin 4) (d : Fin 32) (r : Fin 256) :
    Host.gather gather_S2048x32x256_S2x512x4x1_S2x512x4x32x256_34_0_n_n_0_3_132256 x idx (ValueIdx.ix5 b s k d r)
      = x (ValueIdx.ix3 (⟨min (idx (ValueIdx.ix4 b s k (0 : Fin 1))).toInt.toNat 2047, by omega⟩ : Fin 2048) d r) :=
  rowDims_apply (N := 2048) (by decide) gather_S2048x32x256_S2x512x4x1_S2x512x4x32x256_34_0_n_n_0_3_132256.wf x idx b s k d r

/-- The precondition's last conjunct decoded: where the printed predicate is true, every index word is nonnegative
    read signed. The predicate is an `and` of two words, the second the `and`-reduction over all axes of the elementwise
    signed comparison `indices ≥ 0`; a conjunction that is 1 has both operands 1, a reduction by `and` that is 1 met only
    1s, and the comparison word at an index is 1 exactly when `0 ≤ indices[i]` as signed integers. -/
theorem idx_nonneg {F : FTy → Type} [FloatOps F] (a0 : IVec Cert.Pre_finite_inputs.S2x512x4 32)
    (a1 a2 a3 : FVec F Cert.Pre_finite_inputs.S2048x256x32 .f32) (a4 : FVec F Cert.Pre_finite_inputs.S2048x32x256 .f32)
    (h : Cert.Pre_finite_inputs.fn (F := F) a0 a1 a2 a3 a4 = fun _ => 1#1) : ∀ i, 0 ≤ (a0 i).toInt := by
  intro i
  -- the scalar shape has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  exact IntOp.cmpi_sge.1 h2

end Cert.ReferenceIdeal.Hand

end
-- ==== Proof.Bridge.lean ====
/-
  The index identity between the two gathers, with no program in it.  One side reshapes a weight table of rows
  [256, 32] (or [32, 256]) to rows [64, 128], clamps every index into [0, 2047], lays the indices out flat, places row
  `4 i + k` of the flat table at `(i, k)` of a [1024, 4, 64, 128] array and reshapes that to [2, 512, 4, 256, 32]
  (or [2, 512, 4, 32, 256]).  The other wraps a negative index round by 2048 and reads the table's row at the result,
  capped at 2047.  When no index is negative the two read the same entry of the table: a reshape keeps row-major
  positions, `((512 b + s) 4 + k) 8192 + (32 d + r)` on both sides, and on a word that is not negative the clamp and the
  wrap-then-cap give the same natural number.
-/
import proofs.«401394_j300647710818_2_alg».proof.Proof.KSpec
import proofs.«401394_j300647710818_2_alg».proof.ReferenceIdeal
import proofs.«401394_j300647710818_2_alg».proof.Proof.Gen.ReferenceIdeal
import Idealize.ShloMosaic.Lib.ValueIdx
import Idealize.ShloMosaic.Lib.Pipeline.Value
import Idealize.ShloMosaic.Lib.ValueLayout

noncomputable section

namespace Cert.Bridge

open Idealize.ShloMosaic

/-! ## Words: a signed 32-bit number that is not negative -/

/-- A word that is not negative as a signed number is below 2^31 as a natural number. -/
theorem nonneg_toNat_lt (x : BitVec 32) (h : 0 ≤ x.toInt) : x.toNat < 2147483648 := by
  rw [BitVec.toInt_eq_toNat_cond] at h
  split at h <;> omega

/-- Its signed and unsigned readings agree. -/
theorem nonneg_toInt (x : BitVec 32) (h : 0 ≤ x.toInt) : x.toInt = (x.toNat : Int) := by
  have hx := nonneg_toNat_lt x h
  rw [BitVec.toInt_eq_toNat_cond]
  split <;> omega

/-- It is not below zero in the signed order. -/
theorem nonneg_not_slt (x : BitVec 32) (h : 0 ≤ x.toInt) : x.slt 0#32 = false := by
  have h0 : (0#32 : BitVec 32).toInt = 0 := by decide
  rw [Bool.eq_false_iff]
  intro hc
  rw [BitVec.slt_iff_toInt_lt, h0] at hc
  omega

/-- The signed clamp into [0, 2047] of such a word is the minimum of the word and 2047, as natural numbers. -/
theorem clamp_toNat (x : BitVec 32) (h : 0 ≤ x.toInt) :
    (IntOp.minsi 2047#32 (IntOp.maxsi 0#32 x)).toNat = min x.toNat 2047 := by
  have hi := nonneg_toInt x h
  have hs := nonneg_not_slt x h
  have h2 : (2047#32 : BitVec 32).toInt = 2047 := by decide
  have hm : IntOp.maxsi 0#32 x = x := by
    unfold IntOp.maxsi
    rw [hs]; rfl
  rw [hm]
  unfold IntOp.minsi
  by_cases hc : (2047#32 : BitVec 32).slt x = true
  · rw [if_pos hc]
    rw [BitVec.slt_iff_toInt_lt, h2, hi] at hc
    show 2047 = min x.toNat 2047
    omega
  · rw [if_neg hc]
    rw [BitVec.slt_iff_toInt_lt, h2, hi] at hc
    omega

/-- Wrapping a negative index round by the table's length leaves such a word as it is. -/
theorem wrap_word (x : BitVec 32) (h : 0 ≤ x.toInt) :
    Scalar.select (IntOp.cmpi .slt x 0#32) (IntOp.addi x 2048#32) x = x := by
  have hs := nonneg_not_slt x h
  unfold Scalar.select IntOp.cmpi
  show (if BitVec.ofBool (x.slt 0#32) = 1 then IntOp.addi x 2048#32 else x) = x
  rw [hs]
  rfl

/-- The natural number of its signed reading is its unsigned reading. -/
theorem toInt_toNat (x : BitVec 32) (h : 0 ≤ x.toInt) : x.toInt.toNat = x.toNat := by
  rw [nonneg_toInt x h]
  rfl

/-! ## The reference's start indices -/

/-- The reference's start indices: a negative index wrapped round by the table's length 2048, every other index as it
    is, with a trailing unit axis. -/
def sel (idx : IVec Cert.ReferenceIdeal.S2x512x4 32) : IVec Cert.ReferenceIdeal.S2x512x4x1 32 :=
  broadcastInDim Cert.ReferenceIdeal.S2x512x4x1 ![0, 1, 2] Cert.ReferenceIdeal.Facts₀.bcast_S2x512x4_S2x512x4x1_0_1_2
    (select
      (cmpi .slt idx (broadcastInDim Cert.ReferenceIdeal.S2x512x4 ![] Cert.ReferenceIdeal.Facts₀.bcast_S_S2x512x4
        (constantI Cert.ReferenceIdeal.S_ 32 0#32)))
      (addi idx (broadcastInDim Cert.ReferenceIdeal.S2x512x4 ![] Cert.ReferenceIdeal.Facts₀.bcast_S_S2x512x4
        (constantI Cert.ReferenceIdeal.S_ 32 2048#32)))
      idx)

/-- Read at `(b, s, k, 0)`, the start index is the wrapped word of `idx (b, s, k)`. -/
theorem sel_apply (idx : IVec Cert.ReferenceIdeal.S2x512x4 32) (b : Fin 2) (s : Fin 512) (k : Fin 4) :
    sel idx (ValueIdx.ix4 b s k (0 : Fin 1))
      = Scalar.select (IntOp.cmpi .slt (idx (ValueIdx.ix3 b s k)) 0#32) (IntOp.addi (idx (ValueIdx.ix3 b s k)) 2048#32)
          (idx (ValueIdx.ix3 b s k)) := by
  unfold sel
  refine (broadcastInDim_apply _ _ _ (ValueIdx.ix4 b s k (0 : Fin 1)) (ValueIdx.ix3 b s k)
    (fun a => match a with | ⟨0, _⟩ => rfl | ⟨1, _⟩ => rfl | ⟨2, _⟩ => rfl)).trans ?_
  rfl

/-- Read at flat position `4 (512 b + s) + k`, the clamped flat table is the clamp of `idx (b, s, k)`. -/
theorem clampFlat_apply (idx : IVec Cert.KernelIdeal.S2x512x4 32) (b : Fin 2) (s : Fin 512) (k : Fin 4) (p : Fin 4096)
    (hp : p.val = 4 * (b.val * 512 + s.val) + k.val) :
    Cert.KernelIdeal.Hand.clampFlat idx (ValueIdx.ix1 p)
      = IntOp.minsi 2047#32 (IntOp.maxsi 0#32 (idx (ValueIdx.ix3 b s k))) := by
  unfold Cert.KernelIdeal.Hand.clampFlat
  refine (shapeCast_apply _ _ (ValueIdx.ix1 p) (ValueIdx.ix3 b s k)
    (by rw [Shape.rowMajor_val_three, Shape.rowMajor_val_one]
        show (b.val * 512 + s.val) * 4 + k.val = p.val
        omega)).trans ?_
  rfl

/-! ## The index arithmetic of the three reshapes -/

/-- The gathered array read at `(i, k, y, z)` is the table at the row the flat index table names at `4 i + k`. -/
theorem gatherRows_apply {α : Type} (T : Cert.KernelIdeal.S2048x64x128.Idx → α) (tb : IVec Cert.KernelIdeal.S4096 32)
    (i : Fin 1024) (k : Fin 4) (y : Fin 64) (z : Fin 128) (hp : 4 * i.val + k.val < 4096) :
    Cert.KernelIdeal.Hand.gatherRows T tb (ValueIdx.ix4 i k y z)
      = T (ValueIdx.ix3 (⟨min (tb (ValueIdx.ix1 (⟨4 * i.val + k.val, hp⟩ : Fin 4096))).toNat 2047, by omega⟩ : Fin 2048) y z) :=
  rfl

/-- The table relaid from rows of [256, 32] to rows of [64, 128] keeps its rows: `(row, y, z)` of the second is
    `(row, d, r)` of the first when `128 y + z = 32 d + r`. -/
theorem table_apply {α : Type} (W : Cert.KernelIdeal.S2048x256x32.Idx → α)
    (h1 : Cert.KernelIdeal.S2048x256x32.ShapeCasts Cert.KernelIdeal.S2048x64x128)
    (row : Fin 2048) (d : Fin 256) (r : Fin 32) (y : Fin 64) (z : Fin 128) (hyz : y.val * 128 + z.val = d.val * 32 + r.val) :
    shapeCast Cert.KernelIdeal.S2048x64x128 W h1 (ValueIdx.ix3 row y z) = W (ValueIdx.ix3 row d r) := by
  refine shapeCast_apply W h1 (ValueIdx.ix3 row y z) (ValueIdx.ix3 row d r) ?_
  rw [Shape.rowMajor_val_three, Shape.rowMajor_val_three]
  show (row.val * 256 + d.val) * 32 + r.val = (row.val * 64 + y.val) * 128 + z.val
  omega

/-- The same for a table whose rows are [32, 256]. -/
theorem table_apply' {α : Type} (W : Cert.KernelIdeal.S2048x32x256.Idx → α)
    (h1 : Cert.KernelIdeal.S2048x32x256.ShapeCasts Cert.KernelIdeal.S2048x64x128)
    (row : Fin 2048) (d : Fin 32) (r : Fin 256) (y : Fin 64) (z : Fin 128) (hyz : y.val * 128 + z.val = d.val * 256 + r.val) :
    shapeCast Cert.KernelIdeal.S2048x64x128 W h1 (ValueIdx.ix3 row y z) = W (ValueIdx.ix3 row d r) := by
  refine shapeCast_apply W h1 (ValueIdx.ix3 row y z) (ValueIdx.ix3 row d r) ?_
  rw [Shape.rowMajor_val_three, Shape.rowMajor_val_three]
  show (row.val * 32 + d.val) * 256 + r.val = (row.val * 64 + y.val) * 128 + z.val
  omega

/-- The two sides name the same row: when no index is negative, the clamped flat table at `4 (512 b + s) + k` and the
    reference's start index at `(b, s, k, 0)`, each capped at the last row, are the same natural number. -/
theorem row_eq (idx : IVec Cert.KernelIdeal.S2x512x4 32) (h : ∀ i, 0 ≤ (idx i).toInt)
    (b : Fin 2) (s : Fin 512) (k : Fin 4) (p : Fin 4096) (hp : p.val = 4 * (b.val * 512 + s.val) + k.val) :
    min (Cert.KernelIdeal.Hand.clampFlat idx (ValueIdx.ix1 p)).toNat 2047
      = min (sel idx (ValueIdx.ix4 b s k (0 : Fin 1))).toInt.toNat 2047 := by
  have hx := h (ValueIdx.ix3 b s k)
  rw [clampFlat_apply idx b s k p hp, sel_apply, wrap_word _ hx, clamp_toNat _ hx, toInt_toNat _ hx]
  omega

/-! ## The identity -/

/-- The kernel's gather read at `(b, s, k, d, r)` is the table at the reference's row, for any proofs of the two
    reshapes' side conditions. -/
theorem rows_eq_of {α : Type} (W : Cert.KernelIdeal.S2048x256x32.Idx → α) (idx : IVec Cert.KernelIdeal.S2x512x4 32)
    (h : ∀ i, 0 ≤ (idx i).toInt)
    (h1 : Cert.KernelIdeal.S2048x256x32.ShapeCasts Cert.KernelIdeal.S2048x64x128)
    (h2 : Cert.KernelIdeal.S1024x4x64x128.ShapeCasts Cert.KernelIdeal.S2x512x4x256x32)
    (b : Fin 2) (s : Fin 512) (k : Fin 4) (d : Fin 256) (r : Fin 32) :
    shapeCast Cert.KernelIdeal.S2x512x4x256x32
        (Cert.KernelIdeal.Hand.gatherRows (shapeCast Cert.KernelIdeal.S2048x64x128 W h1) (Cert.KernelIdeal.Hand.clampFlat idx))
        h2 (ValueIdx.ix5 b s k d r)
      = W (ValueIdx.ix3 (⟨min (sel idx (ValueIdx.ix4 b s k (0 : Fin 1))).toInt.toNat 2047, by omega⟩ : Fin 2048) d r) := by
  have hb := b.isLt
  have hs := s.isLt
  have hk := k.isLt
  have hd := d.isLt
  have hr := r.isLt
  have hi : b.val * 512 + s.val < 1024 := by omega
  have hy : (d.val * 32 + r.val) / 128 < 64 := by omega
  have hz : (d.val * 32 + r.val) % 128 < 128 := by omega
  have hp : 4 * (b.val * 512 + s.val) + k.val < 4096 := by omega
  -- the outer reshape: (b, s, k, d, r) of [2, 512, 4, 256, 32] is (512 b + s, k, y, z) of [1024, 4, 64, 128]
  refine (shapeCast_apply _ h2 (ValueIdx.ix5 b s k d r)
    (ValueIdx.ix4 (⟨b.val * 512 + s.val, hi⟩ : Fin 1024) k (⟨(d.val * 32 + r.val) / 128, hy⟩ : Fin 64)
      (⟨(d.val * 32 + r.val) % 128, hz⟩ : Fin 128))
    (by rw [Shape.rowMajor_val_four, Shape.rowMajor_val_five]
        show (((b.val * 512 + s.val) * 4 + k.val) * 64 + (d.val * 32 + r.val) / 128) * 128 + (d.val * 32 + r.val) % 128
          = (((b.val * 512 + s.val) * 4 + k.val) * 256 + d.val) * 32 + r.val
        omega)).trans ?_
  -- the gathered row, then the table's reshape
  refine (gatherRows_apply _ _ _ k _ _ hp).trans ?_
  refine (table_apply W h1 _ d r _ _ (by
    show (d.val * 32 + r.val) / 128 * 128 + (d.val * 32 + r.val) % 128 = d.val * 32 + r.val
    omega)).trans ?_
  -- the two rows agree
  exact congrArg (fun row : Fin 2048 => W (ValueIdx.ix3 row d r))
    (Fin.ext (row_eq idx h b s k (⟨4 * (b.val * 512 + s.val) + k.val, hp⟩ : Fin 4096) rfl))

/-- The same for a table whose rows are [32, 256], read at `(b, s, k, d, r)` of [2, 512, 4, 32, 256]. -/
theorem rows_eq'_of {α : Type} (W : Cert.KernelIdeal.S2048x32x256.Idx → α) (idx : IVec Cert.KernelIdeal.S2x512x4 32)
    (h : ∀ i, 0 ≤ (idx i).toInt)
    (h1 : Cert.KernelIdeal.S2048x32x256.ShapeCasts Cert.KernelIdeal.S2048x64x128)
    (h2 : Cert.KernelIdeal.S1024x4x64x128.ShapeCasts Cert.KernelIdeal.S2x512x4x32x256)
    (b : Fin 2) (s : Fin 512) (k : Fin 4) (d : Fin 32) (r : Fin 256) :
    shapeCast Cert.KernelIdeal.S2x512x4x32x256
        (Cert.KernelIdeal.Hand.gatherRows (shapeCast Cert.KernelIdeal.S2048x64x128 W h1) (Cert.KernelIdeal.Hand.clampFlat idx))
        h2 (ValueIdx.ix5 b s k d r)
      = W (ValueIdx.ix3 (⟨min (sel idx (ValueIdx.ix4 b s k (0 : Fin 1))).toInt.toNat 2047, by omega⟩ : Fin 2048) d r) := by
  have hb := b.isLt
  have hs := s.isLt
  have hk := k.isLt
  have hd := d.isLt
  have hr := r.isLt
  have hi : b.val * 512 + s.val < 1024 := by omega
  have hy : (d.val * 256 + r.val) / 128 < 64 := by omega
  have hz : (d.val * 256 + r.val) % 128 < 128 := by omega
  have hp : 4 * (b.val * 512 + s.val) + k.val < 4096 := by omega
  -- the outer reshape: (b, s, k, d, r) of [2, 512, 4, 32, 256] is (512 b + s, k, y, z) of [1024, 4, 64, 128]
  refine (shapeCast_apply _ h2 (ValueIdx.ix5 b s k d r)
    (ValueIdx.ix4 (⟨b.val * 512 + s.val, hi⟩ : Fin 1024) k (⟨(d.val * 256 + r.val) / 128, hy⟩ : Fin 64)
      (⟨(d.val * 256 + r.val) % 128, hz⟩ : Fin 128))
    (by rw [Shape.rowMajor_val_four, Shape.rowMajor_val_five]
        show (((b.val * 512 + s.val) * 4 + k.val) * 64 + (d.val * 256 + r.val) / 128) * 128 + (d.val * 256 + r.val) % 128
          = (((b.val * 512 + s.val) * 4 + k.val) * 32 + d.val) * 256 + r.val
        omega)).trans ?_
  -- the gathered row, then the table's reshape
  refine (gatherRows_apply _ _ _ k _ _ hp).trans ?_
  refine (table_apply' W h1 _ d r _ _ (by
    show (d.val * 256 + r.val) / 128 * 128 + (d.val * 256 + r.val) % 128 = d.val * 256 + r.val
    omega)).trans ?_
  -- the two rows agree
  exact congrArg (fun row : Fin 2048 => W (ValueIdx.ix3 row d r))
    (Fin.ext (row_eq idx h b s k (⟨4 * (b.val * 512 + s.val) + k.val, hp⟩ : Fin 4096) rfl))

/-- The identity at the side conditions the kernel program states for its reshapes, rows of [256, 32]. -/
theorem rows_eq {α : Type} (W : Cert.KernelIdeal.S2048x256x32.Idx → α) (idx : IVec Cert.KernelIdeal.S2x512x4 32)
    (h : ∀ i, 0 ≤ (idx i).toInt) (b : Fin 2) (s : Fin 512) (k : Fin 4) (d : Fin 256) (r : Fin 32) :
    shapeCast Cert.KernelIdeal.S2x512x4x256x32
        (Cert.KernelIdeal.Hand.gatherRows
          (shapeCast Cert.KernelIdeal.S2048x64x128 W Cert.KernelIdeal.Facts₀.shapeCasts_S2048x256x32_S2048x64x128)
          (Cert.KernelIdeal.Hand.clampFlat idx))
        Cert.KernelIdeal.Facts₀.shapeCasts_S1024x4x64x128_S2x512x4x256x32 (ValueIdx.ix5 b s k d r)
      = W (ValueIdx.ix3 (⟨min (sel idx (ValueIdx.ix4 b s k (0 : Fin 1))).toInt.toNat 2047, by omega⟩ : Fin 2048) d r) :=
  rows_eq_of W idx h _ _ b s k d r

/-- The identity at the side conditions the kernel program states for its reshapes, rows of [32, 256]. -/
theorem rows_eq' {α : Type} (W : Cert.KernelIdeal.S2048x32x256.Idx → α) (idx : IVec Cert.KernelIdeal.S2x512x4 32)
    (h : ∀ i, 0 ≤ (idx i).toInt) (b : Fin 2) (s : Fin 512) (k : Fin 4) (d : Fin 32) (r : Fin 256) :
    shapeCast Cert.KernelIdeal.S2x512x4x32x256
        (Cert.KernelIdeal.Hand.gatherRows
          (shapeCast Cert.KernelIdeal.S2048x64x128 W Cert.KernelIdeal.Facts₀.shapeCasts_S2048x32x256_S2048x64x128)
          (Cert.KernelIdeal.Hand.clampFlat idx))
        Cert.KernelIdeal.Facts₀.shapeCasts_S1024x4x64x128_S2x512x4x32x256 (ValueIdx.ix5 b s k d r)
      = W (ValueIdx.ix3 (⟨min (sel idx (ValueIdx.ix4 b s k (0 : Fin 1))).toInt.toNat 2047, by omega⟩ : Fin 2048) d r) :=
  rows_eq'_of W idx h _ _ b s k d r

end Cert.Bridge

end
-- ==== Proof.GatherEq.lean ====
/-
  The two gathers as whole arrays.  The reference gathers a weight table at start indices that wrap a negative index
  round by 2048; the kernel's call leaves the rows `4 i + k` of the clamped flat index table in a [1024, 4, 64, 128]
  array, reshaped.  When no index is negative the two arrays are equal: at every `(b, s, k, d, r)` each is the table's
  entry `(row, d, r)` at the same row.
-/
import proofs.«401394_j300647710818_2_alg».proof.Proof.Bridge
import proofs.«401394_j300647710818_2_alg».proof.Proof.RefGather

noncomputable section

namespace Cert.Bridge

open Idealize.ShloMosaic

/-! ## The start indices as the reference's run prints them -/

open Cert.ReferenceIdeal Cert.ReferenceIdeal.Gen in
/-- The index term of the reference's run, over any index array, is `sel`. -/
theorem sel_run (x : IVec Cert.ReferenceIdeal.S2x512x4 32) :
    broadcastInDim S2x512x4x1 ![0, 1, 2] bcast_S2x512x4_S2x512x4x1_0_1_2
      (select (cmpi .slt x (broadcastInDim S2x512x4 ![] bcast_S_S2x512x4 (constantI S_ 32 0#32)))
        (addi x (broadcastInDim S2x512x4 ![] bcast_S_S2x512x4 (constantI S_ 32 2048#32))) x) = sel x :=
  rfl

/-! ## The two gathers as whole arrays -/

/-- When no index is negative, the reference's gather of a table with rows [256, 32] at its start indices is the
    kernel's gathered array: the two agree at every `(b, s, k, d, r)`. -/
theorem gather_eq {α : Type} (W : Cert.KernelIdeal.S2048x256x32.Idx → α) (idx : IVec Cert.KernelIdeal.S2x512x4 32)
    (h : ∀ i, 0 ≤ (idx i).toInt) :
    (Host.gather Cert.ReferenceIdeal.gather_S2048x256x32_S2x512x4x1_S2x512x4x256x32_34_0_n_n_0_3_125632 W (sel idx)
        : Cert.ReferenceIdeal.S2x512x4x256x32.Idx → α)
      = shapeCast Cert.KernelIdeal.S2x512x4x256x32
          (Cert.KernelIdeal.Hand.gatherRows
            (shapeCast Cert.KernelIdeal.S2048x64x128 W Cert.KernelIdeal.Facts₀.shapeCasts_S2048x256x32_S2048x64x128)
            (Cert.KernelIdeal.Hand.clampFlat idx))
          Cert.KernelIdeal.Facts₀.shapeCasts_S1024x4x64x128_S2x512x4x256x32 := by
  funext j
  obtain ⟨b, s, k, d, r, rfl⟩ : ∃ (b : Fin 2) (s : Fin 512) (k : Fin 4) (d : Fin 256) (r : Fin 32),
      j = ValueIdx.ix5 b s k d r := ⟨j 0, j 1, j 2, j 3, j 4, ValueIdx.eq_ix5 j⟩
  exact (Cert.ReferenceIdeal.Hand.gather_rows_apply W (sel idx) b s k d r).trans (rows_eq W idx h b s k d r).symm

/-- The same for a table with rows [32, 256]. -/
theorem gather_eq' {α : Type} (W : Cert.KernelIdeal.S2048x32x256.Idx → α) (idx : IVec Cert.KernelIdeal.S2x512x4 32)
    (h : ∀ i, 0 ≤ (idx i).toInt) :
    (Host.gather Cert.ReferenceIdeal.gather_S2048x32x256_S2x512x4x1_S2x512x4x32x256_34_0_n_n_0_3_132256 W (sel idx)
        : Cert.ReferenceIdeal.S2x512x4x32x256.Idx → α)
      = shapeCast Cert.KernelIdeal.S2x512x4x32x256
          (Cert.KernelIdeal.Hand.gatherRows
            (shapeCast Cert.KernelIdeal.S2048x64x128 W Cert.KernelIdeal.Facts₀.shapeCasts_S2048x32x256_S2048x64x128)
            (Cert.KernelIdeal.Hand.clampFlat idx))
          Cert.KernelIdeal.Facts₀.shapeCasts_S1024x4x64x128_S2x512x4x32x256 := by
  funext j
  obtain ⟨b, s, k, d, r, rfl⟩ : ∃ (b : Fin 2) (s : Fin 512) (k : Fin 4) (d : Fin 32) (r : Fin 256),
      j = ValueIdx.ix5 b s k d r := ⟨j 0, j 1, j 2, j 3, j 4, ValueIdx.eq_ix5 j⟩
  exact (Cert.ReferenceIdeal.Hand.gather_rows_apply' W (sel idx) b s k d r).trans (rows_eq' W idx h b s k d r).symm

end Cert.Bridge

end
-- ==== Proof.LossEq.lean ====
/-
  The reference program's loss and the kernel program's loss are one function of the four weight
  tables: both are the same chain of operations, written once over each program's own names for the
  shapes and the contraction's dimension record, and those names unfold to the same extents.
-/
import proofs.«401394_j300647710818_2_alg».proof.Proof.KTail
import proofs.«401394_j300647710818_2_alg».proof.Proof.Gen.ReferenceIdeal.Run

set_option maxRecDepth 16384

noncomputable section

namespace Cert.Bridge

open Idealize.ShloMosaic Idealize.ShloMosaic.TcCoe Idealize.SL.Sem

/-- The reference's last result, as the reference's run states it, is the kernel side's loss function at
    the reference's own four weight tables. -/
theorem loss_eq {F : FTy → Type} [FloatOps F]
    (m' : (ℓ : Loc Cert.ReferenceIdeal.nD Cert.ReferenceIdeal.τ Cert.ReferenceIdeal.sig) → Buf (Elt F) ℓ)
    (c : Dev Cert.ReferenceIdeal.nD) :
    (Cert.ReferenceIdeal.Value.res_main_v63 (F := F) m' c : Cert.ReferenceIdeal.S_.Idx → Elt F .f32)
      = Cert.KernelIdeal.Hand.lossOf
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  unfold Cert.ReferenceIdeal.Value.res_main_v63 Cert.KernelIdeal.Hand.lossOf
  rfl

end Cert.Bridge

end
-- ==== Proof.lean ====
/-
  The equivalence of a row-gathering kernel with its reference.  Both programs return four arrays W[indices] — for each of
  2·512·4 indices a whole [256, 32] (or [32, 256]) slab of a weight table of 2048 slabs — and a scalar loss of the four
  tables.  The kernel clamps each index into [0, 2047], lays every table out as [2048, 64, 128], and its one call copies,
  at grid point i, slab tb[4 i + k] into position (i, k) of a [1024, 4, 64, 128] result (the index table prefetched, each
  table handed to the call through four windows); the results are laid out back as [2, 512, 4, 256, 32].  The reference
  wraps a negative index by 2048 and its gather clamps the start into [0, 2047].  For indices that are not negative — the
  precondition — both read slab min(index, 2047), and the two layouts of a slab are one row-major order, so the results
  agree index by index.  The loss is computed by the same chain of host operations of the four tables on both sides.
  The frames: each program terminates without fault and leaves its arguments as launched; the kernel's needs no range
  assumption, since the clamp keeps every table entry inside the tables.
-/
import proofs.«401394_j300647710818_2_alg».proof.Defs
import proofs.«401394_j300647710818_2_alg».proof.Proof.Gen.Kernel
import proofs.«401394_j300647710818_2_alg».proof.Proof.Gen.KernelIdeal
import proofs.«401394_j300647710818_2_alg».proof.Proof.Gen.ReferenceIdeal
import proofs.«401394_j300647710818_2_alg».proof.Proof.Gen.Pre_finite_inputs
import proofs.«401394_j300647710818_2_alg».proof.Proof.BFrame
import proofs.«401394_j300647710818_2_alg».proof.Proof.KValueMain
import proofs.«401394_j300647710818_2_alg».proof.Proof.RefSide
import proofs.«401394_j300647710818_2_alg».proof.Proof.RefGather
import proofs.«401394_j300647710818_2_alg».proof.Proof.GatherEq
import proofs.«401394_j300647710818_2_alg».proof.Proof.LossEq
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_k : @Cert.frame_Kernel Cert.Kernel.Gen.facts Cert.Pre_finite_inputs.Gen.facts :=
  fun m ρ _ => Cert.Kernel.Hand.frame_main m ρ

/-- So does its reading over the extended reals. -/
theorem frame_ki : @Cert.frame_KernelIdeal Cert.KernelIdeal.Gen.facts Cert.Pre_finite_inputs.Gen.facts :=
  fun m ρ _ => Cert.KernelIdeal.Hand.frame_main m ρ

/-- The reference is host operations only: its run, with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2)
    (Cert.ReferenceIdeal.Value.run (F := Ideal) m ρ)

/-- Over the extended reals the two programs return the same five results from memories that agree on the arguments,
    when no index is negative. -/
theorem algebraic : @Cert.algebraic_KernelIdeal_ReferenceIdeal Cert.KernelIdeal.Gen.facts Cert.ReferenceIdeal.Gen.facts Cert.Pre_finite_inputs.Gen.facts := by
  intro m ρ m' ρ' hpre hagree
  -- the precondition's last conjunct: every index is at least 0 as a signed word
  have hidx : ∀ c : Dev Cert.KernelIdeal.nD, ∀ i, 0 ≤ ((m ((c.tc : Thread Cert.KernelIdeal.nD Cert.KernelIdeal.τ).loc Cert.KernelIdeal.main_arg0)) i).toInt :=
    fun c => Cert.ReferenceIdeal.Hand.idx_nonneg _ _ _ _ _ (hpre c)
  refine ⟨Cert.KernelIdeal.Hand.res7 m ρ, Cert.KernelIdeal.Hand.res8 m ρ, Cert.KernelIdeal.Hand.res9 m ρ,
    Cert.KernelIdeal.Hand.res10 m ρ, Cert.KernelIdeal.Hand.res46 m ρ, Cert.KernelIdeal.Hand.value_main (F := Ideal) m ρ, ?_⟩
  refine (θ_run Cert.ReferenceIdeal.defs _ _).mono (fun _ h c =>
    ⟨(h c).1.trans ?_, (h c).2.1.trans ?_, (h c).2.2.1.trans ?_, (h c).2.2.2.1.trans ?_, (h c).2.2.2.2.1.trans ?_, (h c).2.2.2.2.2⟩)
    (Cert.ReferenceIdeal.Value.run (F := Ideal) m' ρ')
  · -- result 0: the reference's gather is the kernel's relayout of gathered rows
    rw [(hagree c).1, (hagree c).2.1]
    refine (congrArg (Host.gather _ _) (Cert.Bridge.sel_run _)).trans ?_
    exact (Cert.Bridge.gather_eq _ _ (hidx c)).trans (Cert.KernelIdeal.Hand.W5_main_v7 m ρ c).symm
  · -- result 1: the reference's gather is the kernel's relayout of gathered rows
    rw [(hagree c).1, (hagree c).2.2.1]
    refine (congrArg (Host.gather _ _) (Cert.Bridge.sel_run _)).trans ?_
    exact (Cert.Bridge.gather_eq _ _ (hidx c)).trans (Cert.KernelIdeal.Hand.W5_main_v8 m ρ c).symm
  · -- result 2: the reference's gather is the kernel's relayout of gathered rows
    rw [(hagree c).1, (hagree c).2.2.2.1]
    refine (congrArg (Host.gather _ _) (Cert.Bridge.sel_run _)).trans ?_
    exact (Cert.Bridge.gather_eq _ _ (hidx c)).trans (Cert.KernelIdeal.Hand.W5_main_v9 m ρ c).symm
  · -- result 3: the reference's gather is the kernel's relayout of gathered rows
    rw [(hagree c).1, (hagree c).2.2.2.2]
    refine (congrArg (Host.gather _ _) (Cert.Bridge.sel_run _)).trans ?_
    exact (Cert.Bridge.gather_eq' _ _ (hidx c)).trans (Cert.KernelIdeal.Hand.W5_main_v10 m ρ c).symm
  · -- the loss: one function of the four tables on both sides
    rw [Cert.Bridge.loss_eq m' c, (hagree c).2.1, (hagree c).2.2.1, (hagree c).2.2.2.1, (hagree c).2.2.2.2]
    exact (Cert.KernelIdeal.Hand.W5_main_v46 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
